-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048 : Shape := ⟨1, ![2048]⟩
abbrev S2000x10 : Shape := ⟨2, ![2000, 10]⟩
abbrev S40000x10 : Shape := ⟨2, ![40000, 10]⟩
abbrev S2000x40000 : Shape := ⟨2, ![2000, 40000]⟩
abbrev S40000 : Shape := ⟨1, ![40000]⟩
abbrev S5000 : Shape := ⟨1, ![5000]⟩
abbrev S2000x5000x20 : Shape := ⟨3, ![2000, 5000, 20]⟩
abbrev S_ : Shape := ⟨0, ![]⟩

class Facts : Prop where
  bcast_S_S2000x10 : S_.BroadcastsInDim S2000x10 (![] : Fin 0 → Fin S2000x10.rank)
  reducesTo_S2000x10_S_d0_1 : S2000x10.ReducesTo [0, 1] S_
  h_S_ : 0 < S_.numel
  bcast_S_S40000x10 : S_.BroadcastsInDim S40000x10 (![] : Fin 0 → Fin S40000x10.rank)
  reducesTo_S40000x10_S_d0_1 : S40000x10.ReducesTo [0, 1] S_
  bcast_S_S2000x40000 : S_.BroadcastsInDim S2000x40000 (![] : Fin 0 → Fin S2000x40000.rank)
  reducesTo_S2000x40000_S_d0_1 : S2000x40000.ReducesTo [0, 1] S_
  bcast_S_S40000 : S_.BroadcastsInDim S40000 (![] : Fin 0 → Fin S40000.rank)
  reducesTo_S40000_S_d0 : S40000.ReducesTo [0] S_
  bcast_S_S5000 : S_.BroadcastsInDim S5000 (![] : Fin 0 → Fin S5000.rank)
  reducesTo_S5000_S_d0 : S5000.ReducesTo [0] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg0 : IVec S2048 32) (main_arg6 : FVec F S5000 .f32) (main_v13 : IVec S_ 1) (main_v16 : IVec S40000 1) : IVec S_ 1 :=
  let main_c_5 : IVec S_ 1 := constantI S_ 1 1#1
  let main_v17 : IVec S_ 1 := (fun x v => Host.reduce IntOp.andi x v reducesTo_S40000_S_d0 h_S_) main_v16 main_c_5
  let main_v18 : IVec S_ 1 := andi main_v13 main_v17
  let main_v19 : FVec F S5000 .f32 := Host.absf main_arg6
  let main_cst_6 : FVec F S_ .f32 := constant S_ .f32 0x7F800000#32
  let main_v20 : FVec F S5000 .f32 := broadcastInDim S5000 ![] bcast_S_S5000 main_cst_6
  let main_v21 : IVec S5000 1 := cmpf .olt main_v19 main_v20
  let main_c_7 : IVec S_ 1 := constantI S_ 1 1#1
  let main_v22 : IVec S_ 1 := (fun x v => Host.reduce IntOp.andi x v reducesTo_S5000_S_d0 h_S_) main_v21 main_c_7
  let main_v23 : IVec S_ 1 := andi main_v18 main_v22
  let main_c_8 : IVec S_ 32 := constantI S_ 32 0#32
  let main_v24 : IVec S2048 32 := broadcastInDim S2048 ![] bcast_S_S2048 main_c_8
  let main_v25 : IVec S2048 1 := cmpi .sge main_arg0 main_v24
  let main_c_9 : IVec S_ 32 := constantI S_ 32 2000#32
  let main_v26 : IVec S2048 32 := broadcastInDim S2048 ![] bcast_S_S2048 main_c_9
  let main_v27 : IVec S2048 1 := cmpi .slt main_arg0 main_v26
  let main_v28 : IVec S2048 1 := andi main_v25 main_v27
  let main_c_10 : IVec S_ 1 := constantI S_ 1 1#1
  let main_v29 : IVec S_ 1 := (fun x v => Host.reduce IntOp.andi x v reducesTo_S2048_S_d0 h_S_) main_v28 main_c_10
  let main_v30 : IVec S_ 1 := andi main_v23 main_v29
  main_v30

def fn {F : FTy → Type} [FloatOps F] (main_arg0 : IVec S2048 32) (main_arg1 : IVec S2048 32) (main_arg2 : FVec F S2000x10 .f32) (main_arg3 : FVec F S40000x10 .f32) (main_arg4 : FVec F S2000x40000 .f32) (main_arg5 : FVec F S40000 .f32) (main_arg6 : FVec F S5000 .f32) (main_arg7 : IVec S2000x5000x20 32) : IVec S_ 1 :=
  let main_v0 : FVec F S2000x10 .f32 := Host.absf main_arg2
  let main_cst : FVec F S_ .f32 := constant S_ .f32 0x7F800000#32
  let main_v1 : FVec F S2000x10 .f32 := broadcastInDim S2000x10 ![] bcast_S_S2000x10 main_cst
  let main_v2 : IVec S2000x10 1 := cmpf .olt main_v0 main_v1
  let main_c : IVec S_ 1 := constantI S_ 1 1#1
  let main_v3 : IVec S_ 1 := (fun x v => Host.reduce IntOp.andi x v reducesTo_S2000x10_S_d0_1 h_S_) main_v2 main_c
  let main_v4 : FVec F S40000x10 .f32 := Host.absf main_arg3
  let main_cst_0 : FVec F S_ .f32 := constant S_ .f32 0x7F800000#32
  let main_v5 : FVec F S40000x10 .f32 := broadcastInDim S40000x10 ![] bcast_S_S40000x10 main_cst_0
  let main_v6 : IVec S40000x10 1 := cmpf .olt main_v4 main_v5
  let main_c_1 : IVec S_ 1 := constantI S_ 1 1#1
  let main_v7 : IVec S_ 1 := (fun x v => Host.reduce IntOp.andi x v reducesTo_S40000x10_S_d0_1 h_S_) main_v6 main_c_1
  let main_v8 : IVec S_ 1 := andi main_v3 main_v7
  let main_v9 : FVec F S2000x40000 .f32 := Host.absf main_arg4
  let main_cst_2 : FVec F S_ .f32 := constant S_ .f32 0x7F800000#32
  let main_v10 : FVec F S2000x40000 .f32 := broadcastInDim S2000x40000 ![] bcast_S_S2000x40000 main_cst_2
  let main_v11 : IVec S2000x40000 1 := cmpf .olt main_v9 main_v10
  let main_c_3 : IVec S_ 1 := constantI S_ 1 1#1
  let main_v12 : IVec S_ 1 := (fun x v => Host.reduce IntOp.andi x v reducesTo_S2000x40000_S_d0_1 h_S_) main_v11 main_c_3
  let main_v13 : IVec S_ 1 := andi main_v8 main_v12
  let main_v14 : FVec F S40000 .f32 := Host.absf main_arg5
  let main_cst_4 : FVec F S_ .f32 := constant S_ .f32 0x7F800000#32
  let main_v15 : FVec F S40000 .f32 := broadcastInDim S40000 ![] bcast_S_S40000 main_cst_4
  let main_v16 : IVec S40000 1 := cmpf .olt main_v14 main_v15
  fn_part1 (F := F) main_arg0 main_arg6 main_v13 main_v16
-- ==== Kernel.lean ====
abbrev S2048 : Shape := ⟨1, ![2048]⟩
abbrev S2000x10 : Shape := ⟨2, ![2000, 10]⟩
abbrev S40000x10 : Shape := ⟨2, ![40000, 10]⟩
abbrev S2000x40000 : Shape := ⟨2, ![2000, 40000]⟩
abbrev S40000 : Shape := ⟨1, ![40000]⟩
abbrev S5000 : Shape := ⟨1, ![5000]⟩
abbrev S2000x5000x20 : Shape := ⟨3, ![2000, 5000, 20]⟩
abbrev S_ : Shape := ⟨0, ![]⟩
abbrev S2048x1 : Shape := ⟨2, ![2048, 1]⟩
abbrev S2048x10 : Shape := ⟨2, ![2048, 10]⟩
abbrev S2048x2 : Shape := ⟨2, ![2048, 2]⟩
abbrev S2048x20 : Shape := ⟨2, ![2048, 20]⟩
abbrev S10x40000 : Shape := ⟨2, ![10, 40000]⟩
abbrev S2048x40000 : Shape := ⟨2, ![2048, 40000]⟩
abbrev S32x10 : Shape := ⟨2, ![32, 10]⟩
abbrev S32x40000 : Shape := ⟨2, ![32, 40000]⟩
abbrev S1 : Shape := ⟨1, ![1]⟩
abbrev S1x40000 : Shape := ⟨2, ![1, 40000]⟩
abbrev S2048x20x1 : Shape := ⟨3, ![2048, 20, 1]⟩
abbrev S1x1x1 : Shape := ⟨3, ![1, 1, 1]⟩

abbrev nBuf : Space → Nat
  | .hbm => 71
  | .vmem => 7
  | .smem => 1
  | _ => 0

abbrev bufTy : (tb : Table) → Fin (tcTables nBuf tb) → BufTy
  | .hbm, ⟨0, _⟩ => ⟨S2048, .i32⟩
  | .hbm, ⟨1, _⟩ => ⟨S2000x10, .f32⟩
  | .hbm, ⟨2, _⟩ => ⟨S40000x10, .f32⟩
  | .hbm, ⟨3, _⟩ => ⟨S2000x40000, .f32⟩
  | .hbm, ⟨4, _⟩ => ⟨S40000, .f32⟩
  | .hbm, ⟨5, _⟩ => ⟨S5000, .f32⟩
  | .hbm, ⟨6, _⟩ => ⟨S2000x5000x20, .i32⟩
  | .hbm, ⟨7, _⟩ => ⟨S_, .i32⟩
  | .hbm, ⟨8, _⟩ => ⟨S2048, .i32⟩
  | .hbm, ⟨9, _⟩ => ⟨S2048, .i1⟩
  | .hbm, ⟨10, _⟩ => ⟨S_, .i32⟩
  | .hbm, ⟨11, _⟩ => ⟨S2048, .i32⟩
  | .hbm, ⟨12, _⟩ => ⟨S2048, .i32⟩
  | .hbm, ⟨13, _⟩ => ⟨S2048, .i32⟩
  | .hbm, ⟨14, _⟩ => ⟨S2048x1, .i32⟩
  | .hbm, ⟨15, _⟩ => ⟨S2048x10, .f32⟩
  | .hbm, ⟨16, _⟩ => ⟨S_, .i32⟩
  | .hbm, ⟨17, _⟩ => ⟨S2048, .i32⟩
  | .hbm, ⟨18, _⟩ => ⟨S2048, .i1⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S2048, .i32⟩
  | .hbm, ⟨25, _⟩ => ⟨S2048, .i1⟩
  | .hbm, ⟨26, _⟩ => ⟨S_, .i32⟩
  | .hbm, ⟨27, _⟩ => ⟨S2048, .i32⟩
  | .hbm, ⟨28, _⟩ => ⟨S2048, .i32⟩
  | .hbm, ⟨29, _⟩ => ⟨S2048, .i32⟩
  | .hbm, ⟨30, _⟩ => ⟨S2048x1, .i32⟩
  | .hbm, ⟨31, _⟩ => ⟨S2048x1, .i32⟩
  | .hbm, ⟨32, _⟩ => ⟨S2048x2, .i32⟩
  | .hbm, ⟨33, _⟩ => ⟨S2048x20, .i32⟩
  | .hbm, ⟨34, _⟩ => ⟨S_, .i32⟩
  | .hbm, ⟨35, _⟩ => ⟨S2048, .i32⟩
  | .hbm, ⟨36, _⟩ => ⟨S2048, .i1⟩
  | .hbm, ⟨37, _⟩ => ⟨S_, .i32⟩
  | .hbm, ⟨38, _⟩ => ⟨S2048, .i32⟩
  | .hbm, ⟨39, _⟩ => ⟨S2048, .i32⟩
  | .hbm, ⟨40, _⟩ => ⟨S2048, .i32⟩
  | .hbm, ⟨41, _⟩ => ⟨S2048x1, .i32⟩
  | .hbm, ⟨42, _⟩ => ⟨S2048, .f32⟩
  | .hbm, ⟨43, _⟩ => ⟨S10x40000, .f32⟩
  | .hbm, ⟨44, _⟩ => ⟨S10x40000, .bf16⟩
  | .hbm, ⟨45, _⟩ => ⟨S2048x40000, .f32⟩
  | .hbm, ⟨46, _⟩ => ⟨S_, .i32⟩
  | .hbm, ⟨47, _⟩ => ⟨S2048x20, .i32⟩
  | .hbm, ⟨48, _⟩ => ⟨S2048x20, .i1⟩
  | .hbm, ⟨49, _⟩ => ⟨S_, .i32⟩
  | .hbm, ⟨50, _⟩ => ⟨S2048x20, .i32⟩
  | .hbm, ⟨51, _⟩ => ⟨S2048x20, .i32⟩
  | .hbm, ⟨52, _⟩ => ⟨S2048x20, .i32⟩
  | .hbm, ⟨53, _⟩ => ⟨S2048x20x1, .i32⟩
  | .hbm, ⟨54, _⟩ => ⟨S1, .i32⟩
  | .hbm, ⟨55, _⟩ => ⟨S_, .i32⟩
  | .hbm, ⟨56, _⟩ => ⟨S2048x20x1, .i32⟩
  | .hbm, ⟨57, _⟩ => ⟨S2048x20x1, .i1⟩
  | .hbm, ⟨58, _⟩ => ⟨S1x1x1, .i32⟩
  | .hbm, ⟨59, _⟩ => ⟨S2048x20x1, .i32⟩
  | .hbm, ⟨60, _⟩ => ⟨S2048x20x1, .i1⟩
  | .hbm, ⟨61, _⟩ => ⟨S2048x20x1, .i1⟩
  | .hbm, ⟨62, _⟩ => ⟨S_, .i1⟩
  | .hbm, ⟨63, _⟩ => ⟨S2048x20, .i1⟩
  | .hbm, ⟨64, _⟩ => ⟨S2048x20, .f32⟩
  | .hbm, ⟨65, _⟩ => ⟨S_, .f32⟩
  | .hbm, ⟨66, _⟩ => ⟨S2048x20, .f32⟩
  | .hbm, ⟨67, _⟩ => ⟨S2048x20, .f32⟩
  | .hbm, ⟨68, _⟩ => ⟨S_, .f32⟩
  | .hbm, ⟨69, _⟩ => ⟨S2048, .f32⟩
  | .hbm, ⟨70, _⟩ => ⟨S2048, .f32⟩
  | .local _ .vmem, ⟨0, _⟩ => ⟨S32x10, .f32⟩
  | .local _ .vmem, ⟨1, _⟩ => ⟨S32x10, .f32⟩
  | .local _ .vmem, ⟨2, _⟩ => ⟨S10x40000, .bf16⟩
  | .local _ .vmem, ⟨3, _⟩ => ⟨S40000, .f32⟩
  | .local _ .vmem, ⟨4, _⟩ => ⟨S32x40000, .f32⟩
  | .local _ .vmem, ⟨5, _⟩ => ⟨S32x40000, .f32⟩
  | .local _ .vmem, ⟨6, _⟩ => ⟨S32x40000, .f32⟩
  | .local _ .smem, ⟨0, _⟩ => ⟨S2048, .i32⟩
  | _, _ => ⟨S2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_c_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_c : Ref sig .tc := ⟨.hbm, 46, rfl⟩
abbrev main_call0_v0 : Ref sig .tc := ⟨.hbm, 47, rfl⟩
abbrev main_call0_v1 : Ref sig .tc := ⟨.hbm, 48, rfl⟩
abbrev main_call0_c_0 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_c_1 : Ref sig .tc := ⟨.hbm, 54, rfl⟩
abbrev main_call0_c_2 : Ref sig .tc := ⟨.hbm, 55, rfl⟩
abbrev main_call0_v6 : Ref sig .tc := ⟨.hbm, 56, rfl⟩
abbrev main_call0_v7 : Ref sig .tc := ⟨.hbm, 57, rfl⟩
abbrev main_call0_v8 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_c_3 : Ref sig .tc := ⟨.hbm, 62, rfl⟩
abbrev main_call0_v12 : Ref sig .tc := ⟨.hbm, 63, rfl⟩
abbrev main_call0_v13 : Ref sig .tc := ⟨.hbm, 64, rfl⟩
abbrev main_call0_cst : Ref sig .tc := ⟨.hbm, 65, rfl⟩
abbrev main_call0_v14 : Ref sig .tc := ⟨.hbm, 66, rfl⟩
abbrev main_v31 : Ref sig .tc := ⟨.hbm, 67, rfl⟩
abbrev main_cst : Ref sig .tc := ⟨.hbm, 68, rfl⟩
abbrev main_v32 : Ref sig .tc := ⟨.hbm, 69, rfl⟩
abbrev main_v33 : Ref sig .tc := ⟨.hbm, 70, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c32_i32_0 : BitVec 32 := 32#32
  let v1 : BitVec 32 := Scalar.addi c0_i32 c32_i32_0
  let c1_i32 : BitVec 32 := 1#32
  ⟨c0_i32, v1, c1_i32⟩
def k0_off1 (i : grid0.Coords) (k0_t1 : Fin k0_t1_loop.trips) : Fin 1 → Nat :=
  let arg0 : BitVec 32 := BitVec.ofNat 32 (i 0).val
  let c32_i32 : BitVec 32 := 32#32
  let v0 : BitVec 32 := Scalar.muli arg0 c32_i32
  let c0_i32_15 : BitVec 32 := 0#32
  let c0_i32 : BitVec 32 := 0#32
  let c1_i32 : BitVec 32 := 1#32
  let arg9 : BitVec 32 := Scf.iv c0_i32 c1_i32 k0_t1
  let c1_i32_14 : BitVec 32 := 1#32
  let v16 : BitVec 32 := Scalar.muli arg9 c1_i32_14
  let v17 : BitVec 32 := Scalar.addi c0_i32_15 v16
  let v18 : BitVec 32 := Scalar.addi v0 v17
  let v19 : Index := Scalar.indexCast v18
  ![v19.toNat]
def k0_off2 (k0_t1 : Fin k0_t1_loop.trips) : Fin 2 → Nat :=
  let c0_i32_15 : BitVec 32 := 0#32
  let c0_i32 : BitVec 32 := 0#32
  let c1_i32 : BitVec 32 := 1#32
  let arg9 : BitVec 32 := Scf.iv c0_i32 c1_i32 k0_t1
  let c1_i32_14 : BitVec 32 := 1#32
  let v16 : BitVec 32 := Scalar.muli arg9 c1_i32_14
  let v17 : BitVec 32 := Scalar.addi c0_i32_15 v16
  let c0_i32_17 : BitVec 32 := 0#32
  ![v17.toNat, 0]
def k0_off3 (v20 : BitVec 32) : Fin 2 → Nat :=
  let c0_i32_18 : BitVec 32 := 0#32
  ![v20.toNat, 0]

def k0_chk1 (v20 : BitVec 32) : Prop :=
  (∀ a, (k0_off3 v20) a + S1x40000.size a ≤ S2000x40000.size a)
instance k0_chk1.dec : ∀ (v20 : BitVec 32), Decidable (k0_chk1 v20) := fun v20 => decidable_of_iff' _ (Iff.of_eq (k0_chk1.eq_1 v20))
theorem k0_off3_inb : ∀ (v20 : BitVec 32) (k0_hw1 : k0_chk1 v20), ∀ a, (k0_off3 v20) a + S1x40000.size a ≤ S2000x40000.size a := fun v20 k0_hw1 => k0_hw1

@[reducible] def k0_t2_loop : Scf.Loop 32 :=
  let c0_i32_6 : BitVec 32 := 0#32
  let c32_i32_7 : BitVec 32 := 32#32
  let v10 : BitVec 32 := Scalar.addi c0_i32_6 c32_i32_7
  let c1_i32_8 : BitVec 32 := 1#32
  ⟨c0_i32_6, v10, c1_i32_8⟩
def k0_off4 (k0_t2 : Fin k0_t2_loop.trips) : Fin 2 → Nat :=
  let c0_i32_15 : BitVec 32 := 0#32
  let c0_i32_6 : BitVec 32 := 0#32
  let c1_i32_8 : BitVec 32 := 1#32
  let arg9 : BitVec 32 := Scf.iv c0_i32_6 c1_i32_8 k0_t2
  let c1_i32_14 : BitVec 32 := 1#32
  let v16 : BitVec 32 := Scalar.muli arg9 c1_i32_14
  let v17 : BitVec 32 := Scalar.addi c0_i32_15 v16
  let c0_i32_18 : BitVec 32 := 0#32
  ![v17.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x40000 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S40000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x40000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  concatenates_S2048x1_S2048x1_S2048x2_d1 : Shape.Concatenates [S2048x1, S2048x1] S2048x2 1
  transposes_S40000x10_S10x40000_1_0 : S40000x10.Transposes [1, 0] S10x40000
  bitsLt_bf16_f32 : FTy.bits .bf16 < FTy.bits .f32
  numel1_S1 : S1.numel = 1
  inb_S1_S1_0 : ∀ a, (![0] : Fin 1 → Nat) a + S1.size a ≤ S1.size a
  squeezes_S1_S_ : S1.Squeezes S_
  squeezes_S1x40000_S40000 : S1x40000.Squeezes S40000
  inb_S32x10_S32x10_0_0 : ∀ a, (![0, 0] : Fin 2 → Nat) a + S32x10.size a ≤ S32x10.size a
  h_S32x10 : 0 < S32x10.numel
  shapeCasts_S32x10_S32x10 : S32x10.ShapeCasts S32x10
  inb_S10x40000_S10x40000_0_0 : ∀ a, (![0, 0] : Fin 2 → Nat) a + S10x40000.size a ≤ S10x40000.size a
  h_S10x40000 : 0 < S10x40000.numel
  shapeCasts_S10x40000_S10x40000 : S10x40000.ShapeCasts S10x40000
  inb_S40000_S40000_0 : ∀ a, (![0] : Fin 1 → Nat) a + S40000.size a ≤ S40000.size a
  h_S40000 : 0 < S40000.numel
  shapeCasts_S40000_S1x40000 : S40000.ShapeCasts S1x40000
  inb_S2000x40000_S1x40000_0_0 : ∀ a, (![0, 0] : Fin 2 → Nat) a + S1x40000.size a ≤ S2000x40000.size a
  inb_S32x40000_S32x40000_0_0 : ∀ a, (![0, 0] : Fin 2 → Nat) a + S32x40000.size a ≤ S32x40000.size a
  h_S32x40000 : 0 < S32x40000.numel
  broadcasts_S1x40000_S32x40000 : S1x40000.Broadcasts S32x40000
  bcast_S_S2048x20 : S_.BroadcastsInDim S2048x20 (![] : Fin 0 → Fin S2048x20.rank)
  shapeCasts_S2048x20_S2048x20x1 : S2048x20.ShapeCasts S2048x20x1
  bcast_S_S2048x20x1 : S_.BroadcastsInDim S2048x20x1 (![] : Fin 0 → Fin S2048x20x1.rank)
  bcast_S1_S1x1x1_2 : S1.BroadcastsInDim S1x1x1 (![2] : Fin 1 → Fin S1x1x1.rank)
  bcast_S1x1x1_S2048x20x1_0_1_2 : S1x1x1.BroadcastsInDim S2048x20x1 (![0, 1, 2] : Fin 3 → Fin S2048x20x1.rank)
  reducesTo_S2048x20x1_S2048x20_d2 : S2048x20x1.ReducesTo [2] S2048x20
  h_S_ : 0 < S_.numel
  reducesTo_S2048x20_S2048_d1 : S2048x20.ReducesTo [1] S2048
  gather_S2000x10_S2048x1_S2048x10_1_0_n_n_0_1_110_wf : GatherDims.WF S2000x10 S2048x1 S2048x10 [1] [0] [] [0] [] 1 ![1, 10]
  gather_S2000x5000x20_S2048x2_S2048x20_1_01_n_n_01_1_1120_wf : GatherDims.WF S2000x5000x20 S2048x2 S2048x20 [1] [0, 1] [] [0, 1] [] 1 ![1, 1, 20]
  gather_S5000_S2048x1_S2048_n_0_n_n_0_1_1_wf : GatherDims.WF S5000 S2048x1 S2048 [] [0] [] [0] [] 1 ![1]
  dot_S32x10_S10x40000_S32x40000_1_0_0_1_n_n_wf : DotDims.WF S32x10 S10x40000 S32x40000 [1] [0] [0] [1] [] []
  gather_S2048x40000_S2048x20x1_S2048x20_n_1_0_0_1_2_11_wf : GatherDims.WF S2048x40000 S2048x20x1 S2048x20 [] [1] [0] [1] [0] 2 ![1, 1]
  hcc0_scratch1 : 6 + S1.numel ≤ 7
  hrank0 : 0 < grid0.rank
  k0_t1_ok : k0_t1_loop.OK
  k0_off1_inb : ∀ (i : grid0.Coords) (k0_t1 : Fin k0_t1_loop.trips), ∀ a, (k0_off1 i k0_t1) a + S1.size a ≤ S2048.size a
  k0_off2_inb : ∀ k0_t1 : Fin k0_t1_loop.trips, ∀ a, (k0_off2 k0_t1) a + S1x40000.size a ≤ S32x40000.size a
  k0_t2_ok : k0_t2_loop.OK
  k0_off4_inb : ∀ k0_t2 : Fin k0_t2_loop.trips, ∀ a, (k0_off4 k0_t2) a + S1x40000.size a ≤ S32x40000.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x10.size a ≤ S2048x10.size a
  hwx0_0 : ∀ i : grid0.Coords, EltTy.bits .f32 = 32 ∨ (Rect.block (s := S2048x10) S32x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x40000.size a ≤ S10x40000.size a
  hwx0_1 : ∀ i : grid0.Coords, EltTy.bits .bf16 = 32 ∨ (Rect.block (s := S10x40000) S10x40000.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S40000.size a ≤ S40000.size a
  hwx0_2 : ∀ i : grid0.Coords, EltTy.bits .f32 = 32 ∨ (Rect.block (s := S40000) S40000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_4 i = cc0_transform_4 i'
  hinb0_3 : ∀ (i : grid0.Coords) a, (cc0_transform_4 i a + 1) * S32x40000.size a ≤ S2048x40000.size a
  hwx0_3 : ∀ i : grid0.Coords, EltTy.bits .f32 = 32 ∨ (Rect.block (s := S2048x40000) S32x40000.size (cc0_transform_4 i) (hinb0_3 i)).WholeWords (EltTy.packing .f32)

variable [Facts₀]

abbrev cc0_scratch1 : DmaSems sig S1 := SemArray.consecutive 6 S1 hcc0_scratch1
def gather_S2000x10_S2048x1_S2048x10_1_0_n_n_0_1_110 : GatherDims S2000x10 S2048x1 S2048x10 where
  offsetDims := [1]
  collapsedSliceDims := [0]
  operandBatchingDims := []
  startIndicesBatchingDims := []
  startIndexMap := [0]
  indexVectorDim := 1
  sliceSizes := ![1, 10]
  wf := gather_S2000x10_S2048x1_S2048x10_1_0_n_n_0_1_110_wf
def gather_S2000x5000x20_S2048x2_S2048x20_1_01_n_n_01_1_1120 : GatherDims S2000x5000x20 S2048x2 S2048x20 where
  offsetDims := [1]
  collapsedSliceDims := [0, 1]
  operandBatchingDims := []
  startIndicesBatchingDims := []
  startIndexMap := [0, 1]
  indexVectorDim := 1
  sliceSizes := ![1, 1, 20]
  wf := gather_S2000x5000x20_S2048x2_S2048x20_1_01_n_n_01_1_1120_wf
def gather_S5000_S2048x1_S2048_n_0_n_n_0_1_1 : GatherDims S5000 S2048x1 S2048 where
  offsetDims := []
  collapsedSliceDims := [0]
  operandBatchingDims := []
  startIndicesBatchingDims := []
  startIndexMap := [0]
  indexVectorDim := 1
  sliceSizes := ![1]
  wf := gather_S5000_S2048x1_S2048_n_0_n_n_0_1_1_wf
def dot_S32x10_S10x40000_S32x40000_1_0_0_1_n_n : DotDims S32x10 S10x40000 S32x40000 where
  lhsContracting := [1]
  rhsContracting := [0]
  lhsNonContracting := [0]
  rhsNonContracting := [1]
  lhsBatch := []
  rhsBatch := []
  wf := dot_S32x10_S10x40000_S32x40000_1_0_0_1_n_n_wf
def gather_S2048x40000_S2048x20x1_S2048x20_n_1_0_0_1_2_11 : GatherDims S2048x40000 S2048x20x1 S2048x20 where
  offsetDims := []
  collapsedSliceDims := [1]
  operandBatchingDims := [0]
  startIndicesBatchingDims := [0]
  startIndexMap := [1]
  indexVectorDim := 2
  sliceSizes := ![1, 1]
  wf := gather_S2048x40000_S2048x20x1_S2048x20_n_1_0_0_1_2_11_wf

abbrev spec0_0 : Pipeline.WinSpec sig grid0.rank :=
  Pipeline.WinSpec.ofSpec (Memref.whole main_v6) S32x10.size reads0_0 false false 2 stage0_0 sem0_0 nbuf0_0 hstage0_0

abbrev spec0_1 : Pipeline.WinSpec sig grid0.rank :=
  Pipeline.WinSpec.ofSpec (Memref.whole main_v29) S10x40000.size reads0_1 false true 1 stage0_1 sem0_1 nbuf0_1 hstage0_1

abbrev spec0_2 : Pipeline.WinSpec sig grid0.rank :=
  Pipeline.WinSpec.ofSpec (Memref.whole main_arg5) S40000.size reads0_2 false true 1 stage0_2 sem0_2 nbuf0_2 hstage0_2

abbrev spec0_3 : Pipeline.WinSpec sig grid0.rank :=
  Pipeline.WinSpec.ofSpec (Memref.whole main_v30) S32x40000.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 | 2 => cc0_transform_2 | 3 => cc0_transform_4 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S2048 : Shape := ⟨1, ![2048]⟩
abbrev S2000x10 : Shape := ⟨2, ![2000, 10]⟩
abbrev S40000x10 : Shape := ⟨2, ![40000, 10]⟩
abbrev S2000x40000 : Shape := ⟨2, ![2000, 40000]⟩
abbrev S40000 : Shape := ⟨1, ![40000]⟩
abbrev S5000 : Shape := ⟨1, ![5000]⟩
abbrev S2000x5000x20 : Shape := ⟨3, ![2000, 5000, 20]⟩
abbrev S_ : Shape := ⟨0, ![]⟩
abbrev S2048x1 : Shape := ⟨2, ![2048, 1]⟩
abbrev S2048x10 : Shape := ⟨2, ![2048, 10]⟩
abbrev S10x40000 : Shape := ⟨2, ![10, 40000]⟩
abbrev S2048x40000 : Shape := ⟨2, ![2048, 40000]⟩
abbrev S1x40000 : Shape := ⟨2, ![1, 40000]⟩
abbrev S2048x2 : Shape := ⟨2, ![2048, 2]⟩
abbrev S2048x20 : Shape := ⟨2, ![2048, 20]⟩
abbrev S2048x20x1 : Shape := ⟨3, ![2048, 20, 1]⟩
abbrev S1 : Shape := ⟨1, ![1]⟩
abbrev S1x1x1 : Shape := ⟨3, ![1, 1, 1]⟩

abbrev nBuf : Space → Nat
  | .hbm => 84
  | .vmem => 0
  | .smem => 0
  | _ => 0

abbrev bufTy : (tb : Table) → Fin (tcTables nBuf tb) → BufTy
  | .hbm, ⟨0, _⟩ => ⟨S2048, .i32⟩
  | .hbm, ⟨1, _⟩ => ⟨S2048, .i32⟩
  | .hbm, ⟨2, _⟩ => ⟨S2000x10, .f32⟩
  | .hbm, ⟨3, _⟩ => ⟨S40000x10, .f32⟩
  | .hbm, ⟨4, _⟩ => ⟨S2000x40000, .f32⟩
  | .hbm, ⟨5, _⟩ => ⟨S40000, .f32⟩
  | .hbm, ⟨6, _⟩ => ⟨S5000, .f32⟩
  | .hbm, ⟨7, _⟩ => ⟨S2000x5000x20, .i32⟩
  | .hbm, ⟨8, _⟩ => ⟨S_, .i32⟩
  | .hbm, ⟨9, _⟩ => ⟨S2048, .i32⟩
  | .hbm, ⟨10, _⟩ => ⟨S2048, .i1⟩
  | .hbm, ⟨11, _⟩ => ⟨S_, .i32⟩
  | .hbm, ⟨12, _⟩ => ⟨S2048, .i32⟩
  | .hbm, ⟨13, _⟩ => ⟨S2048, .i32⟩
  | .hbm, ⟨14, _⟩ => ⟨S2048, .i32⟩
  | .hbm, ⟨15, _⟩ => ⟨S2048x1, .i32⟩
  | .hbm, ⟨16, _⟩ => ⟨S2048x10, .f32⟩
  | .hbm, ⟨17, _⟩ => ⟨S10x40000, .f32⟩
  | .hbm, ⟨18, _⟩ => ⟨S2048x40000, .f32⟩
  | .hbm, ⟨19, _⟩ => ⟨S_, .i32⟩
  | .hbm, ⟨20, _⟩ => ⟨S2048, .i32⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S2048x1, .i32⟩
  | .hbm, ⟨27, _⟩ => ⟨S2048x40000, .f32⟩
  | .hbm, ⟨28, _⟩ => ⟨S1x40000, .f32⟩
  | .hbm, ⟨29, _⟩ => ⟨S2048x40000, .f32⟩
  | .hbm, ⟨30, _⟩ => ⟨S2048x40000, .f32⟩
  | .hbm, ⟨31, _⟩ => ⟨S2048x40000, .f32⟩
  | .hbm, ⟨32, _⟩ => ⟨S_, .i32⟩
  | .hbm, ⟨33, _⟩ => ⟨S2048, .i32⟩
  | .hbm, ⟨34, _⟩ => ⟨S2048, .i1⟩
  | .hbm, ⟨35, _⟩ => ⟨S_, .i32⟩
  | .hbm, ⟨36, _⟩ => ⟨S2048, .i32⟩
  | .hbm, ⟨37, _⟩ => ⟨S2048, .i32⟩
  | .hbm, ⟨38, _⟩ => ⟨S2048, .i32⟩
  | .hbm, ⟨39, _⟩ => ⟨S_, .i32⟩
  | .hbm, ⟨40, _⟩ => ⟨S2048, .i32⟩
  | .hbm, ⟨41, _⟩ => ⟨S2048, .i1⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S2048, .i32⟩
  | .hbm, ⟨46, _⟩ => ⟨S2048x1, .i32⟩
  | .hbm, ⟨47, _⟩ => ⟨S2048x1, .i32⟩
  | .hbm, ⟨48, _⟩ => ⟨S2048x2, .i32⟩
  | .hbm, ⟨49, _⟩ => ⟨S2048x20, .i32⟩
  | .hbm, ⟨50, _⟩ => ⟨S_, .i32⟩
  | .hbm, ⟨51, _⟩ => ⟨S2048x20, .i32⟩
  | .hbm, ⟨52, _⟩ => ⟨S2048x20, .i1⟩
  | .hbm, ⟨53, _⟩ => ⟨S_, .i32⟩
  | .hbm, ⟨54, _⟩ => ⟨S2048x20, .i32⟩
  | .hbm, ⟨55, _⟩ => ⟨S2048x20, .i32⟩
  | .hbm, ⟨56, _⟩ => ⟨S2048x20, .i32⟩
  | .hbm, ⟨57, _⟩ => ⟨S2048x20x1, .i32⟩
  | .hbm, ⟨58, _⟩ => ⟨S1, .i32⟩
  | .hbm, ⟨59, _⟩ => ⟨S_, .i32⟩
  | .hbm, ⟨60, _⟩ => ⟨S2048x20x1, .i32⟩
  | .hbm, ⟨61, _⟩ => ⟨S2048x20x1, .i1⟩
  | .hbm, ⟨62, _⟩ => ⟨S1x1x1, .i32⟩
  | .hbm, ⟨63, _⟩ => ⟨S2048x20x1, .i32⟩
  | .hbm, ⟨64, _⟩ => ⟨S2048x20x1, .i1⟩
  | .hbm, ⟨65, _⟩ => ⟨S2048x20x1, .i1⟩
  | .hbm, ⟨66, _⟩ => ⟨S_, .i1⟩
  | .hbm, ⟨67, _⟩ => ⟨S2048x20, .i1⟩
  | .hbm, ⟨68, _⟩ => ⟨S2048x20, .f32⟩
  | .hbm, ⟨69, _⟩ => ⟨S_, .f32⟩
  | .hbm, ⟨70, _⟩ => ⟨S2048x20, .f32⟩
  | .hbm, ⟨71, _⟩ => ⟨S2048x20, .f32⟩
  | .hbm, ⟨72, _⟩ => ⟨S_, .f32⟩
  | .hbm, ⟨73, _⟩ => ⟨S2048, .f32⟩
  | .hbm, ⟨74, _⟩ => ⟨S_, .i32⟩
  | .hbm, ⟨75, _⟩ => ⟨S2048, .i32⟩
  | .hbm, ⟨76, _⟩ => ⟨S2048, .i1⟩
  | .hbm, ⟨77, _⟩ => ⟨S_, .i32⟩
  | .hbm, ⟨78, _⟩ => ⟨S2048, .i32⟩
  | .hbm, ⟨79, _⟩ => ⟨S2048, .i32⟩
  | .hbm, ⟨80, _⟩ => ⟨S2048, .i32⟩
  | .hbm, ⟨81, _⟩ => ⟨S2048x1, .i32⟩
  | .hbm, ⟨82, _⟩ => ⟨S2048, .f32⟩
  | .hbm, ⟨83, _⟩ => ⟨S2048, .f32⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_c_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call0_c : Ref sig .tc := ⟨.hbm, 50, rfl⟩
abbrev main_call0_v0 : Ref sig .tc := ⟨.hbm, 51, rfl⟩
abbrev main_call0_v1 : Ref sig .tc := ⟨.hbm, 52, rfl⟩
abbrev main_call0_c_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_c_1 : Ref sig .tc := ⟨.hbm, 58, rfl⟩
abbrev main_call0_c_2 : Ref sig .tc := ⟨.hbm, 59, rfl⟩
abbrev main_call0_v6 : Ref sig .tc := ⟨.hbm, 60, rfl⟩
abbrev main_call0_v7 : Ref sig .tc := ⟨.hbm, 61, rfl⟩
abbrev main_call0_v8 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_c_3 : Ref sig .tc := ⟨.hbm, 66, rfl⟩
abbrev main_call0_v12 : Ref sig .tc := ⟨.hbm, 67, rfl⟩
abbrev main_call0_v13 : Ref sig .tc := ⟨.hbm, 68, rfl⟩
abbrev main_call0_cst : Ref sig .tc := ⟨.hbm, 69, rfl⟩
abbrev main_call0_v14 : Ref sig .tc := ⟨.hbm, 70, rfl⟩
abbrev main_v34 : Ref sig .tc := ⟨.hbm, 71, rfl⟩
abbrev main_cst : Ref sig .tc := ⟨.hbm, 72, rfl⟩
abbrev main_v35 : Ref sig .tc := ⟨.hbm, 73, rfl⟩
abbrev main_c_7 : Ref sig .tc := ⟨.hbm, 74, rfl⟩
abbrev main_v36 : Ref sig .tc := ⟨.hbm, 75, rfl⟩
abbrev main_v37 : Ref sig .tc := ⟨.hbm, 76, rfl⟩
abbrev main_c_8 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  transposes_S40000x10_S10x40000_1_0 : S40000x10.Transposes [1, 0] S10x40000
  bcast_S40000_S1x40000_1 : S40000.BroadcastsInDim S1x40000 (![1] : Fin 1 → Fin S1x40000.rank)
  bcast_S1x40000_S2048x40000_0_1 : S1x40000.BroadcastsInDim S2048x40000 (![0, 1] : Fin 2 → Fin S2048x40000.rank)
  concatenates_S2048x1_S2048x1_S2048x2_d1 : Shape.Concatenates [S2048x1, S2048x1] S2048x2 1
  bcast_S_S2048x20 : S_.BroadcastsInDim S2048x20 (![] : Fin 0 → Fin S2048x20.rank)
  shapeCasts_S2048x20_S2048x20x1 : S2048x20.ShapeCasts S2048x20x1
  bcast_S_S2048x20x1 : S_.BroadcastsInDim S2048x20x1 (![] : Fin 0 → Fin S2048x20x1.rank)
  bcast_S1_S1x1x1_2 : S1.BroadcastsInDim S1x1x1 (![2] : Fin 1 → Fin S1x1x1.rank)
  bcast_S1x1x1_S2048x20x1_0_1_2 : S1x1x1.BroadcastsInDim S2048x20x1 (![0, 1, 2] : Fin 3 → Fin S2048x20x1.rank)
  reducesTo_S2048x20x1_S2048x20_d2 : S2048x20x1.ReducesTo [2] S2048x20
  h_S_ : 0 < S_.numel
  reducesTo_S2048x20_S2048_d1 : S2048x20.ReducesTo [1] S2048
  gather_S2000x10_S2048x1_S2048x10_1_0_n_n_0_1_110_wf : GatherDims.WF S2000x10 S2048x1 S2048x10 [1] [0] [] [0] [] 1 ![1, 10]
  dot_S2048x10_S10x40000_S2048x40000_1_0_0_1_n_n_wf : DotDims.WF S2048x10 S10x40000 S2048x40000 [1] [0] [0] [1] [] []
  gather_S2000x40000_S2048x1_S2048x40000_1_0_n_n_0_1_140000_wf : GatherDims.WF S2000x40000 S2048x1 S2048x40000 [1] [0] [] [0] [] 1 ![1, 40000]
  gather_S2000x5000x20_S2048x2_S2048x20_1_01_n_n_01_1_1120_wf : GatherDims.WF S2000x5000x20 S2048x2 S2048x20 [1] [0, 1] [] [0, 1] [] 1 ![1, 1, 20]
  gather_S2048x40000_S2048x20x1_S2048x20_n_1_0_0_1_2_11_wf : GatherDims.WF S2048x40000 S2048x20x1 S2048x20 [] [1] [0] [1] [0] 2 ![1, 1]
  gather_S5000_S2048x1_S2048_n_0_n_n_0_1_1_wf : GatherDims.WF S5000 S2048x1 S2048 [] [0] [] [0] [] 1 ![1]

variable [Facts₀]

def gather_S2000x10_S2048x1_S2048x10_1_0_n_n_0_1_110 : GatherDims S2000x10 S2048x1 S2048x10 where
  offsetDims := [1]
  collapsedSliceDims := [0]
  operandBatchingDims := []
  startIndicesBatchingDims := []
  startIndexMap := [0]
  indexVectorDim := 1
  sliceSizes := ![1, 10]
  wf := gather_S2000x10_S2048x1_S2048x10_1_0_n_n_0_1_110_wf
def dot_S2048x10_S10x40000_S2048x40000_1_0_0_1_n_n : DotDims S2048x10 S10x40000 S2048x40000 where
  lhsContracting := [1]
  rhsContracting := [0]
  lhsNonContracting := [0]
  rhsNonContracting := [1]
  lhsBatch := []
  rhsBatch := []
  wf := dot_S2048x10_S10x40000_S2048x40000_1_0_0_1_n_n_wf
def gather_S2000x40000_S2048x1_S2048x40000_1_0_n_n_0_1_140000 : GatherDims S2000x40000 S2048x1 S2048x40000 where
  offsetDims := [1]
  collapsedSliceDims := [0]
  operandBatchingDims := []
  startIndicesBatchingDims := []
  startIndexMap := [0]
  indexVectorDim := 1
  sliceSizes := ![1, 40000]
  wf := gather_S2000x40000_S2048x1_S2048x40000_1_0_n_n_0_1_140000_wf
def gather_S2000x5000x20_S2048x2_S2048x20_1_01_n_n_01_1_1120 : GatherDims S2000x5000x20 S2048x2 S2048x20 where
  offsetDims := [1]
  collapsedSliceDims := [0, 1]
  operandBatchingDims := []
  startIndicesBatchingDims := []
  startIndexMap := [0, 1]
  indexVectorDim := 1
  sliceSizes := ![1, 1, 20]
  wf := gather_S2000x5000x20_S2048x2_S2048x20_1_01_n_n_01_1_1120_wf
def gather_S2048x40000_S2048x20x1_S2048x20_n_1_0_0_1_2_11 : GatherDims S2048x40000 S2048x20x1 S2048x20 where
  offsetDims := []
  collapsedSliceDims := [1]
  operandBatchingDims := [0]
  startIndicesBatchingDims := [0]
  startIndexMap := [1]
  indexVectorDim := 2
  sliceSizes := ![1, 1]
  wf := gather_S2048x40000_S2048x20x1_S2048x20_n_1_0_0_1_2_11_wf
def gather_S5000_S2048x1_S2048_n_0_n_n_0_1_1 : GatherDims S5000 S2048x1 S2048 where
  offsetDims := []
  collapsedSliceDims := [0]
  operandBatchingDims := []
  startIndicesBatchingDims := []
  startIndexMap := [0]
  indexVectorDim := 1
  sliceSizes := ![1]
  wf := gather_S5000_S2048x1_S2048_n_0_n_n_0_1_1_wf

class Facts : Prop extends Facts₀ where

variable [Facts]
-- ==== Proof.KBKit.lean ====
/-
  The launch side of the gather-and-combine kernel, shared by its body run and its frame run.

  @main is: host lines (the three embedding lookups `H[user]`, `C[user, item]`, `I_B[item]` and the transposed,
  narrowed `Gᵀ`), ONE pipelined region over 64 points, then host lines (the masked gather along the feature lists, the
  sum over the 20 features, the bias). The region's table is the `user` vector, read word by word by the body; no index
  map reads it, so every table is admissible. Each point copies 32 rows of `K` — row `user[32·t + r]` into row `r` of a
  scratch tile — on one semaphore of its own, so `K` is the one operand the kernel moves itself.
-/
import proofs.«401447_j35158602285715_3_alg».proof.Proof.Gen.Kernel.Launch
import proofs.«401447_j35158602285715_3_alg».proof.Proof.Gen.Kernel.Skeleton
import proofs.«401447_j35158602285715_3_alg».proof.Proof.Gen.Kernel.Loops
import Idealize.ShloMosaic.Lib.Pipeline.FrameSuffix
import Idealize.ShloMosaic.Lib.Pipeline.FrameBody
import Idealize.ShloMosaic.Lib.Batch
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf UD)

variable {F : FTy → Type} [FloatOps F]

local notation "𝕄" => MT nD τ sig Unit (Elt F) ℕ (UD sig nD τ) ℕ

variable (m : (ℓ : Loc nD τ sig) → Buf (Elt F) ℓ) (ρ : Dev nD → PrngReg)

/-! ## @main around the region -/

/-- Core `c`'s buffer contents when the region is entered, as a valuation: after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-- @main reduces to the region continued by the later lines, at the contents after the earlier ones. -/
theorem hmain (𝒱₀ : Variants) : Pipeline.HMainPK (Ix := Unit) (Name := ℕ) (U := UD sig nD τ) (Lvl := ℕ) pcfgs 0 defs₀ 𝒱₀ m (main (F := F)) (V m)
      (fun _ => Pipeline.chain [StableHlo.seq hostOps1, StableHlo.seq hostOps1_1]) :=
  Pipeline.hmainP_around pcfgs 0 defs₀ 𝒱₀ m main [hostOps0] [hostOps1, hostOps1_1] (by simp only [List.Forall]; exact hostOps0_sub)
    (by simp only [List.Forall]; exact hostOps0_fresh) main_chain

/-! ## The table -/

/-- The table's contents when the region is entered (there is one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- Every table is admissible: no index map reads it. -/
abbrev adm : (pcfg0 (F := F)).Adm := ⟨tbl m, trivial⟩
abbrev cfgM : Pipeline.Cfg sig Λ₀ := cfg0 (adm m)

/-- The table as the body is handed it. -/
abbrev tbM : Memref sig .tc .smem S2048 .i32 := Memref.whole main_arg0
abbrev htbM : tbM.IsWhole := Memref.isWhole_whole _

/-- A memref's buffer on core `c`, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

abbrev i0 : S1.Idx := Shape.Idx.first (s := S1) (numel1_S1.symm ▸ Nat.one_pos)
/-- The `user` word trip `r` of the point at coordinates `i` reads, off contents `f` of the table. -/
abbrev uwd (M0 : Memref sig .tc .smem S2048 .i32) {c : Dev nD} (f : Bf (F := F) c M0) (i : grid0.Coords) (r : Fin k0_t1_loop.trips) : BitVec 32 :=
  M0.view.readAt (Elt F) (Rect.unit (s := S2048) (k0_off1 i r) S1.size (k0_off1_inb i r)).toLoadRect f i0
/-- A table memref held at the half share the region hands the body (read-only: the pipeline keeps the other half). -/
abbrev tbPt (c : Dev nD) {S : Shape} {e : EltTy} (M : Memref sig .tc .smem S e) (f : Bf (F := F) c M) : sProp 𝕄 :=
  M.view.loc (c : Thread nD τ) ↦{fullShare.right} f

/-- What the frames need of the launch memory: every `user` word the body reads names a row of `K`. -/
def Hyps : Prop := ∀ (c : Dev nD) (i : grid0.Coords) (r : Fin k0_t1_loop.trips), (uwd tbM (c := c) (tbl m 0) i r).toNat < 2000

/-! ## The kernel's own semaphore and the operand it moves -/

/-- The kernel's one DMA semaphore (the one cell of its semaphore array). -/
abbrev cell : SemLoc sig := SemLoc.dma 6
abbrev osem : Unit → SemLoc sig := fun _ => cell
theorem ownSemFacts : Pipeline.OwnSemFacts spec0 osem := by decide
theorem ownSems_eq (c : Dev nD) :
    (Pipeline.ownSems0 (Ix := Unit) (Name := ℕ) (U := UD sig nD τ) (Lvl := ℕ) (Val := Elt F) (τ := τ) osem c : sProp 𝕄)
      = semVal ((c : Thread nD τ), cell) 0 :=
  Pipeline.ownSems0_eq_of_list c osem [()] (by decide) (by decide)

/-- The operand the kernel moves itself: `K`, left in HBM. -/
def H0 : Finset (Ref sig .tc) := {main_arg4}
theorem H0_sub : H0 ⊆ Pipeline.restRefsP sig pre0 spec0 := by decide
abbrev kM : Memref sig .tc .hbm S2000x40000 .f32 := Memref.whole main_arg4
abbrev scM : Memref sig .tc .vmem S32x40000 .f32 := Memref.whole cc0_scratch0
theorem hbmPts_eq (c : Dev nD) :
    (bigSep H0 (fun b => ((c : Thread nD τ).loc b) ↦{fullShare} V m c b) : sProp 𝕄) = pt c kM (V m c main_arg4) := by
  rw [BI.bigSep_eq_bigSepL_of_eq [main_arg4] (by decide) (by decide)]; rfl

/-- The region's invariant conjunct by conjunct: the scratch tile at some contents, the generator register, the
    kernel's cell at zero, `K` whole at its launch contents. -/
theorem PhiD_eq (c : Dev nD) :
    (Pipeline.ΦD osem spec0 H0 (V m) c : sProp 𝕄)
      = iprop((∃ f : Bf (F := F) c scM, pt c scM f) ∗ (∃ r, prngReg c r) ∗ semVal ((c : Thread nD τ), cell) 0 ∗ pt c kM (V m c main_arg4)) := by
  rw [Pipeline.ΦD_eq, scopedRest0_eq, ownSems_eq, hbmPts_eq]; try rfl

/-- The table's half the region hands the body. -/
theorem PhiT_eq (c : Dev nD) : (Pipeline.ΦT pre0 (tbl m) c : sProp 𝕄) = tbPt c tbM (tbl m 0) := by
  unfold Pipeline.ΦT Pipeline.prefHeld
  rw [show (Finset.univ : Finset (Fin 1)) = {(0 : Fin 1)} from by decide, bigSep_singleton]
  rfl

end Cert.Kernel.Hand

end
-- ==== Proof.KBEnds.lean ====
/-
  The 32 row copies of one grid point, as ONE batch on the kernel's semaphore.

  Trip `r` of the first loop reads the word `w r = user[32·t + r]`, and starts a copy of row `w r` of `K` into row `r` of the
  scratch tile. The destination rows are pairwise disjoint; the SOURCE rows need not be (two queries may name one user), so
  a copy does not borrow its source row outright: `K` is held as 32 read tokens, and copy `r` borrows token `r`'s part of
  its row. What copy `r` hands back when the batch is drained: row `r` of the tile holding row `w r` of `K`, and that token.
-/
import proofs.«401447_j35158602285715_3_alg».proof.Proof.KBKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf UD)

variable {F : FTy → Type} [FloatOps F]

local notation "𝕄" => MT nD τ sig Unit (Elt F) ℕ (UD sig nD τ) ℕ

theorem trips_eq : k0_t1_loop.trips = 32 := by decide
theorem trips2_eq : k0_t2_loop.trips = 32 := by decide

/-- Row `w` of `K` in bounds: what the body assumes of the word. -/
theorem src_inb (w : BitVec 32) (hw : w.toNat < 2000) : k0_chk1 w := by
  intro a; fin_cases a
  · show w.toNat + 1 ≤ 2000; omega
  · show 0 + 40000 ≤ 40000; omega

/-- Row `r` of the scratch tile, spelled as trip `r` spells a transfer's destination. -/
def rowM (r : Fin k0_t1_loop.trips) : Memref sig .tc .vmem S40000 .f32 :=
  (scM.slice (Rect.unit (s := S32x40000) (k0_off2 r) S1x40000.size (k0_off2_inb r)) (fun _ => rfl)).squeeze S40000 squeezes_S1x40000_S40000
/-- Row `w` of `K`, spelled as the body spells a transfer's source. -/
def srcM (w : BitVec 32) (h : k0_chk1 w) : Memref sig .tc .hbm S40000 .f32 :=
  (kM.slice (Rect.unit (s := S2000x40000) (k0_off3 w) S1x40000.size (k0_off3_inb w h)) (fun _ => rfl)).squeeze S40000 squeezes_S1x40000_S40000

/-- One transfer's credit on the cell. -/
abbrev NN : ℕ := (rowM (⟨0, by decide⟩ : Fin k0_t1_loop.trips)).view.amount (cell : SemLoc sig)

section Deliveries

variable (c : Dev nD) (w : Fin k0_t1_loop.trips → BitVec 32) (hw : ∀ r, (w r).toNat < 2000)
  (fs : Bf (F := F) c scM) (fK : Bf (F := F) c kM)

abbrev fsAt (r : Fin k0_t1_loop.trips) : Buf (Elt F) ((rowM r).view.loc (c : Thread nD τ)) := fs
abbrev fKAt (r : Fin k0_t1_loop.trips) : Buf (Elt F) ((srcM (w r) (src_inb _ (hw r))).view.loc (c : Thread nD τ)) := fK

/-- Row `r` of the tile LANDED: row `w r` of `K` read, as one listed write over the row's prior contents. -/
abbrev landed (r : Fin k0_t1_loop.trips) : Buf (Elt F) ((rowM r).view.loc (c : Thread nD τ)) :=
  (rowM r).view.writes (Elt F) (fsAt c fs r) [⟨Rect.whole S40000, ReadAs.same.apply ((srcM (w r) (src_inb _ (hw r))).view.read (Elt F) (fKAt c w hw fK r))⟩]

/-- Transfer `r`'s delivery: row `r` of the tile, by its own elements, landed; and its read token of row `w r` of `K` back. -/
abbrev D (r : Fin k0_t1_loop.trips) : sProp 𝕄 :=
  iprop(((rowM r).view.loc (c : Thread nD τ) ↦[(rowM r).view.set]{fullShare} landed c w hw fs fK r)
    ∗ ((srcM (w r) (src_inb _ (hw r))).view.loc (c : Thread nD τ) ↦[(srcM (w r) (src_inb _ (hw r))).view.set]{Transfers.shareTokN fullShare r.val} fKAt c w hw fK r))

instance D_storable (r : Fin k0_t1_loop.trips) : BI.Storable (upEmb : UEmb _ 𝕄) (D c w hw fs fK r) := by
  unfold D; infer_instance

/-- The batch on the kernel's cell: 32 transfers of `NN`, transfer `r` delivering `D r`, `j` issued, `u` consumed. -/
abbrev batch (j u : ℕ) : sProp 𝕄 :=
  Transfers.Batch countersEmb (c : Thread nD τ) cell () NN
    (fun t : Fin 32 => D c w hw fs fK (t.cast trips_eq.symm)) j u

end Deliveries

end Cert.Kernel.Hand

end
-- ==== Proof.KBLoops.lean ====
/-
  The two counted loops of the body, each through one symbolic trip.

  The issue loop: before trip `k` the copies below `k` are in flight and none is waited for; trip `k` reads its word, finds
  the row it names inside `K` (the precondition's range fact), and starts copy `k`. The drain loop: each wait takes one
  row's credit off the semaphore; since every copy signals the same amount, after the 32nd wait all 32 have landed, in
  whatever order they completed, and every delivery is handed back with the semaphore at zero. Nothing reads the tile or
  writes `K` between the first wait and the last.
-/
import proofs.«401447_j35158602285715_3_alg».proof.Proof.KBEnds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf UD)

variable {F : FTy → Type} [FloatOps F]

local notation "𝕄" => MT nD τ sig Unit (Elt F) ℕ (UD sig nD τ) ℕ

section Issue

variable (c : Dev nD) (i : grid0.Coords) (M0 : Memref sig .tc .smem S2048 .i32) (ft : Bf (F := F) c M0)
  (hw : ∀ r, (uwd M0 ft i r).toNat < 2000) (fs : Bf (F := F) c scM) (fK : Bf (F := F) c kM)

/-- Before trip `k`: the transfers below `k` issued, none consumed; the tile rows and the read tokens of the transfers from
    `k` on still in hand; the table's half, read at every issue. -/
def issueAt (k : ℕ) (_ : Unit) : sProp 𝕄 :=
  iprop(batch c (uwd M0 ft i) hw fs fK (min k 32) 0
    ∗ bigSep (Ring.rangeSet k0_t1_loop.trips k 32) (fun r => (rowM r).view.loc (c : Thread nD τ) ↦[(rowM r).view.set]{fullShare} fsAt c fs r)
    ∗ bigSep (Ring.rangeSet k0_t1_loop.trips k 32) (fun r => (srcM (uwd M0 ft i r) (src_inb _ (hw r))).view.loc (c : Thread nD τ) ↦[(srcM (uwd M0 ft i r) (src_inb _ (hw r))).view.set]{Transfers.shareTokN fullShare r.val} fKAt c (uwd M0 ft i) hw fK r)
    ∗ tbPt c M0 ft)

theorem issue_step [∀ e, Nonempty (Elt F e)] (h0 : M0.IsWhole) (arg2 : Memref sig .tc .vmem S32x10 .f32) (harg2 : arg2.IsWhole) (arg3 : Memref sig .tc .vmem S10x40000 .bf16) (harg3 : arg3.IsWhole)
    (arg4 : Memref sig .tc .vmem S40000 .f32) (harg4 : arg4.IsWhole) (arg6 : Memref sig .tc .vmem S32x40000 .f32) (harg6 : arg6.IsWhole)
    (k : Fin k0_t1_loop.trips) (acc : Unit) :
    issueAt c i M0 ft hw fs fK k acc
      ⊢ wp frame (wpE (defs₀ (F := F)) Variants.none c none) Set.univ
          (k0_t1_body i M0 h0 arg2 harg2 arg3 harg3 arg4 harg4 kM (Memref.isWhole_whole _) arg6 harg6 scM (Memref.isWhole_whole _) cc0_scratch1 k acc)
          (issueAt c i M0 ft hw fs fK (k.val + 1)) := by
  have hkT : k.val < 32 := Nat.lt_of_lt_of_eq k.isLt trips_eq
  have hchk : k0_chk1 (uwd M0 ft i k) := src_inb _ (hw k)
  unfold issueAt
  simp only [Nat.min_eq_left (Nat.le_of_lt hkT), Nat.min_eq_left (Nat.succ_le_of_lt hkT)]
  rw [Ring.bigSep_rangeSet_head (Φ := fun r => (rowM r).view.loc (c : Thread nD τ) ↦[(rowM r).view.set]{fullShare} fsAt c fs r) hkT k.isLt,
    Ring.bigSep_rangeSet_head (Φ := fun r => (srcM (uwd M0 ft i r) (src_inb _ (hw r))).view.loc (c : Thread nD τ) ↦[(srcM (uwd M0 ft i r) (src_inb _ (hw r))).view.set]{Transfers.shareTokN fullShare r.val} fKAt c (uwd M0 ft i) hw fK r) hkT k.isLt]
  iintro ⟨HB, ⟨HP, HPs⟩, ⟨HS, HSs⟩, H0⟩
  dsimp only [k0_t1_body]
  sl_exec (disch := first | exact hchk)
  sl_step
  isplitl [HB]; · iexact HB
  isplitl [HPs]; · iexact HPs
  isplitl [HSs]; · iexact HSs
  iexact H0

end Issue

/-! ## The drain loop -/

section Drain

variable (c : Dev nD) (w : Fin k0_t1_loop.trips → BitVec 32) (hw : ∀ r, (w r).toNat < 2000)
  (fs : Bf (F := F) c scM) (fK : Bf (F := F) c kM)

/-- Before trip `k`: the waits so far recorded, and EITHER the batch with `k` rows' credit consumed, OR (after the last) the
    cell back at zero and every delivery. -/
def drainAt (k : ℕ) (_ : Unit) : sProp 𝕄 :=
  iprop((∃ W, owes (c : Thread nD τ) 0 W)
    ∗ (if k < 32 then batch c w hw fs fK 32 (k * NN)
       else iprop(semVal ((c : Thread nD τ), cell) 0
              ∗ bigSep Finset.univ (fun t : Fin 32 => D c w hw fs fK (t.cast trips_eq.symm)))))

theorem drain_step [∀ e, Nonempty (Elt F e)] (i : grid0.Coords) (M0 : Memref sig .tc .smem S2048 .i32) (h0 : M0.IsWhole)
    (arg2 : Memref sig .tc .vmem S32x10 .f32) (harg2 : arg2.IsWhole) (arg3 : Memref sig .tc .vmem S10x40000 .bf16) (harg3 : arg3.IsWhole)
    (arg4 : Memref sig .tc .vmem S40000 .f32) (harg4 : arg4.IsWhole) (arg6 : Memref sig .tc .vmem S32x40000 .f32) (harg6 : arg6.IsWhole)
    (k : Fin k0_t2_loop.trips) (acc : Unit) :
    drainAt c w hw fs fK k acc
      ⊢ wp frame (wpE (defs₀ (F := F)) Variants.none c none) Set.univ
          (k0_t2_body i M0 h0 arg2 harg2 arg3 harg3 arg4 harg4 kM (Memref.isWhole_whole _) arg6 harg6 scM (Memref.isWhole_whole _) cc0_scratch1 k acc)
          (drainAt c w hw fs fK (k.val + 1)) := by
  have hkT : k.val < 32 := Nat.lt_of_lt_of_eq k.isLt trips2_eq
  unfold drainAt
  simp only [if_pos hkT]
  rcases Nat.lt_or_ge (k.val + 1) 32 with hk1 | hk1
  · simp only [if_pos hk1]
    iintro ⟨⟨%W, HO⟩, HB⟩
    dsimp only [k0_t2_body]
    sl_exec
    sl_step
    isplitl [HO]; · iexists _; iexact HO
    rw [show (k.val + 1) * NN = k.val * NN + NN from Nat.succ_mul _ _]
    iexact HB
  · have hlast : k.val + 1 = 32 := by omega
    simp only [if_neg (Nat.not_lt.mpr hk1)]
    iintro ⟨⟨%W, HO⟩, HB⟩
    dsimp only [k0_t2_body]
    sl_exec
    sl_step
    isplitl [HO]; · iexists _; iexact HO
    isplitl [HB]; · iexact HB
    iexact HB_all

end Drain

end Cert.Kernel.Hand

end
-- ==== Proof.KBSplit.lean ====
/-
  The gather's bookkeeping, split: the scratch tile by its 32 rows, and `K` by 32 read tokens.

  The tile's rows are pairwise disjoint and cover it: row `r` is the tile's elements with first coordinate `r`. So the
  tile held whole is its 32 rows, each by its own elements, beside an (empty) remainder — at its entry contents before the
  copies, and after them at the contents whose row `r` is what copy `r` landed. `K` is only read, and two copies may read
  one row, so `K` held whole is cut by SHARE: 32 read tokens and the share left over, token `r` cut again at row `w r` into
  the part copy `r` borrows and a part kept aside. The deliveries of the 32 copies are then exactly the rows landed and the
  borrowed parts. Last, the value: an element `(r, n)` of the tile lies on row `r`, what landed there is the one whole-row
  write of row `w r` of `K`, and element `n` of that row is `K`'s element `(w r, n)`; so after the copies the tile is,
  in closed form, `(r, n) ↦ K (w r, n)`, whatever it held before.
-/
import proofs.«401447_j35158602285715_3_alg».proof.Proof.KBEnds
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf UD)

variable {F : FTy → Type} [FloatOps F]

local notation "𝕄" => MT nD τ sig Unit (Elt F) ℕ (UD sig nD τ) ℕ

/-! ## The tile by rows -/

section Rows

variable (c : Dev nD)

/-- Row `r`'s elements of the scratch tile. -/
abbrev rowSet (r : Fin k0_t1_loop.trips) : Finset (Idx (scM.view.loc (c : Thread nD τ))) := (rowM r).view.set

omit [FloatOps F] in
/-- A row's elements are those of its one-row rectangle. -/
theorem rowSet_eq (r : Fin k0_t1_loop.trips) :
    (rowM r).view.set = (Rect.unit (s := S32x40000) (k0_off2 r) S1x40000.size (k0_off2_inb r)).set := by
  unfold rowM; exact (View.set_reshape _ _).trans (View.set_slice_whole _ _)

omit [FloatOps F] in
/-- Row `r`'s elements are the tile's at first coordinate `r`. -/
theorem mem_rowSet (r : Fin k0_t1_loop.trips) (y : S32x40000.Idx) : y ∈ rowSet c r ↔ (y 0).val = r.val := by
  unfold rowSet; rw [rowSet_eq, Rect.mem_set_unit, Gen.k0_off2_eq]
  have h1 : (y 1).val < 40000 := (y 1).isLt
  constructor
  · intro H; have a0 : r.val ≤ (y 0).val ∧ (y 0).val < r.val + 1 := H 0; omega
  · intro H a; fin_cases a
    · show r.val ≤ (y 0).val ∧ (y 0).val < r.val + 1; omega
    · show 0 ≤ (y 1).val ∧ (y 1).val < 0 + 40000; omega

omit [FloatOps F] in
/-- Distinct rows share no element. -/
theorem rowSet_disjoint : ∀ r ∈ Ring.rangeSet k0_t1_loop.trips 0 32, ∀ r' ∈ Ring.rangeSet k0_t1_loop.trips 0 32, r ≠ r' →
    Disjoint (rowSet c r) (rowSet c r') := by
  intro r _ r' _ hne
  rw [Finset.disjoint_left]; intro y hy hy'
  rw [mem_rowSet] at hy hy'
  exact hne (Fin.ext (hy.symm.trans hy'))

end Rows

/-! ## The tile, whole, by rows -/

section Split

variable (c : Dev nD) (w : Fin k0_t1_loop.trips → BitVec 32) (hw : ∀ r, (w r).toNat < 2000)
  (fs : Bf (F := F) c scM) (fK : Bf (F := F) c kM)

/-- The tile held whole, at any ONE contents `g`, is its 32 rows, each by its own elements, beside what is left of it. -/
theorem tile_split (g : Bf (F := F) c scM) :
    (pt c scM g : sProp 𝕄)
      = iprop(bigSep (Ring.rangeSet k0_t1_loop.trips 0 32) (fun r => scM.view.loc (c : Thread nD τ) ↦[rowSet c r]{fullShare} g)
          ∗ (scM.view.loc (c : Thread nD τ) ↦[Finset.univ \ (Ring.rangeSet k0_t1_loop.trips 0 32).biUnion (rowSet c)]{fullShare} g)) := by
  have hs : (scM.view.loc (c : Thread nD τ) ↦[Finset.univ]{fullShare} g : sProp 𝕄)
      ⊣⊢ iprop((scM.view.loc (c : Thread nD τ) ↦[(Ring.rangeSet k0_t1_loop.trips 0 32).biUnion (rowSet c)]{fullShare} g)
          ∗ scM.view.loc (c : Thread nD τ) ↦[Finset.univ \ (Ring.rangeSet k0_t1_loop.trips 0 32).biUnion (rowSet c)]{fullShare} g) :=
    pointsTo_split_subset (Finset.subset_univ _)
  rw [show (pt c scM g : sProp 𝕄) = (scM.view.loc (c : Thread nD τ) ↦[Finset.univ]{fullShare} g) from rfl,
    BI.equiv_iff.mp ⟨hs.1, hs.2⟩, pointsTo_biUnion _ (rowSet c) (rowSet_disjoint c)]

/-- The tile whole at its ENTRY contents: what the issue loop starts from. -/
theorem tile_entry_split :
    (pt c scM fs : sProp 𝕄)
      = iprop(bigSep (Ring.rangeSet k0_t1_loop.trips 0 32) (fun r => (rowM r).view.loc (c : Thread nD τ) ↦[(rowM r).view.set]{fullShare} fsAt c fs r)
          ∗ (scM.view.loc (c : Thread nD τ) ↦[Finset.univ \ (Ring.rangeSet k0_t1_loop.trips 0 32).biUnion (rowSet c)]{fullShare} fs)) :=
  tile_split c fs

/-- The row an element of the tile lies on. -/
abbrev rowOf (y : S32x40000.Idx) : Fin k0_t1_loop.trips := (y 0).cast trips_eq.symm

/-- What the tile holds after the 32 copies: each element what the copy into its row landed there. -/
def tileAfter : Bf (F := F) c scM := fun y => landed c w hw fs fK (rowOf y) y

omit [FloatOps F] in
/-- On row `r` the tile holds that row's copy. -/
theorem tileAfter_on (r : Fin k0_t1_loop.trips) (y : S32x40000.Idx) (hy : y ∈ rowSet c r) :
    tileAfter c w hw fs fK y = landed c w hw fs fK r y := by
  obtain rfl : rowOf y = r := Fin.ext ((mem_rowSet c r y).mp hy)
  unfold tileAfter; rfl

/-- The tile whole after the copies IS the rows landed (the deliveries' halves) beside the remainder at the entry contents. -/
theorem tile_after_split :
    (pt c scM (tileAfter c w hw fs fK) : sProp 𝕄)
      = iprop(bigSep (Ring.rangeSet k0_t1_loop.trips 0 32) (fun r => (rowM r).view.loc (c : Thread nD τ) ↦[(rowM r).view.set]{fullShare} landed c w hw fs fK r)
          ∗ (scM.view.loc (c : Thread nD τ) ↦[Finset.univ \ (Ring.rangeSet k0_t1_loop.trips 0 32).biUnion (rowSet c)]{fullShare} fs)) := by
  have h1 : ∀ r ∈ Ring.rangeSet k0_t1_loop.trips 0 32,
      (scM.view.loc (c : Thread nD τ) ↦[rowSet c r]{fullShare} tileAfter c w hw fs fK : sProp 𝕄)
        = scM.view.loc (c : Thread nD τ) ↦[rowSet c r]{fullShare} landed c w hw fs fK r :=
    fun r _ => pointsTo_congr fun y hy => tileAfter_on c w hw fs fK r y hy
  have h2 : (scM.view.loc (c : Thread nD τ) ↦[Finset.univ \ (Ring.rangeSet k0_t1_loop.trips 0 32).biUnion (rowSet c)]{fullShare} tileAfter c w hw fs fK : sProp 𝕄)
      = scM.view.loc (c : Thread nD τ) ↦[Finset.univ \ (Ring.rangeSet k0_t1_loop.trips 0 32).biUnion (rowSet c)]{fullShare} fs :=
    pointsTo_congr fun y hy => absurd
      (Finset.mem_biUnion.mpr ⟨rowOf y, (Ring.mem_rangeSet 0 32 _).mpr ⟨Nat.zero_le _, (y 0).isLt⟩, (mem_rowSet c _ y).mpr rfl⟩)
      (Finset.mem_sdiff.mp hy).2
  rw [tile_split c (tileAfter c w hw fs fK), BI.bigSep_congr h1, h2]
  rfl

end Split

/-! ## `K` by read tokens, each cut at the row its copy reads -/

section Source

variable (c : Dev nD) (w : Fin k0_t1_loop.trips → BitVec 32) (hw : ∀ r, (w r).toNat < 2000)
  (fs : Bf (F := F) c scM) (fK : Bf (F := F) c kM)

/-- The elements of the row of `K` that copy `r` reads. -/
abbrev srcSet (r : Fin k0_t1_loop.trips) : Finset (Idx (kM.view.loc (c : Thread nD τ))) := (srcM (w r) (src_inb _ (hw r))).view.set

/-- What is kept of `K` while the copies are in flight: the share left after 32 read tokens are taken off, and of token `r`
    everything but the row copy `r` reads. -/
def Krest : sProp 𝕄 :=
  iprop((kM.view.loc (c : Thread nD τ) ↦[Finset.univ]{Transfers.shareDrop fullShare 32} fK)
    ∗ bigSep (Ring.rangeSet k0_t1_loop.trips 0 32) (fun r =>
        kM.view.loc (c : Thread nD τ) ↦[Finset.univ \ (srcM (w r) (src_inb _ (hw r))).view.set]{Transfers.shareTokN fullShare r.val} fK))

/-- `K` held whole is, token by token, the part of row `w r` that copy `r` borrows, beside what is kept. -/
theorem K_split :
    (pt c kM fK : sProp 𝕄)
      ⊣⊢ iprop(bigSep (Ring.rangeSet k0_t1_loop.trips 0 32) (fun r =>
              (srcM (w r) (src_inb _ (hw r))).view.loc (c : Thread nD τ) ↦[(srcM (w r) (src_inb _ (hw r))).view.set]{Transfers.shareTokN fullShare r.val} fKAt c w hw fK r)
          ∗ Krest c w hw fK) := by
  -- the 32 read tokens, numbered by the trips
  have ht : (kM.view.loc (c : Thread nD τ) ↦[Finset.univ]{fullShare} fK : sProp 𝕄)
      ⊣⊢ iprop((kM.view.loc (c : Thread nD τ) ↦[Finset.univ]{Transfers.shareDrop fullShare 32} fK)
          ∗ bigSep (Finset.range 32) (fun i => kM.view.loc (c : Thread nD τ) ↦[Finset.univ]{Transfers.shareTokN fullShare i} fK)) :=
    Transfers.pointsTo_toks_range fullShare 32
  have hr : (bigSep (Ring.rangeSet k0_t1_loop.trips 0 32) (fun r => kM.view.loc (c : Thread nD τ) ↦[Finset.univ]{Transfers.shareTokN fullShare r.val} fK) : sProp 𝕄)
      = bigSep (Finset.range 32) (fun i => kM.view.loc (c : Thread nD τ) ↦[Finset.univ]{Transfers.shareTokN fullShare i} fK) :=
    Ring.bigSep_rangeSet_eq_range (NB := k0_t1_loop.trips) (lo := 0) (hi := 32) (le_of_eq trips_eq.symm)
      (fun i => kM.view.loc (c : Thread nD τ) ↦[Finset.univ]{Transfers.shareTokN fullShare i} fK)
      (fun k h => congrArg (fun n => (kM.view.loc (c : Thread nD τ) ↦[Finset.univ]{Transfers.shareTokN fullShare n} fK : sProp 𝕄)) (Nat.zero_add k).symm)
  -- token `r` cut at the row its copy reads
  have hcut : ∀ r ∈ Ring.rangeSet k0_t1_loop.trips 0 32,
      (kM.view.loc (c : Thread nD τ) ↦[Finset.univ]{Transfers.shareTokN fullShare r.val} fK : sProp 𝕄)
        = iprop((kM.view.loc (c : Thread nD τ) ↦[srcSet c w hw r]{Transfers.shareTokN fullShare r.val} fK)
            ∗ kM.view.loc (c : Thread nD τ) ↦[Finset.univ \ srcSet c w hw r]{Transfers.shareTokN fullShare r.val} fK) := fun r _ =>
    have hs : (kM.view.loc (c : Thread nD τ) ↦[Finset.univ]{Transfers.shareTokN fullShare r.val} fK : sProp 𝕄)
        ⊣⊢ iprop((kM.view.loc (c : Thread nD τ) ↦[srcSet c w hw r]{Transfers.shareTokN fullShare r.val} fK)
            ∗ kM.view.loc (c : Thread nD τ) ↦[Finset.univ \ srcSet c w hw r]{Transfers.shareTokN fullShare r.val} fK) :=
      pointsTo_split_subset (Finset.subset_univ _)
    BI.equiv_iff.mp ⟨hs.1, hs.2⟩
  have e1 : (pt c kM fK : sProp 𝕄)
      = iprop((kM.view.loc (c : Thread nD τ) ↦[Finset.univ]{Transfers.shareDrop fullShare 32} fK)
          ∗ (bigSep (Ring.rangeSet k0_t1_loop.trips 0 32) (fun r => kM.view.loc (c : Thread nD τ) ↦[srcSet c w hw r]{Transfers.shareTokN fullShare r.val} fK)
            ∗ bigSep (Ring.rangeSet k0_t1_loop.trips 0 32) (fun r => kM.view.loc (c : Thread nD τ) ↦[Finset.univ \ srcSet c w hw r]{Transfers.shareTokN fullShare r.val} fK))) := by
    rw [show (pt c kM fK : sProp 𝕄) = (kM.view.loc (c : Thread nD τ) ↦[Finset.univ]{fullShare} fK) from rfl,
      BI.equiv_iff.mp ⟨ht.1, ht.2⟩, ← hr, BI.bigSep_congr hcut, bigSep_sep']
  rw [e1]; unfold Krest
  constructor
  · iintro ⟨HX, HA, HB⟩
    isplitl [HA]; · iexact HA
    isplitl [HX]; · iexact HX
    iexact HB
  · iintro ⟨HA, HX, HB⟩
    isplitl [HX]; · iexact HX
    isplitl [HA]; · iexact HA
    iexact HB

/-- Every delivery, by transfer of the batch, is the rows landed beside the borrowed parts of the read tokens. -/
theorem deliveries_split :
    (bigSep Finset.univ (fun t : Fin 32 => D c w hw fs fK (t.cast trips_eq.symm)) : sProp 𝕄)
      = iprop(bigSep (Ring.rangeSet k0_t1_loop.trips 0 32) (fun r => (rowM r).view.loc (c : Thread nD τ) ↦[(rowM r).view.set]{fullShare} landed c w hw fs fK r)
          ∗ bigSep (Ring.rangeSet k0_t1_loop.trips 0 32) (fun r =>
              (srcM (w r) (src_inb _ (hw r))).view.loc (c : Thread nD τ) ↦[(srcM (w r) (src_inb _ (hw r))).view.set]{Transfers.shareTokN fullShare r.val} fKAt c w hw fK r)) := by
  have hu : Ring.rangeSet k0_t1_loop.trips 0 32 = Finset.univ := by
    ext r; rw [Ring.mem_rangeSet]
    have h1 : r.val < 32 := Nat.lt_of_lt_of_eq r.isLt trips_eq
    simp only [Finset.mem_univ, iff_true]; omega
  have hm : (Finset.univ : Finset (Fin k0_t1_loop.trips)) = Finset.univ.map (finCongr trips_eq.symm).toEmbedding :=
    (Finset.map_univ_equiv _).symm
  rw [hu, ← bigSep_sep', hm, BI.bigSep_map]
  rfl

end Source

/-! ## The tile after the copies, in closed form -/

section Values

variable (c : Dev nD) (w : Fin k0_t1_loop.trips → BitVec 32) (hw : ∀ r, (w r).toNat < 2000)
  (fs : Bf (F := F) c scM) (fK : Bf (F := F) c kM)

omit [FloatOps F] in
/-- A vector's index matched with the one-row shape is that index on row 0. -/
theorem reshapeEquiv_ix1_1a {a : ℕ} (h : (⟨1, ![a]⟩ : Shape).numel = (⟨2, ![1, a]⟩ : Shape).numel) (x : Fin a) :
    Shape.reshapeEquiv h (ValueIdx.ix1 x) = ValueIdx.ix2 (⟨0, Nat.one_pos⟩ : Fin 1) x :=
  Shape.reshapeEquiv_eq_of_rowMajor h (by
    rw [Shape.rowMajor_val_two, Shape.rowMajor_val_one]
    show 0 * a + x.val = x.val
    rw [Nat.zero_mul, Nat.zero_add])

omit [FloatOps F] in
/-- Element `n` of tile row `r` is the tile's element `(r, n)`. -/
theorem rowM_emb (r : Fin k0_t1_loop.trips) (n : Fin 40000) :
    ((rowM r).view.emb (ValueIdx.ix1 n) : S32x40000.Idx) = ValueIdx.ix2 (r.cast trips_eq) n := by
  unfold rowM
  show (Rect.unit (s := S32x40000) (k0_off2 r) S1x40000.size (k0_off2_inb r)).emb
      (Shape.reshapeEquiv squeezes_S1x40000_S40000.numel_eq (ValueIdx.ix1 n)) = _
  rw [reshapeEquiv_ix1_1a]
  funext a; apply Fin.ext
  match a with
  | ⟨0, _⟩ => show k0_off2 r 0 + 1 * 0 = r.val; rw [Gen.k0_off2_eq]; rfl
  | ⟨1, _⟩ => show k0_off2 r 1 + 1 * n.val = n.val; rw [Gen.k0_off2_eq]; show 0 + 1 * n.val = n.val; omega

omit [FloatOps F] in
/-- Element `n` of row `ww` of `K` is `K`'s element `(ww, n)`. -/
theorem srcM_emb (ww : BitVec 32) (h : k0_chk1 ww) (hlt : ww.toNat < 2000) (n : Fin 40000) :
    ((srcM ww h).view.emb (ValueIdx.ix1 n) : S2000x40000.Idx) = ValueIdx.ix2 (⟨ww.toNat, hlt⟩ : Fin 2000) n := by
  unfold srcM
  show (Rect.unit (s := S2000x40000) (k0_off3 ww) S1x40000.size (k0_off3_inb ww h)).emb
      (Shape.reshapeEquiv squeezes_S1x40000_S40000.numel_eq (ValueIdx.ix1 n)) = _
  rw [reshapeEquiv_ix1_1a]
  funext a; apply Fin.ext
  match a with
  | ⟨0, _⟩ => show ww.toNat + 1 * 0 = ww.toNat; rfl
  | ⟨1, _⟩ => show 0 + 1 * n.val = n.val; omega

/-- Row `r` landed, read at the tile's element `(r, n)`: `K`'s element `(w r, n)`. -/
theorem landed_apply (r : Fin k0_t1_loop.trips) (n : Fin 40000) :
    landed c w hw fs fK r (ValueIdx.ix2 (r.cast trips_eq) n) = fK (ValueIdx.ix2 (⟨(w r).toNat, hw r⟩ : Fin 2000) n) := by
  have e := View.write_univ_eq_writes_whole (rowM r).view (fsAt c fs r) []
    (ReadAs.same.apply ((srcM (w r) (src_inb _ (hw r))).view.read (Elt F) (fKAt c w hw fK r)))
  rw [View.writes_nil] at e
  unfold landed
  rw [← e, ← rowM_emb r n, View.write_emb_of_mem _ _ (Finset.mem_univ _), ReadAs.apply_same, View.read_apply,
    srcM_emb _ _ (hw r) n]
  rw [cast_cast]; exact cast_eq _ _

/-- The tile after the 32 copies, in closed form: entry `(r, n)` is `K`'s entry `(w r, n)`. -/
def tileVal : Bf (F := F) c scM := fun (y : S32x40000.Idx) =>
  fK (ValueIdx.ix2 (n0 := 2000) (n1 := 40000) ⟨(w (rowOf y)).toNat, hw _⟩ (y 1))

/-- After the copies the tile holds exactly that, whatever it held before. -/
theorem tileAfter_eq : tileAfter c w hw fs fK = tileVal c w hw fK := by
  funext y
  obtain ⟨p, q, rfl⟩ : ∃ (p : Fin 32) (q : Fin 40000), y = ValueIdx.ix2 p q := ⟨y 0, y 1, ValueIdx.eq_ix2 y⟩
  unfold tileAfter tileVal
  exact landed_apply c w hw fs fK (p.cast trips_eq.symm) q

omit [FloatOps F] in
theorem tileVal_apply (r : Fin 32) (n : Fin 40000) :
    tileVal c w hw fK (ValueIdx.ix2 r n) = fK (ValueIdx.ix2 (⟨(w (r.cast trips_eq.symm)).toNat, hw _⟩ : Fin 2000) n) := by
  unfold tileVal; rfl

/-- The tile's entry `(r, n)` after the copies is `K`'s entry `(w r, n)`. -/
theorem tileAfter_apply (r : Fin 32) (n : Fin 40000) :
    tileAfter c w hw fs fK (ValueIdx.ix2 r n) = fK (ValueIdx.ix2 (⟨(w (r.cast trips_eq.symm)).toNat, hw _⟩ : Fin 2000) n) := by
  rw [tileAfter_eq]; exact tileVal_apply c w hw fK r n

end Values

end Cert.Kernel.Hand

end
-- ==== Proof.KBBody.lean ====
/-
  The kernel body at one grid point, run once at symbolic staging buffers.

  The scratch tile is taken apart into its 32 rows and `K` into 32 read tokens cut at the rows the `user` words name; the
  issue loop starts the 32 copies as one batch on the kernel's semaphore; the three input blocks are loaded (the matrix
  product needs no row of `K`, so it is placed between the issues and the waits); the drain loop's 32 waits return every
  delivery; the tile is put together again, holding row `user[32·t + r]` of `K` in its row `r`, and `K` is whole again; the
  tile is loaded and the output block stored whole with `K[user] · (H[user] · Gᵀ + F_B)`.
-/
import proofs.«401447_j35158602285715_3_alg».proof.Proof.KBLoops
import proofs.«401447_j35158602285715_3_alg».proof.Proof.KBSplit
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf UD)

variable {F : FTy → Type} [FloatOps F]

local notation "𝕄" => MT nD τ sig Unit (Elt F) ℕ (UD sig nD τ) ℕ

section Run

variable (c : Dev nD) (i : grid0.Coords) (M0 : Memref sig .tc .smem S2048 .i32) (ft : Bf (F := F) c M0)
  (hw : ∀ r, (uwd M0 ft i r).toNat < 2000) (fK : Bf (F := F) c kM)

/-- What the body stores into its output block: the gathered rows of `K` times (the block of `H[user]` times `Gᵀ`, plus
    `F_B` along the rows), over the three input blocks as loaded and the tile after the copies. -/
def outVal (arg2 : Memref sig .tc .vmem S32x10 .f32) (arg3 : Memref sig .tc .vmem S10x40000 .bf16) (arg4 : Memref sig .tc .vmem S40000 .f32)
    (x2 : Bf (F := F) c arg2) (x3 : Bf (F := F) c arg3) (x4 : Bf (F := F) c arg4) : FVec F S32x40000 .f32 :=
  k0_pay1 (View.readAt (Elt F) arg2.view (Rect.unit (s := S32x10) ![0, 0] S32x10.size inb_S32x10_S32x10_0_0).toLoadRect x2)
    (View.readAt (Elt F) arg3.view (Rect.unit (s := S10x40000) ![0, 0] S10x40000.size inb_S10x40000_S10x40000_0_0).toLoadRect x3)
    (View.readAt (Elt F) arg4.view (Rect.unit (s := S40000) ![0] S40000.size inb_S40000_S40000_0).toLoadRect x4)
    (View.readAt (Elt F) scM.view (Rect.unit (s := S32x40000) ![0, 0] S32x40000.size inb_S32x40000_S32x40000_0_0).toLoadRect
      (tileVal c (uwd M0 ft i) hw fK))

set_option maxHeartbeats 8000000 in
/-- THE BODY'S RUN at one grid point: from the table's half, the three input blocks, the output block at any contents,
    the scratch tile at any contents, `K` whole, the semaphore at zero and the core's waits, the body runs to its
    return handing everything back as it was but the output block, stored whole with `outVal`, and the tile, holding the
    32 gathered rows. -/
theorem kernelRun [∀ e, Nonempty (Elt F e)] (h0 : M0.IsWhole)
    (arg2 : Memref sig .tc .vmem S32x10 .f32) (harg2 : arg2.IsWhole) (arg3 : Memref sig .tc .vmem S10x40000 .bf16) (harg3 : arg3.IsWhole)
    (arg4 : Memref sig .tc .vmem S40000 .f32) (harg4 : arg4.IsWhole) (arg6 : Memref sig .tc .vmem S32x40000 .f32) (harg6 : arg6.IsWhole)
    (x2 : Bf (F := F) c arg2) (x3 : Bf (F := F) c arg3) (x4 : Bf (F := F) c arg4) (y6 : Bf (F := F) c arg6) (fs : Bf (F := F) c scM)
    (W : Waits sig Unit) (Q : PUnit → sProp 𝕄) :
    iprop(tbPt c M0 ft ∗ pt c arg2 x2 ∗ pt c arg3 x3 ∗ pt c arg4 x4 ∗ pt c arg6 y6 ∗ pt c scM fs ∗ pt c kM fK
      ∗ semVal ((c : Thread nD τ), cell) 0 ∗ owes (c : Thread nD τ) 0 W
      ∗ (iprop(tbPt c M0 ft ∗ pt c arg2 x2 ∗ pt c arg3 x3 ∗ pt c arg4 x4
            ∗ pt c arg6 (arg6.view.writes (Elt F) y6 [⟨Rect.unit (s := S32x40000) ![0, 0] S32x40000.size inb_S32x40000_S32x40000_0_0, outVal c i M0 ft hw fK arg2 arg3 arg4 x2 x3 x4⟩])
            ∗ pt c scM (tileVal c (uwd M0 ft i) hw fK) ∗ pt c kM fK
            ∗ semVal ((c : Thread nD τ), cell) 0 ∗ ∃ W, owes (c : Thread nD τ) 0 W) -∗ Q ⟨⟩))
      ⊢ wp frame (wpE (defs₀ (F := F)) Variants.none c none) Set.univ
        (cc0__kernel i M0 h0 arg2 harg2 arg3 harg3 arg4 harg4 kM (Memref.isWhole_whole _) arg6 harg6 scM (Memref.isWhole_whole _) cc0_scratch1) Q := by
  rw [tile_entry_split c fs]
  iintro ⟨H0, H2, H3, H4, H6, ⟨HvP, HvR⟩, HK, Hc, HO, Hk⟩
  ihave HK' := (K_split c (uwd M0 ft i) hw fK).1 $$ HK
  icases HK' with ⟨HsP, HsR⟩
  simp only [cc0__kernel_eq_skeleton]; unfold cc0__kernel_skel
  -- the 32 copies as ONE batch on the semaphore, allocated from the cell at zero, its deliveries stated
  imod (Transfers.batch_alloc' (Lvl := ℕ) countersEmb (c : Thread nD τ) () NN
      (fun t : Fin 32 => D c (uwd M0 ft i) hw fs fK (t.cast trips_eq.symm)) (sm := cell) (E := Set.univ)) $$ Hc with HB
  sl_for (issueAt c i M0 ft hw fs fK) $$ [HB HvP HsP H0]
  · intro k acc; exact issue_step c i M0 ft hw fs fK h0 arg2 harg2 arg3 harg3 arg4 harg4 arg6 harg6 k acc
  · iapply (show iprop(batch c (uwd M0 ft i) hw fs fK 0 0
        ∗ bigSep (Ring.rangeSet k0_t1_loop.trips 0 32) (fun r => (rowM r).view.loc (c : Thread nD τ) ↦[(rowM r).view.set]{fullShare} fsAt c fs r)
        ∗ bigSep (Ring.rangeSet k0_t1_loop.trips 0 32) (fun r => (srcM (uwd M0 ft i r) (src_inb _ (hw r))).view.loc (c : Thread nD τ) ↦[(srcM (uwd M0 ft i r) (src_inb _ (hw r))).view.set]{Transfers.shareTokN fullShare r.val} fKAt c (uwd M0 ft i) hw fK r)
        ∗ tbPt c M0 ft) ⊢ issueAt c i M0 ft hw fs fK 0 () from by unfold issueAt; rw [Nat.zero_min])
    isplitl [HB]; · iexact HB
    isplitl [HvP]; · iexact HvP
    isplitl [HsP]; · iexact HsP
    iexact H0
  iintro %acc HL
  ihave HL' := (show issueAt c i M0 ft hw fs fK k0_t1_loop.trips acc ⊢ iprop(batch c (uwd M0 ft i) hw fs fK 32 0 ∗ tbPt c M0 ft) from by
    unfold issueAt; simp only [trips_eq, Nat.min_self, Ring.bigSep_rangeSet_empty (le_refl 32)]
    iintro ⟨A, -, -, B⟩; isplitl [A] <;> iassumption) $$ HL
  icases HL' with ⟨HB, H0⟩
  -- the three input blocks loaded
  sl_exec
  sl_for (drainAt c (uwd M0 ft i) hw fs fK) $$ [HB HO]
  · intro k acc; exact drain_step c (uwd M0 ft i) hw fs fK i M0 h0 arg2 harg2 arg3 harg3 arg4 harg4 arg6 harg6 k acc
  · iapply (show iprop((∃ W, owes (c : Thread nD τ) 0 W) ∗ batch c (uwd M0 ft i) hw fs fK 32 0) ⊢ drainAt c (uwd M0 ft i) hw fs fK 0 () from by
      unfold drainAt; rw [if_pos (by omega), Nat.zero_mul])
    isplitl [HO]; · iexists _; iexact HO
    iexact HB
  iintro %acc2 HL2
  ihave HL2' := (show drainAt c (uwd M0 ft i) hw fs fK k0_t2_loop.trips acc2
      ⊢ iprop((∃ W, owes (c : Thread nD τ) 0 W) ∗ semVal ((c : Thread nD τ), cell) 0
          ∗ bigSep (Ring.rangeSet k0_t1_loop.trips 0 32) (fun r => (rowM r).view.loc (c : Thread nD τ) ↦[(rowM r).view.set]{fullShare} landed c (uwd M0 ft i) hw fs fK r)
          ∗ bigSep (Ring.rangeSet k0_t1_loop.trips 0 32) (fun r => (srcM (uwd M0 ft i r) (src_inb _ (hw r))).view.loc (c : Thread nD τ) ↦[(srcM (uwd M0 ft i r) (src_inb _ (hw r))).view.set]{Transfers.shareTokN fullShare r.val} fKAt c (uwd M0 ft i) hw fK r)) from by
    unfold drainAt; rw [if_neg (by rw [trips2_eq]; omega), deliveries_split c (uwd M0 ft i) hw fs fK]) $$ HL2
  icases HL2' with ⟨⟨%W', HO⟩, Hc, HdP, HsP⟩
  -- the tile whole again, holding the gathered rows; `K` whole again
  ihave Hv := (Entails.of_eq (tile_after_split c (uwd M0 ft i) hw fs fK).symm) $$ [HdP HvR]
  · isplitl [HdP] <;> iassumption
  rw [tileAfter_eq c (uwd M0 ft i) hw fs fK]
  ihave HK := (K_split c (uwd M0 ft i) hw fK).2 $$ [HsP HsR]
  · isplitl [HsP] <;> iassumption
  -- the tile loaded, the output block stored whole
  sl_exec
  sl_step
  iapply Hk
  isplitl [H0]; · iexact H0
  isplitl [H2]; · iexact H2
  isplitl [H3]; · iexact H3
  isplitl [H4]; · iexact H4
  isplitl [H6]; · unfold outVal; iexact H6
  isplitl [Hv]; · iexact Hv
  isplitl [HK]; · iexact HK
  isplitl [Hc]; · iexact Hc
  iexists _; iexact HO

end Run

/-! ## The run over owned staging memrefs -/

section RunOwned

omit [FloatOps F] in
theorem hz2 : (![0, 0] : Fin S32x40000.rank → Nat) = fun _ => 0 := by funext a; fin_cases a <;> rfl

/-- A whole memref owned at `X` is its buffer held at the contents that read as `X`; -/
theorem owns_pt {sp : Space} {S : Shape} {e : EltTy} (c : Dev nD) (M : Memref sig .tc sp S e) (h : M.IsWhole) (X : S.Idx → Elt F e) :
    (owns (c : Thread nD τ) M fullShare X : sProp 𝕄) ⊢ pt c M (h.unread X) := by
  unfold owns
  iintro ⟨%f, %hf, H⟩
  obtain rfl := h.eq_unread hf
  rw [h.set_eq_univ]; iexact H
/-- and a whole memref's buffer held at `f` is the memref owned at what `f` reads as. -/
theorem pt_owns {sp : Space} {S : Shape} {e : EltTy} (c : Dev nD) (M : Memref sig .tc sp S e) (h : M.IsWhole) (f : Bf (F := F) c M)
    (X : S.Idx → Elt F e) (hr : M.view.read (Elt F) f = X) :
    pt c M f ⊢ (owns (c : Thread nD τ) M fullShare X : sProp 𝕄) := by
  unfold owns
  iintro H; iexists f; isplitr; · ipureintro; exact hr
  rw [h.set_eq_univ]; iexact H

variable (c : Dev nD) (i : grid0.Coords) (M0 : Memref sig .tc .smem S2048 .i32) (ft : Bf (F := F) c M0)
  (hw : ∀ r, (uwd M0 ft i r).toNat < 2000) (fK : Bf (F := F) c kM)

set_option maxHeartbeats 4000000 in
/-- The body's run with the staging memrefs OWNED at the blocks they hold: the three inputs come back as they were, and the
    output block comes back owned at `outVal`, whatever it held. -/
theorem kernelRun' [∀ e, Nonempty (Elt F e)] (h0 : M0.IsWhole)
    (arg2 : Memref sig .tc .vmem S32x10 .f32) (harg2 : arg2.IsWhole) (arg3 : Memref sig .tc .vmem S10x40000 .bf16) (harg3 : arg3.IsWhole)
    (arg4 : Memref sig .tc .vmem S40000 .f32) (harg4 : arg4.IsWhole) (arg6 : Memref sig .tc .vmem S32x40000 .f32) (harg6 : arg6.IsWhole)
    (X2 : Vec F S32x10 .f32) (X3 : Vec F S10x40000 .bf16) (X4 : Vec F S40000 .f32) (fs : Bf (F := F) c scM)
    (W : Waits sig Unit) (Q : PUnit → sProp 𝕄) :
    iprop(tbPt c M0 ft ∗ owns (c : Thread nD τ) arg2 fullShare X2 ∗ owns (c : Thread nD τ) arg3 fullShare X3 ∗ owns (c : Thread nD τ) arg4 fullShare X4
      ∗ (∃ d, owns (c : Thread nD τ) arg6 fullShare d) ∗ pt c scM fs ∗ pt c kM fK
      ∗ semVal ((c : Thread nD τ), cell) 0 ∗ owes (c : Thread nD τ) 0 W
      ∗ (iprop(tbPt c M0 ft ∗ owns (c : Thread nD τ) arg2 fullShare X2 ∗ owns (c : Thread nD τ) arg3 fullShare X3 ∗ owns (c : Thread nD τ) arg4 fullShare X4
            ∗ owns (c : Thread nD τ) arg6 fullShare (outVal c i M0 ft hw fK arg2 arg3 arg4 (harg2.unread X2) (harg3.unread X3) (harg4.unread X4))
            ∗ pt c scM (tileVal c (uwd M0 ft i) hw fK) ∗ pt c kM fK
            ∗ semVal ((c : Thread nD τ), cell) 0 ∗ ∃ W, owes (c : Thread nD τ) 0 W) -∗ Q ⟨⟩))
      ⊢ wp frame (wpE (defs₀ (F := F)) Variants.none c none) Set.univ
        (cc0__kernel i M0 h0 arg2 harg2 arg3 harg3 arg4 harg4 kM (Memref.isWhole_whole _) arg6 harg6 scM (Memref.isWhole_whole _) cc0_scratch1) Q := by
  iintro ⟨HT, H2, H3, H4, ⟨%d6, H6⟩, Hs, HK, Hc, HO, Hk⟩
  ihave H2 := (owns_pt c arg2 harg2 X2) $$ H2
  ihave H3 := (owns_pt c arg3 harg3 X3) $$ H3
  ihave H4 := (owns_pt c arg4 harg4 X4) $$ H4
  ihave H6 := (owns_pt c arg6 harg6 d6) $$ H6
  iapply (kernelRun c i M0 ft hw fK h0 arg2 harg2 arg3 harg3 arg4 harg4 arg6 harg6 _ _ _ _ fs W _)
  isplitl [HT]; · iexact HT
  isplitl [H2]; · iexact H2
  isplitl [H3]; · iexact H3
  isplitl [H4]; · iexact H4
  isplitl [H6]; · iexact H6
  isplitl [Hs]; · iexact Hs
  isplitl [HK]; · iexact HK
  isplitl [Hc]; · iexact Hc
  isplitl [HO]; · iexact HO
  iintro ⟨HT, H2, H3, H4, H6, Hs, HK, Hc, HO⟩
  iapply Hk
  isplitl [HT]; · iexact HT
  isplitl [H2]; · iapply (pt_owns c arg2 harg2 _ _ (harg2.read_unread _)); iexact H2
  isplitl [H3]; · iapply (pt_owns c arg3 harg3 _ _ (harg3.read_unread _)); iexact H3
  isplitl [H4]; · iapply (pt_owns c arg4 harg4 _ _ (harg4.read_unread _)); iexact H4
  isplitl [H6]
  · iapply (pt_owns c arg6 harg6 _ _
      ((View.read_writes_eq_canon _ _ _ (fun y => ⟨_, List.mem_singleton.mpr rfl, View.mem_set_unit_zero hz2 inb_S32x40000_S32x40000_0_0 y⟩)).trans
        (View.canon_unit_zero hz2 inb_S32x40000_S32x40000_0_0 _)))
    iexact H6
  isplitl [Hs]; · iexact Hs
  isplitl [HK]; · iexact HK
  isplitl [Hc]; · iexact Hc
  iexact HO

end RunOwned

end Cert.Kernel.Hand

end
-- ==== Proof.KBRun.lean ====
/-
  The region's proof data and the body obligation.

  At point `t` the three input windows hold their blocks of `H[user]` (rows 32·t … 32·t + 31), of `Gᵀ` and of `F_B` (both
  whole at every point), and the output window is left holding `outAt`: the body's stored value over those blocks and the
  tile of gathered rows. The region's invariant is the same at every point — the scratch tile at some contents, the
  generator register, the kernel's semaphore at zero, `K` whole at its launch contents, and the table's half — since each
  point waits for every copy it starts.
-/
import proofs.«401447_j35158602285715_3_alg».proof.Proof.KBBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf UD)

variable {F : FTy → Type} [FloatOps F]

local notation "𝕄" => MT nD τ sig Unit (Elt F) ℕ (UD sig nD τ) ℕ

section Launch

variable (m : (ℓ : Loc nD τ sig) → Buf (Elt F) ℓ) (ρ : Dev nD → PrngReg)

/-- Each window's current staging memref at point `t`, as the pipeline passes it, and its wholeness. -/
abbrev ms0 (t : Fin (cfgM m).N) : Memref sig .tc .vmem S32x10 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S10x40000 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S40000 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S32x40000 .f32 := spec0_3.stage ((cfgM m).slots t 3)
abbrev hs3 (t : Fin (cfgM m).N) : (ms3 m t).IsWhole := hstage0_3 (((cfgM m).slots t 3).cast nbuf0_3)

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- What the body leaves in the output block at point `t`. -/
def outAt (hH : Hyps m) (c : Dev nD) (t : Fin (cfgM m).N) : FVec F S32x40000 .f32 :=
  outVal c (grid0.coords t) tbM (tbl m 0) (hH c (grid0.coords t)) (V m c main_arg4) (ms0 m t) (ms1 m t) (ms2 m t)
    ((hs0 m t).unread (iblk m c 0 t)) ((hs1 m t).unread (iblk m c 1 t)) ((hs2 m t).unread (iblk m c 2 t))

/-- The proof data of the one pipeline on core `c`. -/
def dats (hH : Hyps m) (_ : Fin 1) (c : Dev nD) : Dat τ (Elt F) Unit ℕ (UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m hH c t
  Φ _ := iprop(Pipeline.ΦD osem spec0 H0 (V m) c ∗ Pipeline.ΦT pre0 (tbl m) c)
  q _ := fullShare
  owed _ := 0

theorem A_eq (hH : Hyps m) (c : Dev nD) (w : Fin (cfgM m).W) : (dats m hH 0 c).A w = V m c (Pipeline.arrRef spec0 w) := by
  dsimp only [dats]
theorem after_0 (hH : Hyps m) (c : Dev nD) (t : Fin (cfgM m).N) : (dats m hH 0 c).after 0 t = iblk m c 0 t := by dsimp only [dats]; try rfl
theorem after_1 (hH : Hyps m) (c : Dev nD) (t : Fin (cfgM m).N) : (dats m hH 0 c).after 1 t = iblk m c 1 t := by dsimp only [dats]; try rfl
theorem after_2 (hH : Hyps m) (c : Dev nD) (t : Fin (cfgM m).N) : (dats m hH 0 c).after 2 t = iblk m c 2 t := by dsimp only [dats]; try rfl
theorem after_3 (hH : Hyps m) (c : Dev nD) (t : Fin (cfgM m).N) : (dats m hH 0 c).after 3 t = outAt m hH c t := by dsimp only [dats]; try rfl

theorem before_0 (hH : Hyps m) (c : Dev nD) (t : Fin (cfgM m).N) (d) : (dats m hH 0 c).before 0 t d = iblk m c 0 t :=
  ((dats m hH 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hH : Hyps m) (c : Dev nD) (t : Fin (cfgM m).N) (d) : (dats m hH 0 c).before 1 t d = iblk m c 1 t :=
  ((dats m hH 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (hH : Hyps m) (c : Dev nD) (t : Fin (cfgM m).N) (d) : (dats m hH 0 c).before 2 t d = iblk m c 2 t :=
  ((dats m hH 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- The kernel body at point `t`, on what the pipeline calls it with. -/
abbrev bodyAt (t : Fin (cfgM m).N) : Prog (TpuEff nD τ sig (Elt F) Λ₀ .tc) PUnit :=
  cc0__kernel (grid0.coords t) tbM htbM (ms0 m t) (hs0 m t) (ms1 m t) (hs1 m t) (ms2 m t) (hs2 m t) kM (Memref.isWhole_whole _)
    (ms3 m t) (hs3 m t) scM (Memref.isWhole_whole _) cc0_scratch1

/-- What the body is called with at point `t`, the windows one by one, -/
def bodyPre (hH : Hyps m) (c : Dev nD) (t : Fin (cfgM m).N) : sProp 𝕄 :=
  iprop((dats m hH 0 c).Φ t.castSucc ∗ (dats m hH 0 c).owesAt () t.castSucc
    ∗ (∃ d, owns (c : Thread nD τ) (ms0 m t) fullShare ((dats m hH 0 c).before 0 t d))
    ∗ (∃ d, owns (c : Thread nD τ) (ms1 m t) fullShare ((dats m hH 0 c).before 1 t d))
    ∗ (∃ d, owns (c : Thread nD τ) (ms2 m t) fullShare ((dats m hH 0 c).before 2 t d))
    ∗ (∃ d, owns (c : Thread nD τ) (ms3 m t) fullShare ((dats m hH 0 c).before 3 t d)))

/-- and what it returns. -/
def bodyPost (hH : Hyps m) (c : Dev nD) (t : Fin (cfgM m).N) : sProp 𝕄 :=
  iprop((dats m hH 0 c).Φ t.succ ∗ (dats m hH 0 c).owesAt () t.succ
    ∗ owns (c : Thread nD τ) (ms0 m t) fullShare ((dats m hH 0 c).after 0 t)
    ∗ owns (c : Thread nD τ) (ms1 m t) fullShare ((dats m hH 0 c).after 1 t)
    ∗ owns (c : Thread nD τ) (ms2 m t) fullShare ((dats m hH 0 c).after 2 t)
    ∗ owns (c : Thread nD τ) (ms3 m t) fullShare ((dats m hH 0 c).after 3 t))

set_option maxHeartbeats 4000000 in
/-- The body at any point: the inputs' buffers hold their blocks, so the run applies; the invariant hands the body its
    scratch tile, the register, its semaphore at zero, `K` and the table's half, and takes them back. -/
theorem sound_body [∀ e, Nonempty (Elt F e)] (hH : Hyps m) (c : Dev nD) (t : Fin (cfgM m).N) :
    bodyPre m hH c t ⊢ wp frame (wpE (defs₀ (F := F)) Variants.none c none) Set.univ (bodyAt m t) (fun _ => bodyPost m hH c t) := by
  unfold bodyPre bodyPost bodyAt
  simp only [before_0, before_1, before_2]
  rw [show (dats m hH 0 c).Φ t.succ = (dats m hH 0 c).Φ t.castSucc from rfl, after_0, after_1, after_2, after_3]
  rw [show (dats m hH 0 c).Φ t.castSucc = iprop(Pipeline.ΦD osem spec0 H0 (V m) c ∗ Pipeline.ΦT pre0 (tbl m) c) from rfl, PhiD_eq, PhiT_eq]
  unfold Dat.owesAt Pipeline.owesWithin
  rw [show (dats m hH 0 c).owed t.castSucc = 0 from rfl, show (dats m hH 0 c).owed t.succ = 0 from rfl]
  iintro ⟨⟨⟨⟨%fs, Hs⟩, Hp, Hc, HK⟩, HT⟩, ⟨%W, %hW, HO⟩, ⟨%d0, H0⟩, ⟨%d1, H1⟩, ⟨%d2, H2⟩, ⟨%d3, H3⟩⟩
  iapply (kernelRun' c (grid0.coords t) tbM (tbl m 0) (hH c (grid0.coords t)) (V m c main_arg4) htbM (ms0 m t) (hs0 m t) (ms1 m t) (hs1 m t)
    (ms2 m t) (hs2 m t) (ms3 m t) (hs3 m t) (iblk m c 0 t) (iblk m c 1 t) (iblk m c 2 t) fs W _)
  isplitl [HT]; · iexact HT
  isplitl [H0]; · iexact H0
  isplitl [H1]; · iexact H1
  isplitl [H2]; · iexact H2
  isplitl [H3]; · iexists _; iexact H3
  isplitl [Hs]; · iexact Hs
  isplitl [HK]; · iexact HK
  isplitl [Hc]; · iexact Hc
  isplitl [HO]; · iexact HO
  iintro ⟨HT, H0, H1, H2, H3, Hs, HK, Hc, ⟨%W', HO⟩⟩
  isplitl [Hs Hp Hc HK HT]
  · isplitl [Hs Hp Hc HK]
    · isplitl [Hs]; · iexists _; iexact Hs
      isplitl [Hp]; · iexact Hp
      isplitl [Hc]; · iexact Hc
      iexact HK
    iexact HT
  isplitl [HO]
  · iexists W'; isplitr; · ipureintro; exact fun _ _ => Or.inl trivial
    iexact HO
  isplitl [H0]; · iexact H0
  isplitl [H1]; · iexact H1
  isplitl [H2]; · iexact H2
  unfold outAt; iexact H3

/-- The library's body obligation, at every point. -/
theorem body_obligation [∀ e, Nonempty (Elt F e)] (hH : Hyps m) (c : Dev nD) :
    BodyObligation (dats (F := F) m hH 0 c) (defs₀ (F := F)) Variants.none () Set.univ := fun t => by
  rw [bigSep_W0, bigSep_W0]
  exact sound_body m hH c t

end Launch

end Cert.Kernel.Hand

end
-- ==== Proof.KBSuffix.lean ====
/-
  THE LINES AFTER THE REGION, AS THE FRAME RUN NEEDS THEM. After its one pipelined region @main runs two stretches of host
  lines: 22 operations (the masked gather along the feature lists) and 3 (the zero, the sum over the features, the bias).

  What is shown of them, each fact read off the operations' literal buffer sets and decided reference by reference:
  they touch only unscoped TensorCore buffers, none of them the prefetched table `main_arg0` and none the operand the
  kernel moves itself (`main_arg4`), so they run within the pipeline's arrays and the bypassing buffers less that operand;
  they allocate nothing; and each writes only its own result buffer, which is none of the four windows' arrays.

  Consequently every argument ends as launched. An argument that is no window's array and that no line before or after
  the region writes holds, after the tail, what the launch memory held (seven of the eight). The eighth, `main_arg5`, IS
  window 2's array: after the tail it is that window's array as the region leaves it, whatever the proof data say that is.
-/
import proofs.«401447_j35158602285715_3_alg».proof.Proof.KBKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf UD)

variable {F : FTy → Type} [FloatOps F]

local notation "𝕄" => MT nD τ sig Unit (Elt F) ℕ (UD sig nD τ) ℕ

variable (m : (ℓ : Loc nD τ sig) → Buf (Elt F) ℓ)

/-! ## The lines after the region: what they touch -/

/-- No buffer of the masked gather's lines is the prefetched table. -/
theorem hostOps1_noTable : ∀ op ∈ (hostOps1 : List (HloOp τ sig (Elt F))), ∀ k, Proc.devRef .tc (pre0.ref k) ∉ op.bufs := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl
  all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)

/-- Nor is any buffer of the closing lines (the zero, the sum over the features, the bias). -/
theorem hostOps1_1_noTable : ∀ op ∈ (hostOps1_1 : List (HloOp τ sig (Elt F))), ∀ k, Proc.devRef .tc (pre0.ref k) ∉ op.bufs := by
  intro op hop
  simp only [hostOps1_1, List.mem_cons, List.mem_nil_iff, or_false] at hop
  rcases hop with rfl | rfl | rfl
  all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)

/-- No buffer of the masked gather's lines is the operand the kernel moves itself. -/
theorem hostOps1_noH0 : ∀ op ∈ (hostOps1 : List (HloOp τ sig (Elt F))), ∀ b ∈ H0, Proc.devRef .tc b ∉ op.bufs := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl
  all_goals intro b hb; simp only [H0, Finset.mem_insert, Finset.mem_singleton] at hb
  all_goals rcases hb with rfl <;>
    simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)

/-- Nor is any buffer of the closing lines. -/
theorem hostOps1_1_noH0 : ∀ op ∈ (hostOps1_1 : List (HloOp τ sig (Elt F))), ∀ b ∈ H0, Proc.devRef .tc b ∉ op.bufs := by
  intro op hop
  simp only [hostOps1_1, List.mem_cons, List.mem_nil_iff, or_false] at hop
  rcases hop with rfl | rfl | rfl
  all_goals intro b hb; simp only [H0, Finset.mem_insert, Finset.mem_singleton] at hb
  all_goals rcases hb with rfl <;>
    simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)

/-- The lines after the region touch the pipeline's arrays and the bypassing buffers only, and of those neither the
    prefetched table nor the operand the kernel moves itself: each operation's buffers are unscoped TensorCore
    references, and, read off its literal buffer set, none of them is `main_arg0` and none is `main_arg4`. -/
theorem sfx_sub : ∀ ops ∈ ([hostOps1, hostOps1_1] : List (List (HloOp τ sig (Elt F)))), ∀ op ∈ ops,
    op.bufs ⊆ Pipeline.tailRefsBut sig pre0 spec0 H0 := by
  intro ops hops op hop
  simp only [List.mem_cons, List.mem_nil_iff, or_false] at hops
  rcases hops with rfl | rfl
  · exact Pipeline.sub_tailRefsBut pre0 spec0 H0 op ((List.forall_iff_forall_mem.mp hostOps1_sub) op hop)
      (hostOps1_noTable op hop) (hostOps1_noH0 op hop)
  · exact Pipeline.sub_tailRefsBut pre0 spec0 H0 op ((List.forall_iff_forall_mem.mp hostOps1_1_sub) op hop)
      (hostOps1_1_noTable op hop) (hostOps1_1_noH0 op hop)

/-- They allocate nothing. -/
theorem sfx_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop

/-- And write no array of the pipeline: each writes only its own result buffer, which is none of the four windows'
    arrays. -/
theorem sfx_keeps : ∀ ops ∈ ([hostOps1, hostOps1_1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-! ## The arguments at the region's entry and after the tail -/

/-- No host line before the region writes `main_arg0`: the region is entered with it as launched. -/
theorem Ventry_main_arg0 (c : Dev nD) : V m c main_arg0 = m ((c : Thread nD τ).loc main_arg0) := by
  show StableHlo.after hostOps0 (fun b => m (c, b)) (Proc.devRef .tc main_arg0) = _
  after_results <;> rfl

/-- No host line before the region writes `main_arg1`: the region is entered with it as launched. -/
theorem Ventry_main_arg1 (c : Dev nD) : V m c main_arg1 = m ((c : Thread nD τ).loc main_arg1) := by
  show StableHlo.after hostOps0 (fun b => m (c, b)) (Proc.devRef .tc main_arg1) = _
  after_results <;> rfl

/-- No host line before the region writes `main_arg2`: the region is entered with it as launched. -/
theorem Ventry_main_arg2 (c : Dev nD) : V m c main_arg2 = m ((c : Thread nD τ).loc main_arg2) := by
  show StableHlo.after hostOps0 (fun b => m (c, b)) (Proc.devRef .tc main_arg2) = _
  after_results <;> rfl

/-- No host line before the region writes `main_arg3`: the region is entered with it as launched. -/
theorem Ventry_main_arg3 (c : Dev nD) : V m c main_arg3 = m ((c : Thread nD τ).loc main_arg3) := by
  show StableHlo.after hostOps0 (fun b => m (c, b)) (Proc.devRef .tc main_arg3) = _
  after_results <;> rfl

/-- No host line before the region writes `main_arg4`: the region is entered with it as launched. -/
theorem Ventry_main_arg4 (c : Dev nD) : V m c main_arg4 = m ((c : Thread nD τ).loc main_arg4) := by
  show StableHlo.after hostOps0 (fun b => m (c, b)) (Proc.devRef .tc main_arg4) = _
  after_results <;> rfl

/-- No host line before the region writes `main_arg5`: the region is entered with it as launched. -/
theorem Ventry_main_arg5 (c : Dev nD) : V m c main_arg5 = m ((c : Thread nD τ).loc main_arg5) := by
  show StableHlo.after hostOps0 (fun b => m (c, b)) (Proc.devRef .tc main_arg5) = _
  after_results <;> rfl

/-- No host line before the region writes `main_arg6`: the region is entered with it as launched. -/
theorem Ventry_main_arg6 (c : Dev nD) : V m c main_arg6 = m ((c : Thread nD τ).loc main_arg6) := by
  show StableHlo.after hostOps0 (fun b => m (c, b)) (Proc.devRef .tc main_arg6) = _
  after_results <;> rfl

/-- No host line before the region writes `main_arg7`: the region is entered with it as launched. -/
theorem Ventry_main_arg7 (c : Dev nD) : V m c main_arg7 = m ((c : Thread nD τ).loc main_arg7) := by
  show StableHlo.after hostOps0 (fun b => m (c, b)) (Proc.devRef .tc main_arg7) = _
  after_results <;> rfl

/-- No host line after the region writes `main_arg0`, and it is no window's array: it ends as launched. -/
theorem W_main_arg0 {U' : Type} [URA U'] (dats : (p : Fin 1) → (c : Dev nD) → Dat τ (Elt F) Unit ℕ U' ℕ (Pipeline.pin pcfgs (fun _ => adm m) p) c) (c : Dev nD) :
    Pipeline.afterTail pcfgs (fun _ => adm m) dats 0 (V0 m) [hostOps1, hostOps1_1] c main_arg0 = m ((c : Thread nD τ).loc main_arg0) := by
  unfold Pipeline.afterTail
  rw [StableHlo.after_of_forall_not_mem (b := Proc.devRef .tc main_arg0) _ _ (List.forall_iff_forall_mem.mp (by
      simp only [hostOps1, hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact Ventry_main_arg0 m c

/-- No host line after the region writes `main_arg1`, and it is no window's array: it ends as launched. -/
theorem W_main_arg1 {U' : Type} [URA U'] (dats : (p : Fin 1) → (c : Dev nD) → Dat τ (Elt F) Unit ℕ U' ℕ (Pipeline.pin pcfgs (fun _ => adm m) p) c) (c : Dev nD) :
    Pipeline.afterTail pcfgs (fun _ => adm m) dats 0 (V0 m) [hostOps1, hostOps1_1] c main_arg1 = m ((c : Thread nD τ).loc main_arg1) := by
  unfold Pipeline.afterTail
  rw [StableHlo.after_of_forall_not_mem (b := Proc.devRef .tc main_arg1) _ _ (List.forall_iff_forall_mem.mp (by
      simp only [hostOps1, hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact Ventry_main_arg1 m c

/-- No host line after the region writes `main_arg2`, and it is no window's array: it ends as launched. -/
theorem W_main_arg2 {U' : Type} [URA U'] (dats : (p : Fin 1) → (c : Dev nD) → Dat τ (Elt F) Unit ℕ U' ℕ (Pipeline.pin pcfgs (fun _ => adm m) p) c) (c : Dev nD) :
    Pipeline.afterTail pcfgs (fun _ => adm m) dats 0 (V0 m) [hostOps1, hostOps1_1] c main_arg2 = m ((c : Thread nD τ).loc main_arg2) := by
  unfold Pipeline.afterTail
  rw [StableHlo.after_of_forall_not_mem (b := Proc.devRef .tc main_arg2) _ _ (List.forall_iff_forall_mem.mp (by
      simp only [hostOps1, hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact Ventry_main_arg2 m c

/-- No host line after the region writes `main_arg3`, and it is no window's array: it ends as launched. -/
theorem W_main_arg3 {U' : Type} [URA U'] (dats : (p : Fin 1) → (c : Dev nD) → Dat τ (Elt F) Unit ℕ U' ℕ (Pipeline.pin pcfgs (fun _ => adm m) p) c) (c : Dev nD) :
    Pipeline.afterTail pcfgs (fun _ => adm m) dats 0 (V0 m) [hostOps1, hostOps1_1] c main_arg3 = m ((c : Thread nD τ).loc main_arg3) := by
  unfold Pipeline.afterTail
  rw [StableHlo.after_of_forall_not_mem (b := Proc.devRef .tc main_arg3) _ _ (List.forall_iff_forall_mem.mp (by
      simp only [hostOps1, hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact Ventry_main_arg3 m c

/-- No host line after the region writes `main_arg4`, and it is no window's array: it ends as launched. -/
theorem W_main_arg4 {U' : Type} [URA U'] (dats : (p : Fin 1) → (c : Dev nD) → Dat τ (Elt F) Unit ℕ U' ℕ (Pipeline.pin pcfgs (fun _ => adm m) p) c) (c : Dev nD) :
    Pipeline.afterTail pcfgs (fun _ => adm m) dats 0 (V0 m) [hostOps1, hostOps1_1] c main_arg4 = m ((c : Thread nD τ).loc main_arg4) := by
  unfold Pipeline.afterTail
  rw [StableHlo.after_of_forall_not_mem (b := Proc.devRef .tc main_arg4) _ _ (List.forall_iff_forall_mem.mp (by
      simp only [hostOps1, hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact Ventry_main_arg4 m c

/-- `main_arg5` is window 2's array and no host line after the region writes it: after the tail it is that window's
    array as the region leaves it. -/
theorem W_main_arg5 {U' : Type} [URA U'] (dats : (p : Fin 1) → (c : Dev nD) → Dat τ (Elt F) Unit ℕ U' ℕ (Pipeline.pin pcfgs (fun _ => adm m) p) c) (c : Dev nD) :
    Pipeline.afterTail pcfgs (fun _ => adm m) dats 0 (V0 m) [hostOps1, hostOps1_1] c main_arg5
      = (dats 0 c).arrAt 2 (Pipeline.pin pcfgs (fun _ => adm m) 0).N := by
  unfold Pipeline.afterTail
  rw [StableHlo.after_of_forall_not_mem (b := Proc.devRef .tc main_arg5) _ _ (List.forall_iff_forall_mem.mp (by
      simp only [hostOps1, hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  exact Pipeline.withArrays_arr spec0 (launch0 (F := F)).win.arr_inj c (V0 m c) _ 2

/-- No host line after the region writes `main_arg6`, and it is no window's array: it ends as launched. -/
theorem W_main_arg6 {U' : Type} [URA U'] (dats : (p : Fin 1) → (c : Dev nD) → Dat τ (Elt F) Unit ℕ U' ℕ (Pipeline.pin pcfgs (fun _ => adm m) p) c) (c : Dev nD) :
    Pipeline.afterTail pcfgs (fun _ => adm m) dats 0 (V0 m) [hostOps1, hostOps1_1] c main_arg6 = m ((c : Thread nD τ).loc main_arg6) := by
  unfold Pipeline.afterTail
  rw [StableHlo.after_of_forall_not_mem (b := Proc.devRef .tc main_arg6) _ _ (List.forall_iff_forall_mem.mp (by
      simp only [hostOps1, hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact Ventry_main_arg6 m c

/-- No host line after the region writes `main_arg7`, and it is no window's array: it ends as launched. -/
theorem W_main_arg7 {U' : Type} [URA U'] (dats : (p : Fin 1) → (c : Dev nD) → Dat τ (Elt F) Unit ℕ U' ℕ (Pipeline.pin pcfgs (fun _ => adm m) p) c) (c : Dev nD) :
    Pipeline.afterTail pcfgs (fun _ => adm m) dats 0 (V0 m) [hostOps1, hostOps1_1] c main_arg7 = m ((c : Thread nD τ).loc main_arg7) := by
  unfold Pipeline.afterTail
  rw [StableHlo.after_of_forall_not_mem (b := Proc.devRef .tc main_arg7) _ _ (List.forall_iff_forall_mem.mp (by
      simp only [hostOps1, hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact Ventry_main_arg7 m c

end Cert.Kernel.Hand

end
-- ==== Proof.KBFrame.lean ====
/-
  The launch: every weakly fair execution of @main ends, and what it ends with.

  @main is the host lines before the region, the pipelined region — whose body obligation is the run of the body at one
  point — and the host lines after it; the kernel moves `K` itself, reading it only, and its one semaphore is at zero
  between points. So the run ends with the region's output array at what the 64 points wrote back, every other buffer at
  the later lines' value of the region's exit contents, and every argument as launched.
-/
import proofs.«401447_j35158602285715_3_alg».proof.Proof.KBRun
import proofs.«401447_j35158602285715_3_alg».proof.Proof.KBSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf UD)

variable {F : FTy → Type} [FloatOps F]

local notation "𝕄" => MT nD τ sig Unit (Elt F) ℕ (UD sig nD τ) ℕ

section Frame

variable (m : (ℓ : Loc nD τ sig) → Buf (Elt F) ℓ) (ρ : Dev nD → PrngReg)

set_option backward.isDefEq.respectTransparency.types false in
/-- From any memory with zero counters whose `user` words name rows of `K`: every weakly fair execution of @main on the
    TensorCores terminates without fault, and the final state has the region's arrays at what the points wrote back and
    every other unscoped buffer at the later host lines' value. -/
theorem run_main [∀ e, Nonempty (Elt F e)] (hH : Hyps m) :
    θ_run defs (onTc (τ := τ) (main (F := F))) (s₀ m ρ)
      (Pipeline.FramePost (Pipeline.pin pcfgs fun _ => adm m) (dats m hH) 0
        (Pipeline.afterTail pcfgs (fun _ => adm m) (dats m hH) 0 (V0 m) [hostOps1, hostOps1_1])) :=
  Pipeline.θ_run_frameP_dma_around pcfgs (fun _ => adm m) (dats m hH) (0 : Fin 1) launch0 osem defs₀ Variants.none ownSemFacts H0 H0_sub m ρ main
    (hbody := fun c => (body_obligation m hH c).loose) (hshare := fun c => (dats m hH 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m hH) (hpf := V_pre m)
    (hin := fun _ => .rfl) (hout := fun c => by change iprop(_ ∗ _) ⊢ _; iintro ⟨HD, -⟩; iexact HD)

/-- What the run's post says of the eight argument arrays: each ends as launched. (`F_B` is a window's array, read
    through the pipeline; the others bypass the region or are the table.) -/
theorem args_kept (hH : Hyps m) {r : PUnit × MemSt nD τ sig (Elt F)}
    (h : Pipeline.FramePost (Pipeline.pin pcfgs fun _ => adm m) (dats m hH) 0
        (Pipeline.afterTail pcfgs (fun _ => adm m) (dats m hH) 0 (V0 m) [hostOps1, hostOps1_1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (by decide : main_arg0 ∈ Pipeline.restRefs sig spec0)).trans (W_main_arg0 m (dats m hH) c),
   ((h c).2 main_arg1 (by decide : main_arg1 ∈ Pipeline.restRefs sig spec0)).trans (W_main_arg1 m (dats m hH) c),
   ((h c).2 main_arg2 (by decide : main_arg2 ∈ Pipeline.restRefs sig spec0)).trans (W_main_arg2 m (dats m hH) c),
   ((h c).2 main_arg3 (by decide : main_arg3 ∈ Pipeline.restRefs sig spec0)).trans (W_main_arg3 m (dats m hH) c),
   ((h c).2 main_arg4 (by decide : main_arg4 ∈ Pipeline.restRefs sig spec0)).trans (W_main_arg4 m (dats m hH) c),
   ((h c).1 2).trans (((dats m hH 0 c).arrAt_in 2 rfl _).trans ((A_eq m hH c 2).trans (Ventry_main_arg5 m c))),
   ((h c).2 main_arg6 (by decide : main_arg6 ∈ Pipeline.restRefs sig spec0)).trans (W_main_arg6 m (dats m hH) c),
   ((h c).2 main_arg7 (by decide : main_arg7 ∈ Pipeline.restRefs sig spec0)).trans (W_main_arg7 m (dats m hH) c)⟩

/-- THE FRAME, for either reading of the floats, given the range fact of the `user` words: every weakly fair execution
    terminates, nothing faults, and the eight argument arrays end as launched. -/
theorem frame [∀ e, Nonempty (Elt F e)] (hH : Hyps m) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => args_kept m hH h c) (run_main m ρ hH)

end Frame

end Cert.Kernel.Hand

end
-- ==== Proof.PreDecode.lean ====
/-
  THE PRECONDITION'S INDEX RANGE, READ BACK. The precondition is a conjunction of six `jnp.all`s; its last
  conjunct says of the int32[2048] first argument that every entry x satisfies (x ≥ 0) ∧ (x < 2000), both compares
  SIGNED. From "the predicate is all ones" this file concludes, for every index j of the first argument, that the
  entry's UNSIGNED value is below 2000.

  The reading: the predicate's one element is an `and` of two bits, the second the reduction by `and` of the
  i1[2048] mask (x ≥ 0) ∧ (x < 2000) over its one axis; an `and` that is 1 has both operands 1; a reduction by `and`
  into a single element that is 1 met a 1 at every element of the mask; the mask at j is the `and` of the two compares
  of the word at j against the broadcast scalars 0 and 2000. A word whose signed value is ≥ 0 has its top bit clear, so
  its signed and unsigned values agree; the signed bound < 2000 is then the unsigned one. (A negative word has unsigned
  value ≥ 2³¹: the first compare is what excludes it.) Nothing here reads the five float conjuncts, so the statement
  holds in every float family.
-/
import proofs.«401447_j35158602285715_3_alg».proof.Pre_finite_inputs
import Idealize.ShloMosaic.Lib.ReduceAll
import Idealize.ShloMosaic.Lib.ValueIdx

noncomputable section

namespace Cert.Proof.PreDecode

open Idealize.ShloMosaic
open Cert.Pre_finite_inputs

/-- The rank-0 shape has one index. -/
instance subsingleton_S_Idx : Subsingleton S_.Idx := ⟨fun a b => funext fun d => d.elim0⟩

/-- A 32-bit word that tests signed ≥ 0 and signed < 2000 has unsigned value below 2000: nonnegative signed means
    the top bit is clear, where the signed and unsigned readings are the same number. -/
theorem toNat_lt_of_sge_slt (w : BitVec 32) (h0 : IntOp.cmpi .sge w 0#32 = 1#1)
    (h1 : IntOp.cmpi .slt w 2000#32 = 1#1) : w.toNat < 2000 := by
  rw [IntOp.cmpi_sge, show (0#32 : BitVec 32).toInt = 0 from by decide] at h0
  rw [IntOp.cmpi_slt, show (2000#32 : BitVec 32).toInt = 2000 from by decide] at h1
  have hlt : 2 * w.toNat < 2 ^ 32 := BitVec.toInt_pos_iff.1 h0
  have e : w.toInt = (w.toNat : Int) := BitVec.toInt_eq_toNat_of_lt hlt
  rw [e] at h1
  omega

/-- THE PRECONDITION DECODED at entry j of the first argument. -/
theorem user_lt_of_pre {F : FTy → Type} [FloatOps F] [Cert.Pre_finite_inputs.Facts]
    (a0 : IVec S2048 32) (a1 : IVec S2048 32) (a2 : FVec F S2000x10 .f32) (a3 : FVec F S40000x10 .f32)
    (a4 : FVec F S2000x40000 .f32) (a5 : FVec F S40000 .f32) (a6 : FVec F S5000 .f32) (a7 : IVec S2000x5000x20 32)
    (h : Cert.Pre_finite_inputs.fn (F := F) a0 a1 a2 a3 a4 a5 a6 a7 = (fun _ => 1#1))
    (j : S2048.Idx) : (a0 j).toNat < 2000 := by
  have e := congrFun h ValueIdx.ix0
  dsimp only [Cert.Pre_finite_inputs.fn, Cert.Pre_finite_inputs.fn_part1] at e
  -- the predicate's one element is an `and`; its second operand is the reduction of the range mask
  have hall := (IntOp.andi_eq_one.1 e).2
  -- a reduction by `and` into one element that is 1 met a 1 at every element: the mask at j is 1
  have hj := Host.reduce_andi_all _ _ _ _ _ hall j
  -- the mask at j is the `and` of the two compares of the word at j with the broadcast scalars 0 and 2000
  obtain ⟨h0, h1⟩ := IntOp.andi_eq_one.1 hj
  exact toNat_lt_of_sge_slt (a0 j) h0 h1

end Cert.Proof.PreDecode

end
-- ==== Proof.KBHyps.lean ====
/-
  THE FRAMES' HYPOTHESIS FROM THE PRECONDITION. The region's body reads, on trip r of the grid point at coordinates i, one
  word of the prefetched `user` table and takes it for a row of `K`; the frames are stated under the hypothesis that
  every such word is below 2000 unsigned. Here that hypothesis is derived from the certificate's precondition.

  Three steps. (1) None of the host lines that run before the region writes the `user` buffer (each writes a buffer
  of its own), so the table the region is entered with is the first argument's launch contents. (2) The table is handed
  to the body whole, and a whole memref's view reads its buffer as it is: the word read at the one-word rectangle at the
  trip's offset is the contents' entry at that rectangle's index. (3) The precondition's last conjunct says every entry x
  of the first argument has 0 ≤ x < 2000 signed, hence unsigned value below 2000; it is decoded at that entry. Nothing
  depends on the float family.
-/
import proofs.«401447_j35158602285715_3_alg».proof.Proof.KBKit
import proofs.«401447_j35158602285715_3_alg».proof.Proof.PreDecode
import proofs.«401447_j35158602285715_3_alg».proof.Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf UD)

variable {F : FTy → Type} [FloatOps F]

local notation "𝕄" => MT nD τ sig Unit (Elt F) ℕ (UD sig nD τ) ℕ

variable (m : (ℓ : Loc nD τ sig) → Buf (Elt F) ℓ)

/-- No host line before the region writes the `user` buffer: the table the region is entered with is the launch
    contents of the first argument. -/
theorem tbl_eq_launch : tbl m 0 = m (((0 : Dev nD) : Thread nD τ).loc main_arg0) := by
  unfold tbl
  show StableHlo.after hostOps0 (fun b => m ((0 : Dev nD), b)) (Proc.devRef .tc main_arg0) = _
  after_results <;> rfl

/-- The word read through the whole table's view at a one-word rectangle is the contents' entry at the rectangle's
    index: a whole memref's view reads its buffer as it is. -/
theorem uwd_eq_entry (c : Dev nD) (f : Bf (F := F) c tbM) (i : grid0.Coords) (r : Fin k0_t1_loop.trips) :
    uwd tbM (c := c) f i r = f ((Rect.unit (s := S2048) (k0_off1 i r) S1.size (k0_off1_inb i r)).toLoadRect.idx i0) := rfl

/-- THE PRECONDITION GIVES THE FRAMES' HYPOTHESIS: every `user` word the body reads is an entry of the first argument
    as launched, and the precondition's range conjunct, decoded at that entry, bounds it below 2000. -/
theorem hyps_of_fn [Cert.Pre_finite_inputs.Facts]
    (hp : ∀ c : Dev nD, Cert.Pre_finite_inputs.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = (fun _ => 1#1)) :
    Hyps m := by
  intro c i r
  obtain rfl : c = 0 := Subsingleton.elim _ _
  have e : uwd tbM (c := (0 : Dev nD)) (tbl m 0) i r
      = m (((0 : Dev nD) : Thread nD τ).loc main_arg0) ((Rect.unit (s := S2048) (k0_off1 i r) S1.size (k0_off1_inb i r)).toLoadRect.idx i0) :=
    (uwd_eq_entry (F := F) 0 (tbl m 0) i r).trans (congrFun (tbl_eq_launch m) _)
  exact (congrArg BitVec.toNat e).trans_lt (Cert.Proof.PreDecode.user_lt_of_pre (F := F) _ _ _ _ _ _ _ _ (hp 0) _)

/-- The same from the certificate's precondition as the claims state it. -/
theorem hyps_of_pre [Cert.Pre_finite_inputs.Facts] (m : (ℓ : Loc nD τ sig) → Buf (Elt Bits) ℓ) (hp : Cert.Pre_Kernel m) :
    Hyps (F := Bits) m := hyps_of_fn m hp

end Cert.Kernel.Hand

end
-- ==== Proof.KIKit.lean ====
/-
  The launch side of the gather-and-combine kernel, shared by its body run and its frame run.

  @main is: host lines (the three embedding lookups `H[user]`, `C[user, item]`, `I_B[item]` and the transposed,
  narrowed `Gᵀ`), ONE pipelined region over 64 points, then host lines (the masked gather along the feature lists, the
  sum over the 20 features, the bias). The region's table is the `user` vector, read word by word by the body; no index
  map reads it, so every table is admissible. Each point copies 32 rows of `K` — row `user[32·t + r]` into row `r` of a
  scratch tile — on one semaphore of its own, so `K` is the one operand the kernel moves itself.
-/
import proofs.«401447_j35158602285715_3_alg».proof.Proof.Gen.KernelIdeal.Launch
import proofs.«401447_j35158602285715_3_alg».proof.Proof.Gen.KernelIdeal.Skeleton
import proofs.«401447_j35158602285715_3_alg».proof.Proof.Gen.KernelIdeal.Loops
import Idealize.ShloMosaic.Lib.Pipeline.FrameSuffix
import Idealize.ShloMosaic.Lib.Pipeline.FrameBody
import Idealize.ShloMosaic.Lib.Batch
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf UD)

variable {F : FTy → Type} [FloatOps F]

local notation "𝕄" => MT nD τ sig Unit (Elt F) ℕ (UD sig nD τ) ℕ

variable (m : (ℓ : Loc nD τ sig) → Buf (Elt F) ℓ) (ρ : Dev nD → PrngReg)

/-! ## @main around the region -/

/-- Core `c`'s buffer contents when the region is entered, as a valuation: after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-- @main reduces to the region continued by the later lines, at the contents after the earlier ones. -/
theorem hmain (𝒱₀ : Variants) : Pipeline.HMainPK (Ix := Unit) (Name := ℕ) (U := UD sig nD τ) (Lvl := ℕ) pcfgs 0 defs₀ 𝒱₀ m (main (F := F)) (V m)
      (fun _ => Pipeline.chain [StableHlo.seq hostOps1, StableHlo.seq hostOps1_1]) :=
  Pipeline.hmainP_around pcfgs 0 defs₀ 𝒱₀ m main [hostOps0] [hostOps1, hostOps1_1] (by simp only [List.Forall]; exact hostOps0_sub)
    (by simp only [List.Forall]; exact hostOps0_fresh) main_chain

/-! ## The table -/

/-- The table's contents when the region is entered (there is one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- Every table is admissible: no index map reads it. -/
abbrev adm : (pcfg0 (F := F)).Adm := ⟨tbl m, trivial⟩
abbrev cfgM : Pipeline.Cfg sig Λ₀ := cfg0 (adm m)

/-- The table as the body is handed it. -/
abbrev tbM : Memref sig .tc .smem S2048 .i32 := Memref.whole main_arg0
abbrev htbM : tbM.IsWhole := Memref.isWhole_whole _

/-- A memref's buffer on core `c`, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

abbrev i0 : S1.Idx := Shape.Idx.first (s := S1) (numel1_S1.symm ▸ Nat.one_pos)
/-- The `user` word trip `r` of the point at coordinates `i` reads, off contents `f` of the table. -/
abbrev uwd (M0 : Memref sig .tc .smem S2048 .i32) {c : Dev nD} (f : Bf (F := F) c M0) (i : grid0.Coords) (r : Fin k0_t1_loop.trips) : BitVec 32 :=
  M0.view.readAt (Elt F) (Rect.unit (s := S2048) (k0_off1 i r) S1.size (k0_off1_inb i r)).toLoadRect f i0
/-- A table memref held at the half share the region hands the body (read-only: the pipeline keeps the other half). -/
abbrev tbPt (c : Dev nD) {S : Shape} {e : EltTy} (M : Memref sig .tc .smem S e) (f : Bf (F := F) c M) : sProp 𝕄 :=
  M.view.loc (c : Thread nD τ) ↦{fullShare.right} f

/-- What the frames need of the launch memory: every `user` word the body reads names a row of `K`. -/
def Hyps : Prop := ∀ (c : Dev nD) (i : grid0.Coords) (r : Fin k0_t1_loop.trips), (uwd tbM (c := c) (tbl m 0) i r).toNat < 2000

/-! ## The kernel's own semaphore and the operand it moves -/

/-- The kernel's one DMA semaphore (the one cell of its semaphore array). -/
abbrev cell : SemLoc sig := SemLoc.dma 6
abbrev osem : Unit → SemLoc sig := fun _ => cell
theorem ownSemFacts : Pipeline.OwnSemFacts spec0 osem := by decide
theorem ownSems_eq (c : Dev nD) :
    (Pipeline.ownSems0 (Ix := Unit) (Name := ℕ) (U := UD sig nD τ) (Lvl := ℕ) (Val := Elt F) (τ := τ) osem c : sProp 𝕄)
      = semVal ((c : Thread nD τ), cell) 0 :=
  Pipeline.ownSems0_eq_of_list c osem [()] (by decide) (by decide)

/-- The operand the kernel moves itself: `K`, left in HBM. -/
def H0 : Finset (Ref sig .tc) := {main_arg4}
theorem H0_sub : H0 ⊆ Pipeline.restRefsP sig pre0 spec0 := by decide
abbrev kM : Memref sig .tc .hbm S2000x40000 .f32 := Memref.whole main_arg4
abbrev scM : Memref sig .tc .vmem S32x40000 .f32 := Memref.whole cc0_scratch0
theorem hbmPts_eq (c : Dev nD) :
    (bigSep H0 (fun b => ((c : Thread nD τ).loc b) ↦{fullShare} V m c b) : sProp 𝕄) = pt c kM (V m c main_arg4) := by
  rw [BI.bigSep_eq_bigSepL_of_eq [main_arg4] (by decide) (by decide)]; rfl

/-- The region's invariant conjunct by conjunct: the scratch tile at some contents, the generator register, the
    kernel's cell at zero, `K` whole at its launch contents. -/
theorem PhiD_eq (c : Dev nD) :
    (Pipeline.ΦD osem spec0 H0 (V m) c : sProp 𝕄)
      = iprop((∃ f : Bf (F := F) c scM, pt c scM f) ∗ (∃ r, prngReg c r) ∗ semVal ((c : Thread nD τ), cell) 0 ∗ pt c kM (V m c main_arg4)) := by
  rw [Pipeline.ΦD_eq, scopedRest0_eq, ownSems_eq, hbmPts_eq]; try rfl

/-- The table's half the region hands the body. -/
theorem PhiT_eq (c : Dev nD) : (Pipeline.ΦT pre0 (tbl m) c : sProp 𝕄) = tbPt c tbM (tbl m 0) := by
  unfold Pipeline.ΦT Pipeline.prefHeld
  rw [show (Finset.univ : Finset (Fin 1)) = {(0 : Fin 1)} from by decide, bigSep_singleton]
  rfl

end Cert.KernelIdeal.Hand

end
-- ==== Proof.KIEnds.lean ====
/-
  The 32 row copies of one grid point, as ONE batch on the kernel's semaphore.

  Trip `r` of the first loop reads the word `w r = user[32·t + r]`, and starts a copy of row `w r` of `K` into row `r` of the
  scratch tile. The destination rows are pairwise disjoint; the SOURCE rows need not be (two queries may name one user), so
  a copy does not borrow its source row outright: `K` is held as 32 read tokens, and copy `r` borrows token `r`'s part of
  its row. What copy `r` hands back when the batch is drained: row `r` of the tile holding row `w r` of `K`, and that token.
-/
import proofs.«401447_j35158602285715_3_alg».proof.Proof.KIKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf UD)

variable {F : FTy → Type} [FloatOps F]

local notation "𝕄" => MT nD τ sig Unit (Elt F) ℕ (UD sig nD τ) ℕ

theorem trips_eq : k0_t1_loop.trips = 32 := by decide
theorem trips2_eq : k0_t2_loop.trips = 32 := by decide

/-- Row `w` of `K` in bounds: what the body assumes of the word. -/
theorem src_inb (w : BitVec 32) (hw : w.toNat < 2000) : k0_chk1 w := by
  intro a; fin_cases a
  · show w.toNat + 1 ≤ 2000; omega
  · show 0 + 40000 ≤ 40000; omega

/-- Row `r` of the scratch tile, spelled as trip `r` spells a transfer's destination. -/
def rowM (r : Fin k0_t1_loop.trips) : Memref sig .tc .vmem S40000 .f32 :=
  (scM.slice (Rect.unit (s := S32x40000) (k0_off2 r) S1x40000.size (k0_off2_inb r)) (fun _ => rfl)).squeeze S40000 squeezes_S1x40000_S40000
/-- Row `w` of `K`, spelled as the body spells a transfer's source. -/
def srcM (w : BitVec 32) (h : k0_chk1 w) : Memref sig .tc .hbm S40000 .f32 :=
  (kM.slice (Rect.unit (s := S2000x40000) (k0_off3 w) S1x40000.size (k0_off3_inb w h)) (fun _ => rfl)).squeeze S40000 squeezes_S1x40000_S40000

/-- One transfer's credit on the cell. -/
abbrev NN : ℕ := (rowM (⟨0, by decide⟩ : Fin k0_t1_loop.trips)).view.amount (cell : SemLoc sig)

section Deliveries

variable (c : Dev nD) (w : Fin k0_t1_loop.trips → BitVec 32) (hw : ∀ r, (w r).toNat < 2000)
  (fs : Bf (F := F) c scM) (fK : Bf (F := F) c kM)

abbrev fsAt (r : Fin k0_t1_loop.trips) : Buf (Elt F) ((rowM r).view.loc (c : Thread nD τ)) := fs
abbrev fKAt (r : Fin k0_t1_loop.trips) : Buf (Elt F) ((srcM (w r) (src_inb _ (hw r))).view.loc (c : Thread nD τ)) := fK

/-- Row `r` of the tile LANDED: row `w r` of `K` read, as one listed write over the row's prior contents. -/
abbrev landed (r : Fin k0_t1_loop.trips) : Buf (Elt F) ((rowM r).view.loc (c : Thread nD τ)) :=
  (rowM r).view.writes (Elt F) (fsAt c fs r) [⟨Rect.whole S40000, ReadAs.same.apply ((srcM (w r) (src_inb _ (hw r))).view.read (Elt F) (fKAt c w hw fK r))⟩]

/-- Transfer `r`'s delivery: row `r` of the tile, by its own elements, landed; and its read token of row `w r` of `K` back. -/
abbrev D (r : Fin k0_t1_loop.trips) : sProp 𝕄 :=
  iprop(((rowM r).view.loc (c : Thread nD τ) ↦[(rowM r).view.set]{fullShare} landed c w hw fs fK r)
    ∗ ((srcM (w r) (src_inb _ (hw r))).view.loc (c : Thread nD τ) ↦[(srcM (w r) (src_inb _ (hw r))).view.set]{Transfers.shareTokN fullShare r.val} fKAt c w hw fK r))

instance D_storable (r : Fin k0_t1_loop.trips) : BI.Storable (upEmb : UEmb _ 𝕄) (D c w hw fs fK r) := by
  unfold D; infer_instance

/-- The batch on the kernel's cell: 32 transfers of `NN`, transfer `r` delivering `D r`, `j` issued, `u` consumed. -/
abbrev batch (j u : ℕ) : sProp 𝕄 :=
  Transfers.Batch countersEmb (c : Thread nD τ) cell () NN
    (fun t : Fin 32 => D c w hw fs fK (t.cast trips_eq.symm)) j u

end Deliveries

end Cert.KernelIdeal.Hand

end
-- ==== Proof.KILoops.lean ====
/-
  The two counted loops of the body, each through one symbolic trip.

  The issue loop: before trip `k` the copies below `k` are in flight and none is waited for; trip `k` reads its word, finds
  the row it names inside `K` (the precondition's range fact), and starts copy `k`. The drain loop: each wait takes one
  row's credit off the semaphore; since every copy signals the same amount, after the 32nd wait all 32 have landed, in
  whatever order they completed, and every delivery is handed back with the semaphore at zero. Nothing reads the tile or
  writes `K` between the first wait and the last.
-/
import proofs.«401447_j35158602285715_3_alg».proof.Proof.KIEnds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf UD)

variable {F : FTy → Type} [FloatOps F]

local notation "𝕄" => MT nD τ sig Unit (Elt F) ℕ (UD sig nD τ) ℕ

section Issue

variable (c : Dev nD) (i : grid0.Coords) (M0 : Memref sig .tc .smem S2048 .i32) (ft : Bf (F := F) c M0)
  (hw : ∀ r, (uwd M0 ft i r).toNat < 2000) (fs : Bf (F := F) c scM) (fK : Bf (F := F) c kM)

/-- Before trip `k`: the transfers below `k` issued, none consumed; the tile rows and the read tokens of the transfers from
    `k` on still in hand; the table's half, read at every issue. -/
def issueAt (k : ℕ) (_ : Unit) : sProp 𝕄 :=
  iprop(batch c (uwd M0 ft i) hw fs fK (min k 32) 0
    ∗ bigSep (Ring.rangeSet k0_t1_loop.trips k 32) (fun r => (rowM r).view.loc (c : Thread nD τ) ↦[(rowM r).view.set]{fullShare} fsAt c fs r)
    ∗ bigSep (Ring.rangeSet k0_t1_loop.trips k 32) (fun r => (srcM (uwd M0 ft i r) (src_inb _ (hw r))).view.loc (c : Thread nD τ) ↦[(srcM (uwd M0 ft i r) (src_inb _ (hw r))).view.set]{Transfers.shareTokN fullShare r.val} fKAt c (uwd M0 ft i) hw fK r)
    ∗ tbPt c M0 ft)

theorem issue_step [∀ e, Nonempty (Elt F e)] (h0 : M0.IsWhole) (arg2 : Memref sig .tc .vmem S32x10 .f32) (harg2 : arg2.IsWhole) (arg3 : Memref sig .tc .vmem S10x40000 .bf16) (harg3 : arg3.IsWhole)
    (arg4 : Memref sig .tc .vmem S40000 .f32) (harg4 : arg4.IsWhole) (arg6 : Memref sig .tc .vmem S32x40000 .f32) (harg6 : arg6.IsWhole)
    (k : Fin k0_t1_loop.trips) (acc : Unit) :
    issueAt c i M0 ft hw fs fK k acc
      ⊢ wp frame (wpE (defs₀ (F := F)) Variants.none c none) Set.univ
          (k0_t1_body i M0 h0 arg2 harg2 arg3 harg3 arg4 harg4 kM (Memref.isWhole_whole _) arg6 harg6 scM (Memref.isWhole_whole _) cc0_scratch1 k acc)
          (issueAt c i M0 ft hw fs fK (k.val + 1)) := by
  have hkT : k.val < 32 := Nat.lt_of_lt_of_eq k.isLt trips_eq
  have hchk : k0_chk1 (uwd M0 ft i k) := src_inb _ (hw k)
  unfold issueAt
  simp only [Nat.min_eq_left (Nat.le_of_lt hkT), Nat.min_eq_left (Nat.succ_le_of_lt hkT)]
  rw [Ring.bigSep_rangeSet_head (Φ := fun r => (rowM r).view.loc (c : Thread nD τ) ↦[(rowM r).view.set]{fullShare} fsAt c fs r) hkT k.isLt,
    Ring.bigSep_rangeSet_head (Φ := fun r => (srcM (uwd M0 ft i r) (src_inb _ (hw r))).view.loc (c : Thread nD τ) ↦[(srcM (uwd M0 ft i r) (src_inb _ (hw r))).view.set]{Transfers.shareTokN fullShare r.val} fKAt c (uwd M0 ft i) hw fK r) hkT k.isLt]
  iintro ⟨HB, ⟨HP, HPs⟩, ⟨HS, HSs⟩, H0⟩
  dsimp only [k0_t1_body]
  sl_exec (disch := first | exact hchk)
  sl_step
  isplitl [HB]; · iexact HB
  isplitl [HPs]; · iexact HPs
  isplitl [HSs]; · iexact HSs
  iexact H0

end Issue

/-! ## The drain loop -/

section Drain

variable (c : Dev nD) (w : Fin k0_t1_loop.trips → BitVec 32) (hw : ∀ r, (w r).toNat < 2000)
  (fs : Bf (F := F) c scM) (fK : Bf (F := F) c kM)

/-- Before trip `k`: the waits so far recorded, and EITHER the batch with `k` rows' credit consumed, OR (after the last) the
    cell back at zero and every delivery. -/
def drainAt (k : ℕ) (_ : Unit) : sProp 𝕄 :=
  iprop((∃ W, owes (c : Thread nD τ) 0 W)
    ∗ (if k < 32 then batch c w hw fs fK 32 (k * NN)
       else iprop(semVal ((c : Thread nD τ), cell) 0
              ∗ bigSep Finset.univ (fun t : Fin 32 => D c w hw fs fK (t.cast trips_eq.symm)))))

theorem drain_step [∀ e, Nonempty (Elt F e)] (i : grid0.Coords) (M0 : Memref sig .tc .smem S2048 .i32) (h0 : M0.IsWhole)
    (arg2 : Memref sig .tc .vmem S32x10 .f32) (harg2 : arg2.IsWhole) (arg3 : Memref sig .tc .vmem S10x40000 .bf16) (harg3 : arg3.IsWhole)
    (arg4 : Memref sig .tc .vmem S40000 .f32) (harg4 : arg4.IsWhole) (arg6 : Memref sig .tc .vmem S32x40000 .f32) (harg6 : arg6.IsWhole)
    (k : Fin k0_t2_loop.trips) (acc : Unit) :
    drainAt c w hw fs fK k acc
      ⊢ wp frame (wpE (defs₀ (F := F)) Variants.none c none) Set.univ
          (k0_t2_body i M0 h0 arg2 harg2 arg3 harg3 arg4 harg4 kM (Memref.isWhole_whole _) arg6 harg6 scM (Memref.isWhole_whole _) cc0_scratch1 k acc)
          (drainAt c w hw fs fK (k.val + 1)) := by
  have hkT : k.val < 32 := Nat.lt_of_lt_of_eq k.isLt trips2_eq
  unfold drainAt
  simp only [if_pos hkT]
  rcases Nat.lt_or_ge (k.val + 1) 32 with hk1 | hk1
  · simp only [if_pos hk1]
    iintro ⟨⟨%W, HO⟩, HB⟩
    dsimp only [k0_t2_body]
    sl_exec
    sl_step
    isplitl [HO]; · iexists _; iexact HO
    rw [show (k.val + 1) * NN = k.val * NN + NN from Nat.succ_mul _ _]
    iexact HB
  · have hlast : k.val + 1 = 32 := by omega
    simp only [if_neg (Nat.not_lt.mpr hk1)]
    iintro ⟨⟨%W, HO⟩, HB⟩
    dsimp only [k0_t2_body]
    sl_exec
    sl_step
    isplitl [HO]; · iexists _; iexact HO
    isplitl [HB]; · iexact HB
    iexact HB_all

end Drain

end Cert.KernelIdeal.Hand

end
-- ==== Proof.KISplit.lean ====
/-
  The gather's bookkeeping, split: the scratch tile by its 32 rows, and `K` by 32 read tokens.

  The tile's rows are pairwise disjoint and cover it: row `r` is the tile's elements with first coordinate `r`. So the
  tile held whole is its 32 rows, each by its own elements, beside an (empty) remainder — at its entry contents before the
  copies, and after them at the contents whose row `r` is what copy `r` landed. `K` is only read, and two copies may read
  one row, so `K` held whole is cut by SHARE: 32 read tokens and the share left over, token `r` cut again at row `w r` into
  the part copy `r` borrows and a part kept aside. The deliveries of the 32 copies are then exactly the rows landed and the
  borrowed parts. Last, the value: an element `(r, n)` of the tile lies on row `r`, what landed there is the one whole-row
  write of row `w r` of `K`, and element `n` of that row is `K`'s element `(w r, n)`; so after the copies the tile is,
  in closed form, `(r, n) ↦ K (w r, n)`, whatever it held before.
-/
import proofs.«401447_j35158602285715_3_alg».proof.Proof.KIEnds
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf UD)

variable {F : FTy → Type} [FloatOps F]

local notation "𝕄" => MT nD τ sig Unit (Elt F) ℕ (UD sig nD τ) ℕ

/-! ## The tile by rows -/

section Rows

variable (c : Dev nD)

/-- Row `r`'s elements of the scratch tile. -/
abbrev rowSet (r : Fin k0_t1_loop.trips) : Finset (Idx (scM.view.loc (c : Thread nD τ))) := (rowM r).view.set

omit [FloatOps F] in
/-- A row's elements are those of its one-row rectangle. -/
theorem rowSet_eq (r : Fin k0_t1_loop.trips) :
    (rowM r).view.set = (Rect.unit (s := S32x40000) (k0_off2 r) S1x40000.size (k0_off2_inb r)).set := by
  unfold rowM; exact (View.set_reshape _ _).trans (View.set_slice_whole _ _)

omit [FloatOps F] in
/-- Row `r`'s elements are the tile's at first coordinate `r`. -/
theorem mem_rowSet (r : Fin k0_t1_loop.trips) (y : S32x40000.Idx) : y ∈ rowSet c r ↔ (y 0).val = r.val := by
  unfold rowSet; rw [rowSet_eq, Rect.mem_set_unit, Gen.k0_off2_eq]
  have h1 : (y 1).val < 40000 := (y 1).isLt
  constructor
  · intro H; have a0 : r.val ≤ (y 0).val ∧ (y 0).val < r.val + 1 := H 0; omega
  · intro H a; fin_cases a
    · show r.val ≤ (y 0).val ∧ (y 0).val < r.val + 1; omega
    · show 0 ≤ (y 1).val ∧ (y 1).val < 0 + 40000; omega

omit [FloatOps F] in
/-- Distinct rows share no element. -/
theorem rowSet_disjoint : ∀ r ∈ Ring.rangeSet k0_t1_loop.trips 0 32, ∀ r' ∈ Ring.rangeSet k0_t1_loop.trips 0 32, r ≠ r' →
    Disjoint (rowSet c r) (rowSet c r') := by
  intro r _ r' _ hne
  rw [Finset.disjoint_left]; intro y hy hy'
  rw [mem_rowSet] at hy hy'
  exact hne (Fin.ext (hy.symm.trans hy'))

end Rows

/-! ## The tile, whole, by rows -/

section Split

variable (c : Dev nD) (w : Fin k0_t1_loop.trips → BitVec 32) (hw : ∀ r, (w r).toNat < 2000)
  (fs : Bf (F := F) c scM) (fK : Bf (F := F) c kM)

/-- The tile held whole, at any ONE contents `g`, is its 32 rows, each by its own elements, beside what is left of it. -/
theorem tile_split (g : Bf (F := F) c scM) :
    (pt c scM g : sProp 𝕄)
      = iprop(bigSep (Ring.rangeSet k0_t1_loop.trips 0 32) (fun r => scM.view.loc (c : Thread nD τ) ↦[rowSet c r]{fullShare} g)
          ∗ (scM.view.loc (c : Thread nD τ) ↦[Finset.univ \ (Ring.rangeSet k0_t1_loop.trips 0 32).biUnion (rowSet c)]{fullShare} g)) := by
  have hs : (scM.view.loc (c : Thread nD τ) ↦[Finset.univ]{fullShare} g : sProp 𝕄)
      ⊣⊢ iprop((scM.view.loc (c : Thread nD τ) ↦[(Ring.rangeSet k0_t1_loop.trips 0 32).biUnion (rowSet c)]{fullShare} g)
          ∗ scM.view.loc (c : Thread nD τ) ↦[Finset.univ \ (Ring.rangeSet k0_t1_loop.trips 0 32).biUnion (rowSet c)]{fullShare} g) :=
    pointsTo_split_subset (Finset.subset_univ _)
  rw [show (pt c scM g : sProp 𝕄) = (scM.view.loc (c : Thread nD τ) ↦[Finset.univ]{fullShare} g) from rfl,
    BI.equiv_iff.mp ⟨hs.1, hs.2⟩, pointsTo_biUnion _ (rowSet c) (rowSet_disjoint c)]

/-- The tile whole at its ENTRY contents: what the issue loop starts from. -/
theorem tile_entry_split :
    (pt c scM fs : sProp 𝕄)
      = iprop(bigSep (Ring.rangeSet k0_t1_loop.trips 0 32) (fun r => (rowM r).view.loc (c : Thread nD τ) ↦[(rowM r).view.set]{fullShare} fsAt c fs r)
          ∗ (scM.view.loc (c : Thread nD τ) ↦[Finset.univ \ (Ring.rangeSet k0_t1_loop.trips 0 32).biUnion (rowSet c)]{fullShare} fs)) :=
  tile_split c fs

/-- The row an element of the tile lies on. -/
abbrev rowOf (y : S32x40000.Idx) : Fin k0_t1_loop.trips := (y 0).cast trips_eq.symm

/-- What the tile holds after the 32 copies: each element what the copy into its row landed there. -/
def tileAfter : Bf (F := F) c scM := fun y => landed c w hw fs fK (rowOf y) y

omit [FloatOps F] in
/-- On row `r` the tile holds that row's copy. -/
theorem tileAfter_on (r : Fin k0_t1_loop.trips) (y : S32x40000.Idx) (hy : y ∈ rowSet c r) :
    tileAfter c w hw fs fK y = landed c w hw fs fK r y := by
  obtain rfl : rowOf y = r := Fin.ext ((mem_rowSet c r y).mp hy)
  unfold tileAfter; rfl

/-- The tile whole after the copies IS the rows landed (the deliveries' halves) beside the remainder at the entry contents. -/
theorem tile_after_split :
    (pt c scM (tileAfter c w hw fs fK) : sProp 𝕄)
      = iprop(bigSep (Ring.rangeSet k0_t1_loop.trips 0 32) (fun r => (rowM r).view.loc (c : Thread nD τ) ↦[(rowM r).view.set]{fullShare} landed c w hw fs fK r)
          ∗ (scM.view.loc (c : Thread nD τ) ↦[Finset.univ \ (Ring.rangeSet k0_t1_loop.trips 0 32).biUnion (rowSet c)]{fullShare} fs)) := by
  have h1 : ∀ r ∈ Ring.rangeSet k0_t1_loop.trips 0 32,
      (scM.view.loc (c : Thread nD τ) ↦[rowSet c r]{fullShare} tileAfter c w hw fs fK : sProp 𝕄)
        = scM.view.loc (c : Thread nD τ) ↦[rowSet c r]{fullShare} landed c w hw fs fK r :=
    fun r _ => pointsTo_congr fun y hy => tileAfter_on c w hw fs fK r y hy
  have h2 : (scM.view.loc (c : Thread nD τ) ↦[Finset.univ \ (Ring.rangeSet k0_t1_loop.trips 0 32).biUnion (rowSet c)]{fullShare} tileAfter c w hw fs fK : sProp 𝕄)
      = scM.view.loc (c : Thread nD τ) ↦[Finset.univ \ (Ring.rangeSet k0_t1_loop.trips 0 32).biUnion (rowSet c)]{fullShare} fs :=
    pointsTo_congr fun y hy => absurd
      (Finset.mem_biUnion.mpr ⟨rowOf y, (Ring.mem_rangeSet 0 32 _).mpr ⟨Nat.zero_le _, (y 0).isLt⟩, (mem_rowSet c _ y).mpr rfl⟩)
      (Finset.mem_sdiff.mp hy).2
  rw [tile_split c (tileAfter c w hw fs fK), BI.bigSep_congr h1, h2]
  rfl

end Split

/-! ## `K` by read tokens, each cut at the row its copy reads -/

section Source

variable (c : Dev nD) (w : Fin k0_t1_loop.trips → BitVec 32) (hw : ∀ r, (w r).toNat < 2000)
  (fs : Bf (F := F) c scM) (fK : Bf (F := F) c kM)

/-- The elements of the row of `K` that copy `r` reads. -/
abbrev srcSet (r : Fin k0_t1_loop.trips) : Finset (Idx (kM.view.loc (c : Thread nD τ))) := (srcM (w r) (src_inb _ (hw r))).view.set

/-- What is kept of `K` while the copies are in flight: the share left after 32 read tokens are taken off, and of token `r`
    everything but the row copy `r` reads. -/
def Krest : sProp 𝕄 :=
  iprop((kM.view.loc (c : Thread nD τ) ↦[Finset.univ]{Transfers.shareDrop fullShare 32} fK)
    ∗ bigSep (Ring.rangeSet k0_t1_loop.trips 0 32) (fun r =>
        kM.view.loc (c : Thread nD τ) ↦[Finset.univ \ (srcM (w r) (src_inb _ (hw r))).view.set]{Transfers.shareTokN fullShare r.val} fK))

/-- `K` held whole is, token by token, the part of row `w r` that copy `r` borrows, beside what is kept. -/
theorem K_split :
    (pt c kM fK : sProp 𝕄)
      ⊣⊢ iprop(bigSep (Ring.rangeSet k0_t1_loop.trips 0 32) (fun r =>
              (srcM (w r) (src_inb _ (hw r))).view.loc (c : Thread nD τ) ↦[(srcM (w r) (src_inb _ (hw r))).view.set]{Transfers.shareTokN fullShare r.val} fKAt c w hw fK r)
          ∗ Krest c w hw fK) := by
  -- the 32 read tokens, numbered by the trips
  have ht : (kM.view.loc (c : Thread nD τ) ↦[Finset.univ]{fullShare} fK : sProp 𝕄)
      ⊣⊢ iprop((kM.view.loc (c : Thread nD τ) ↦[Finset.univ]{Transfers.shareDrop fullShare 32} fK)
          ∗ bigSep (Finset.range 32) (fun i => kM.view.loc (c : Thread nD τ) ↦[Finset.univ]{Transfers.shareTokN fullShare i} fK)) :=
    Transfers.pointsTo_toks_range fullShare 32
  have hr : (bigSep (Ring.rangeSet k0_t1_loop.trips 0 32) (fun r => kM.view.loc (c : Thread nD τ) ↦[Finset.univ]{Transfers.shareTokN fullShare r.val} fK) : sProp 𝕄)
      = bigSep (Finset.range 32) (fun i => kM.view.loc (c : Thread nD τ) ↦[Finset.univ]{Transfers.shareTokN fullShare i} fK) :=
    Ring.bigSep_rangeSet_eq_range (NB := k0_t1_loop.trips) (lo := 0) (hi := 32) (le_of_eq trips_eq.symm)
      (fun i => kM.view.loc (c : Thread nD τ) ↦[Finset.univ]{Transfers.shareTokN fullShare i} fK)
      (fun k h => congrArg (fun n => (kM.view.loc (c : Thread nD τ) ↦[Finset.univ]{Transfers.shareTokN fullShare n} fK : sProp 𝕄)) (Nat.zero_add k).symm)
  -- token `r` cut at the row its copy reads
  have hcut : ∀ r ∈ Ring.rangeSet k0_t1_loop.trips 0 32,
      (kM.view.loc (c : Thread nD τ) ↦[Finset.univ]{Transfers.shareTokN fullShare r.val} fK : sProp 𝕄)
        = iprop((kM.view.loc (c : Thread nD τ) ↦[srcSet c w hw r]{Transfers.shareTokN fullShare r.val} fK)
            ∗ kM.view.loc (c : Thread nD τ) ↦[Finset.univ \ srcSet c w hw r]{Transfers.shareTokN fullShare r.val} fK) := fun r _ =>
    have hs : (kM.view.loc (c : Thread nD τ) ↦[Finset.univ]{Transfers.shareTokN fullShare r.val} fK : sProp 𝕄)
        ⊣⊢ iprop((kM.view.loc (c : Thread nD τ) ↦[srcSet c w hw r]{Transfers.shareTokN fullShare r.val} fK)
            ∗ kM.view.loc (c : Thread nD τ) ↦[Finset.univ \ srcSet c w hw r]{Transfers.shareTokN fullShare r.val} fK) :=
      pointsTo_split_subset (Finset.subset_univ _)
    BI.equiv_iff.mp ⟨hs.1, hs.2⟩
  have e1 : (pt c kM fK : sProp 𝕄)
      = iprop((kM.view.loc (c : Thread nD τ) ↦[Finset.univ]{Transfers.shareDrop fullShare 32} fK)
          ∗ (bigSep (Ring.rangeSet k0_t1_loop.trips 0 32) (fun r => kM.view.loc (c : Thread nD τ) ↦[srcSet c w hw r]{Transfers.shareTokN fullShare r.val} fK)
            ∗ bigSep (Ring.rangeSet k0_t1_loop.trips 0 32) (fun r => kM.view.loc (c : Thread nD τ) ↦[Finset.univ \ srcSet c w hw r]{Transfers.shareTokN fullShare r.val} fK))) := by
    rw [show (pt c kM fK : sProp 𝕄) = (kM.view.loc (c : Thread nD τ) ↦[Finset.univ]{fullShare} fK) from rfl,
      BI.equiv_iff.mp ⟨ht.1, ht.2⟩, ← hr, BI.bigSep_congr hcut, bigSep_sep']
  rw [e1]; unfold Krest
  constructor
  · iintro ⟨HX, HA, HB⟩
    isplitl [HA]; · iexact HA
    isplitl [HX]; · iexact HX
    iexact HB
  · iintro ⟨HA, HX, HB⟩
    isplitl [HX]; · iexact HX
    isplitl [HA]; · iexact HA
    iexact HB

/-- Every delivery, by transfer of the batch, is the rows landed beside the borrowed parts of the read tokens. -/
theorem deliveries_split :
    (bigSep Finset.univ (fun t : Fin 32 => D c w hw fs fK (t.cast trips_eq.symm)) : sProp 𝕄)
      = iprop(bigSep (Ring.rangeSet k0_t1_loop.trips 0 32) (fun r => (rowM r).view.loc (c : Thread nD τ) ↦[(rowM r).view.set]{fullShare} landed c w hw fs fK r)
          ∗ bigSep (Ring.rangeSet k0_t1_loop.trips 0 32) (fun r =>
              (srcM (w r) (src_inb _ (hw r))).view.loc (c : Thread nD τ) ↦[(srcM (w r) (src_inb _ (hw r))).view.set]{Transfers.shareTokN fullShare r.val} fKAt c w hw fK r)) := by
  have hu : Ring.rangeSet k0_t1_loop.trips 0 32 = Finset.univ := by
    ext r; rw [Ring.mem_rangeSet]
    have h1 : r.val < 32 := Nat.lt_of_lt_of_eq r.isLt trips_eq
    simp only [Finset.mem_univ, iff_true]; omega
  have hm : (Finset.univ : Finset (Fin k0_t1_loop.trips)) = Finset.univ.map (finCongr trips_eq.symm).toEmbedding :=
    (Finset.map_univ_equiv _).symm
  rw [hu, ← bigSep_sep', hm, BI.bigSep_map]
  rfl

end Source

/-! ## The tile after the copies, in closed form -/

section Values

variable (c : Dev nD) (w : Fin k0_t1_loop.trips → BitVec 32) (hw : ∀ r, (w r).toNat < 2000)
  (fs : Bf (F := F) c scM) (fK : Bf (F := F) c kM)

omit [FloatOps F] in
/-- A vector's index matched with the one-row shape is that index on row 0. -/
theorem reshapeEquiv_ix1_1a {a : ℕ} (h : (⟨1, ![a]⟩ : Shape).numel = (⟨2, ![1, a]⟩ : Shape).numel) (x : Fin a) :
    Shape.reshapeEquiv h (ValueIdx.ix1 x) = ValueIdx.ix2 (⟨0, Nat.one_pos⟩ : Fin 1) x :=
  Shape.reshapeEquiv_eq_of_rowMajor h (by
    rw [Shape.rowMajor_val_two, Shape.rowMajor_val_one]
    show 0 * a + x.val = x.val
    rw [Nat.zero_mul, Nat.zero_add])

omit [FloatOps F] in
/-- Element `n` of tile row `r` is the tile's element `(r, n)`. -/
theorem rowM_emb (r : Fin k0_t1_loop.trips) (n : Fin 40000) :
    ((rowM r).view.emb (ValueIdx.ix1 n) : S32x40000.Idx) = ValueIdx.ix2 (r.cast trips_eq) n := by
  unfold rowM
  show (Rect.unit (s := S32x40000) (k0_off2 r) S1x40000.size (k0_off2_inb r)).emb
      (Shape.reshapeEquiv squeezes_S1x40000_S40000.numel_eq (ValueIdx.ix1 n)) = _
  rw [reshapeEquiv_ix1_1a]
  funext a; apply Fin.ext
  match a with
  | ⟨0, _⟩ => show k0_off2 r 0 + 1 * 0 = r.val; rw [Gen.k0_off2_eq]; rfl
  | ⟨1, _⟩ => show k0_off2 r 1 + 1 * n.val = n.val; rw [Gen.k0_off2_eq]; show 0 + 1 * n.val = n.val; omega

omit [FloatOps F] in
/-- Element `n` of row `ww` of `K` is `K`'s element `(ww, n)`. -/
theorem srcM_emb (ww : BitVec 32) (h : k0_chk1 ww) (hlt : ww.toNat < 2000) (n : Fin 40000) :
    ((srcM ww h).view.emb (ValueIdx.ix1 n) : S2000x40000.Idx) = ValueIdx.ix2 (⟨ww.toNat, hlt⟩ : Fin 2000) n := by
  unfold srcM
  show (Rect.unit (s := S2000x40000) (k0_off3 ww) S1x40000.size (k0_off3_inb ww h)).emb
      (Shape.reshapeEquiv squeezes_S1x40000_S40000.numel_eq (ValueIdx.ix1 n)) = _
  rw [reshapeEquiv_ix1_1a]
  funext a; apply Fin.ext
  match a with
  | ⟨0, _⟩ => show ww.toNat + 1 * 0 = ww.toNat; rfl
  | ⟨1, _⟩ => show 0 + 1 * n.val = n.val; omega

/-- Row `r` landed, read at the tile's element `(r, n)`: `K`'s element `(w r, n)`. -/
theorem landed_apply (r : Fin k0_t1_loop.trips) (n : Fin 40000) :
    landed c w hw fs fK r (ValueIdx.ix2 (r.cast trips_eq) n) = fK (ValueIdx.ix2 (⟨(w r).toNat, hw r⟩ : Fin 2000) n) := by
  have e := View.write_univ_eq_writes_whole (rowM r).view (fsAt c fs r) []
    (ReadAs.same.apply ((srcM (w r) (src_inb _ (hw r))).view.read (Elt F) (fKAt c w hw fK r)))
  rw [View.writes_nil] at e
  unfold landed
  rw [← e, ← rowM_emb r n, View.write_emb_of_mem _ _ (Finset.mem_univ _), ReadAs.apply_same, View.read_apply,
    srcM_emb _ _ (hw r) n]
  rw [cast_cast]; exact cast_eq _ _

/-- The tile after the 32 copies, in closed form: entry `(r, n)` is `K`'s entry `(w r, n)`. -/
def tileVal : Bf (F := F) c scM := fun (y : S32x40000.Idx) =>
  fK (ValueIdx.ix2 (n0 := 2000) (n1 := 40000) ⟨(w (rowOf y)).toNat, hw _⟩ (y 1))

/-- After the copies the tile holds exactly that, whatever it held before. -/
theorem tileAfter_eq : tileAfter c w hw fs fK = tileVal c w hw fK := by
  funext y
  obtain ⟨p, q, rfl⟩ : ∃ (p : Fin 32) (q : Fin 40000), y = ValueIdx.ix2 p q := ⟨y 0, y 1, ValueIdx.eq_ix2 y⟩
  unfold tileAfter tileVal
  exact landed_apply c w hw fs fK (p.cast trips_eq.symm) q

omit [FloatOps F] in
theorem tileVal_apply (r : Fin 32) (n : Fin 40000) :
    tileVal c w hw fK (ValueIdx.ix2 r n) = fK (ValueIdx.ix2 (⟨(w (r.cast trips_eq.symm)).toNat, hw _⟩ : Fin 2000) n) := by
  unfold tileVal; rfl

/-- The tile's entry `(r, n)` after the copies is `K`'s entry `(w r, n)`. -/
theorem tileAfter_apply (r : Fin 32) (n : Fin 40000) :
    tileAfter c w hw fs fK (ValueIdx.ix2 r n) = fK (ValueIdx.ix2 (⟨(w (r.cast trips_eq.symm)).toNat, hw _⟩ : Fin 2000) n) := by
  rw [tileAfter_eq]; exact tileVal_apply c w hw fK r n

end Values

end Cert.KernelIdeal.Hand

end
-- ==== Proof.KIBody.lean ====
/-
  The kernel body at one grid point, run once at symbolic staging buffers.

  The scratch tile is taken apart into its 32 rows and `K` into 32 read tokens cut at the rows the `user` words name; the
  issue loop starts the 32 copies as one batch on the kernel's semaphore; the three input blocks are loaded (the matrix
  product needs no row of `K`, so it is placed between the issues and the waits); the drain loop's 32 waits return every
  delivery; the tile is put together again, holding row `user[32·t + r]` of `K` in its row `r`, and `K` is whole again; the
  tile is loaded and the output block stored whole with `K[user] · (H[user] · Gᵀ + F_B)`.
-/
import proofs.«401447_j35158602285715_3_alg».proof.Proof.KILoops
import proofs.«401447_j35158602285715_3_alg».proof.Proof.KISplit
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf UD)

variable {F : FTy → Type} [FloatOps F]

local notation "𝕄" => MT nD τ sig Unit (Elt F) ℕ (UD sig nD τ) ℕ

section Run

variable (c : Dev nD) (i : grid0.Coords) (M0 : Memref sig .tc .smem S2048 .i32) (ft : Bf (F := F) c M0)
  (hw : ∀ r, (uwd M0 ft i r).toNat < 2000) (fK : Bf (F := F) c kM)

/-- What the body stores into its output block: the gathered rows of `K` times (the block of `H[user]` times `Gᵀ`, plus
    `F_B` along the rows), over the three input blocks as loaded and the tile after the copies. -/
def outVal (arg2 : Memref sig .tc .vmem S32x10 .f32) (arg3 : Memref sig .tc .vmem S10x40000 .bf16) (arg4 : Memref sig .tc .vmem S40000 .f32)
    (x2 : Bf (F := F) c arg2) (x3 : Bf (F := F) c arg3) (x4 : Bf (F := F) c arg4) : FVec F S32x40000 .f32 :=
  k0_pay1 (View.readAt (Elt F) arg2.view (Rect.unit (s := S32x10) ![0, 0] S32x10.size inb_S32x10_S32x10_0_0).toLoadRect x2)
    (View.readAt (Elt F) arg3.view (Rect.unit (s := S10x40000) ![0, 0] S10x40000.size inb_S10x40000_S10x40000_0_0).toLoadRect x3)
    (View.readAt (Elt F) arg4.view (Rect.unit (s := S40000) ![0] S40000.size inb_S40000_S40000_0).toLoadRect x4)
    (View.readAt (Elt F) scM.view (Rect.unit (s := S32x40000) ![0, 0] S32x40000.size inb_S32x40000_S32x40000_0_0).toLoadRect
      (tileVal c (uwd M0 ft i) hw fK))

set_option maxHeartbeats 8000000 in
/-- THE BODY'S RUN at one grid point: from the table's half, the three input blocks, the output block at any contents,
    the scratch tile at any contents, `K` whole, the semaphore at zero and the core's waits, the body runs to its
    return handing everything back as it was but the output block, stored whole with `outVal`, and the tile, holding the
    32 gathered rows. -/
theorem kernelRun [∀ e, Nonempty (Elt F e)] (h0 : M0.IsWhole)
    (arg2 : Memref sig .tc .vmem S32x10 .f32) (harg2 : arg2.IsWhole) (arg3 : Memref sig .tc .vmem S10x40000 .bf16) (harg3 : arg3.IsWhole)
    (arg4 : Memref sig .tc .vmem S40000 .f32) (harg4 : arg4.IsWhole) (arg6 : Memref sig .tc .vmem S32x40000 .f32) (harg6 : arg6.IsWhole)
    (x2 : Bf (F := F) c arg2) (x3 : Bf (F := F) c arg3) (x4 : Bf (F := F) c arg4) (y6 : Bf (F := F) c arg6) (fs : Bf (F := F) c scM)
    (W : Waits sig Unit) (Q : PUnit → sProp 𝕄) :
    iprop(tbPt c M0 ft ∗ pt c arg2 x2 ∗ pt c arg3 x3 ∗ pt c arg4 x4 ∗ pt c arg6 y6 ∗ pt c scM fs ∗ pt c kM fK
      ∗ semVal ((c : Thread nD τ), cell) 0 ∗ owes (c : Thread nD τ) 0 W
      ∗ (iprop(tbPt c M0 ft ∗ pt c arg2 x2 ∗ pt c arg3 x3 ∗ pt c arg4 x4
            ∗ pt c arg6 (arg6.view.writes (Elt F) y6 [⟨Rect.unit (s := S32x40000) ![0, 0] S32x40000.size inb_S32x40000_S32x40000_0_0, outVal c i M0 ft hw fK arg2 arg3 arg4 x2 x3 x4⟩])
            ∗ pt c scM (tileVal c (uwd M0 ft i) hw fK) ∗ pt c kM fK
            ∗ semVal ((c : Thread nD τ), cell) 0 ∗ ∃ W, owes (c : Thread nD τ) 0 W) -∗ Q ⟨⟩))
      ⊢ wp frame (wpE (defs₀ (F := F)) Variants.none c none) Set.univ
        (cc0__kernel i M0 h0 arg2 harg2 arg3 harg3 arg4 harg4 kM (Memref.isWhole_whole _) arg6 harg6 scM (Memref.isWhole_whole _) cc0_scratch1) Q := by
  rw [tile_entry_split c fs]
  iintro ⟨H0, H2, H3, H4, H6, ⟨HvP, HvR⟩, HK, Hc, HO, Hk⟩
  ihave HK' := (K_split c (uwd M0 ft i) hw fK).1 $$ HK
  icases HK' with ⟨HsP, HsR⟩
  simp only [cc0__kernel_eq_skeleton]; unfold cc0__kernel_skel
  -- the 32 copies as ONE batch on the semaphore, allocated from the cell at zero, its deliveries stated
  imod (Transfers.batch_alloc' (Lvl := ℕ) countersEmb (c : Thread nD τ) () NN
      (fun t : Fin 32 => D c (uwd M0 ft i) hw fs fK (t.cast trips_eq.symm)) (sm := cell) (E := Set.univ)) $$ Hc with HB
  sl_for (issueAt c i M0 ft hw fs fK) $$ [HB HvP HsP H0]
  · intro k acc; exact issue_step c i M0 ft hw fs fK h0 arg2 harg2 arg3 harg3 arg4 harg4 arg6 harg6 k acc
  · iapply (show iprop(batch c (uwd M0 ft i) hw fs fK 0 0
        ∗ bigSep (Ring.rangeSet k0_t1_loop.trips 0 32) (fun r => (rowM r).view.loc (c : Thread nD τ) ↦[(rowM r).view.set]{fullShare} fsAt c fs r)
        ∗ bigSep (Ring.rangeSet k0_t1_loop.trips 0 32) (fun r => (srcM (uwd M0 ft i r) (src_inb _ (hw r))).view.loc (c : Thread nD τ) ↦[(srcM (uwd M0 ft i r) (src_inb _ (hw r))).view.set]{Transfers.shareTokN fullShare r.val} fKAt c (uwd M0 ft i) hw fK r)
        ∗ tbPt c M0 ft) ⊢ issueAt c i M0 ft hw fs fK 0 () from by unfold issueAt; rw [Nat.zero_min])
    isplitl [HB]; · iexact HB
    isplitl [HvP]; · iexact HvP
    isplitl [HsP]; · iexact HsP
    iexact H0
  iintro %acc HL
  ihave HL' := (show issueAt c i M0 ft hw fs fK k0_t1_loop.trips acc ⊢ iprop(batch c (uwd M0 ft i) hw fs fK 32 0 ∗ tbPt c M0 ft) from by
    unfold issueAt; simp only [trips_eq, Nat.min_self, Ring.bigSep_rangeSet_empty (le_refl 32)]
    iintro ⟨A, -, -, B⟩; isplitl [A] <;> iassumption) $$ HL
  icases HL' with ⟨HB, H0⟩
  -- the three input blocks loaded
  sl_exec
  sl_for (drainAt c (uwd M0 ft i) hw fs fK) $$ [HB HO]
  · intro k acc; exact drain_step c (uwd M0 ft i) hw fs fK i M0 h0 arg2 harg2 arg3 harg3 arg4 harg4 arg6 harg6 k acc
  · iapply (show iprop((∃ W, owes (c : Thread nD τ) 0 W) ∗ batch c (uwd M0 ft i) hw fs fK 32 0) ⊢ drainAt c (uwd M0 ft i) hw fs fK 0 () from by
      unfold drainAt; rw [if_pos (by omega), Nat.zero_mul])
    isplitl [HO]; · iexists _; iexact HO
    iexact HB
  iintro %acc2 HL2
  ihave HL2' := (show drainAt c (uwd M0 ft i) hw fs fK k0_t2_loop.trips acc2
      ⊢ iprop((∃ W, owes (c : Thread nD τ) 0 W) ∗ semVal ((c : Thread nD τ), cell) 0
          ∗ bigSep (Ring.rangeSet k0_t1_loop.trips 0 32) (fun r => (rowM r).view.loc (c : Thread nD τ) ↦[(rowM r).view.set]{fullShare} landed c (uwd M0 ft i) hw fs fK r)
          ∗ bigSep (Ring.rangeSet k0_t1_loop.trips 0 32) (fun r => (srcM (uwd M0 ft i r) (src_inb _ (hw r))).view.loc (c : Thread nD τ) ↦[(srcM (uwd M0 ft i r) (src_inb _ (hw r))).view.set]{Transfers.shareTokN fullShare r.val} fKAt c (uwd M0 ft i) hw fK r)) from by
    unfold drainAt; rw [if_neg (by rw [trips2_eq]; omega), deliveries_split c (uwd M0 ft i) hw fs fK]) $$ HL2
  icases HL2' with ⟨⟨%W', HO⟩, Hc, HdP, HsP⟩
  -- the tile whole again, holding the gathered rows; `K` whole again
  ihave Hv := (Entails.of_eq (tile_after_split c (uwd M0 ft i) hw fs fK).symm) $$ [HdP HvR]
  · isplitl [HdP] <;> iassumption
  rw [tileAfter_eq c (uwd M0 ft i) hw fs fK]
  ihave HK := (K_split c (uwd M0 ft i) hw fK).2 $$ [HsP HsR]
  · isplitl [HsP] <;> iassumption
  -- the tile loaded, the output block stored whole
  sl_exec
  sl_step
  iapply Hk
  isplitl [H0]; · iexact H0
  isplitl [H2]; · iexact H2
  isplitl [H3]; · iexact H3
  isplitl [H4]; · iexact H4
  isplitl [H6]; · unfold outVal; iexact H6
  isplitl [Hv]; · iexact Hv
  isplitl [HK]; · iexact HK
  isplitl [Hc]; · iexact Hc
  iexists _; iexact HO

end Run

/-! ## The run over owned staging memrefs -/

section RunOwned

omit [FloatOps F] in
theorem hz2 : (![0, 0] : Fin S32x40000.rank → Nat) = fun _ => 0 := by funext a; fin_cases a <;> rfl

/-- A whole memref owned at `X` is its buffer held at the contents that read as `X`; -/
theorem owns_pt {sp : Space} {S : Shape} {e : EltTy} (c : Dev nD) (M : Memref sig .tc sp S e) (h : M.IsWhole) (X : S.Idx → Elt F e) :
    (owns (c : Thread nD τ) M fullShare X : sProp 𝕄) ⊢ pt c M (h.unread X) := by
  unfold owns
  iintro ⟨%f, %hf, H⟩
  obtain rfl := h.eq_unread hf
  rw [h.set_eq_univ]; iexact H
/-- and a whole memref's buffer held at `f` is the memref owned at what `f` reads as. -/
theorem pt_owns {sp : Space} {S : Shape} {e : EltTy} (c : Dev nD) (M : Memref sig .tc sp S e) (h : M.IsWhole) (f : Bf (F := F) c M)
    (X : S.Idx → Elt F e) (hr : M.view.read (Elt F) f = X) :
    pt c M f ⊢ (owns (c : Thread nD τ) M fullShare X : sProp 𝕄) := by
  unfold owns
  iintro H; iexists f; isplitr; · ipureintro; exact hr
  rw [h.set_eq_univ]; iexact H

variable (c : Dev nD) (i : grid0.Coords) (M0 : Memref sig .tc .smem S2048 .i32) (ft : Bf (F := F) c M0)
  (hw : ∀ r, (uwd M0 ft i r).toNat < 2000) (fK : Bf (F := F) c kM)

set_option maxHeartbeats 4000000 in
/-- The body's run with the staging memrefs OWNED at the blocks they hold: the three inputs come back as they were, and the
    output block comes back owned at `outVal`, whatever it held. -/
theorem kernelRun' [∀ e, Nonempty (Elt F e)] (h0 : M0.IsWhole)
    (arg2 : Memref sig .tc .vmem S32x10 .f32) (harg2 : arg2.IsWhole) (arg3 : Memref sig .tc .vmem S10x40000 .bf16) (harg3 : arg3.IsWhole)
    (arg4 : Memref sig .tc .vmem S40000 .f32) (harg4 : arg4.IsWhole) (arg6 : Memref sig .tc .vmem S32x40000 .f32) (harg6 : arg6.IsWhole)
    (X2 : Vec F S32x10 .f32) (X3 : Vec F S10x40000 .bf16) (X4 : Vec F S40000 .f32) (fs : Bf (F := F) c scM)
    (W : Waits sig Unit) (Q : PUnit → sProp 𝕄) :
    iprop(tbPt c M0 ft ∗ owns (c : Thread nD τ) arg2 fullShare X2 ∗ owns (c : Thread nD τ) arg3 fullShare X3 ∗ owns (c : Thread nD τ) arg4 fullShare X4
      ∗ (∃ d, owns (c : Thread nD τ) arg6 fullShare d) ∗ pt c scM fs ∗ pt c kM fK
      ∗ semVal ((c : Thread nD τ), cell) 0 ∗ owes (c : Thread nD τ) 0 W
      ∗ (iprop(tbPt c M0 ft ∗ owns (c : Thread nD τ) arg2 fullShare X2 ∗ owns (c : Thread nD τ) arg3 fullShare X3 ∗ owns (c : Thread nD τ) arg4 fullShare X4
            ∗ owns (c : Thread nD τ) arg6 fullShare (outVal c i M0 ft hw fK arg2 arg3 arg4 (harg2.unread X2) (harg3.unread X3) (harg4.unread X4))
            ∗ pt c scM (tileVal c (uwd M0 ft i) hw fK) ∗ pt c kM fK
            ∗ semVal ((c : Thread nD τ), cell) 0 ∗ ∃ W, owes (c : Thread nD τ) 0 W) -∗ Q ⟨⟩))
      ⊢ wp frame (wpE (defs₀ (F := F)) Variants.none c none) Set.univ
        (cc0__kernel i M0 h0 arg2 harg2 arg3 harg3 arg4 harg4 kM (Memref.isWhole_whole _) arg6 harg6 scM (Memref.isWhole_whole _) cc0_scratch1) Q := by
  iintro ⟨HT, H2, H3, H4, ⟨%d6, H6⟩, Hs, HK, Hc, HO, Hk⟩
  ihave H2 := (owns_pt c arg2 harg2 X2) $$ H2
  ihave H3 := (owns_pt c arg3 harg3 X3) $$ H3
  ihave H4 := (owns_pt c arg4 harg4 X4) $$ H4
  ihave H6 := (owns_pt c arg6 harg6 d6) $$ H6
  iapply (kernelRun c i M0 ft hw fK h0 arg2 harg2 arg3 harg3 arg4 harg4 arg6 harg6 _ _ _ _ fs W _)
  isplitl [HT]; · iexact HT
  isplitl [H2]; · iexact H2
  isplitl [H3]; · iexact H3
  isplitl [H4]; · iexact H4
  isplitl [H6]; · iexact H6
  isplitl [Hs]; · iexact Hs
  isplitl [HK]; · iexact HK
  isplitl [Hc]; · iexact Hc
  isplitl [HO]; · iexact HO
  iintro ⟨HT, H2, H3, H4, H6, Hs, HK, Hc, HO⟩
  iapply Hk
  isplitl [HT]; · iexact HT
  isplitl [H2]; · iapply (pt_owns c arg2 harg2 _ _ (harg2.read_unread _)); iexact H2
  isplitl [H3]; · iapply (pt_owns c arg3 harg3 _ _ (harg3.read_unread _)); iexact H3
  isplitl [H4]; · iapply (pt_owns c arg4 harg4 _ _ (harg4.read_unread _)); iexact H4
  isplitl [H6]
  · iapply (pt_owns c arg6 harg6 _ _
      ((View.read_writes_eq_canon _ _ _ (fun y => ⟨_, List.mem_singleton.mpr rfl, View.mem_set_unit_zero hz2 inb_S32x40000_S32x40000_0_0 y⟩)).trans
        (View.canon_unit_zero hz2 inb_S32x40000_S32x40000_0_0 _)))
    iexact H6
  isplitl [Hs]; · iexact Hs
  isplitl [HK]; · iexact HK
  isplitl [Hc]; · iexact Hc
  iexact HO

end RunOwned

end Cert.KernelIdeal.Hand

end
-- ==== Proof.KIRun.lean ====
/-
  The region's proof data and the body obligation.

  At point `t` the three input windows hold their blocks of `H[user]` (rows 32·t … 32·t + 31), of `Gᵀ` and of `F_B` (both
  whole at every point), and the output window is left holding `outAt`: the body's stored value over those blocks and the
  tile of gathered rows. The region's invariant is the same at every point — the scratch tile at some contents, the
  generator register, the kernel's semaphore at zero, `K` whole at its launch contents, and the table's half — since each
  point waits for every copy it starts.
-/
import proofs.«401447_j35158602285715_3_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf UD)

variable {F : FTy → Type} [FloatOps F]

local notation "𝕄" => MT nD τ sig Unit (Elt F) ℕ (UD sig nD τ) ℕ

section Launch

variable (m : (ℓ : Loc nD τ sig) → Buf (Elt F) ℓ) (ρ : Dev nD → PrngReg)

/-- Each window's current staging memref at point `t`, as the pipeline passes it, and its wholeness. -/
abbrev ms0 (t : Fin (cfgM m).N) : Memref sig .tc .vmem S32x10 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S10x40000 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S40000 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S32x40000 .f32 := spec0_3.stage ((cfgM m).slots t 3)
abbrev hs3 (t : Fin (cfgM m).N) : (ms3 m t).IsWhole := hstage0_3 (((cfgM m).slots t 3).cast nbuf0_3)

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- What the body leaves in the output block at point `t`. -/
def outAt (hH : Hyps m) (c : Dev nD) (t : Fin (cfgM m).N) : FVec F S32x40000 .f32 :=
  outVal c (grid0.coords t) tbM (tbl m 0) (hH c (grid0.coords t)) (V m c main_arg4) (ms0 m t) (ms1 m t) (ms2 m t)
    ((hs0 m t).unread (iblk m c 0 t)) ((hs1 m t).unread (iblk m c 1 t)) ((hs2 m t).unread (iblk m c 2 t))

/-- The proof data of the one pipeline on core `c`. -/
def dats (hH : Hyps m) (_ : Fin 1) (c : Dev nD) : Dat τ (Elt F) Unit ℕ (UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m hH c t
  Φ _ := iprop(Pipeline.ΦD osem spec0 H0 (V m) c ∗ Pipeline.ΦT pre0 (tbl m) c)
  q _ := fullShare
  owed _ := 0

theorem A_eq (hH : Hyps m) (c : Dev nD) (w : Fin (cfgM m).W) : (dats m hH 0 c).A w = V m c (Pipeline.arrRef spec0 w) := by
  dsimp only [dats]
theorem after_0 (hH : Hyps m) (c : Dev nD) (t : Fin (cfgM m).N) : (dats m hH 0 c).after 0 t = iblk m c 0 t := by dsimp only [dats]; try rfl
theorem after_1 (hH : Hyps m) (c : Dev nD) (t : Fin (cfgM m).N) : (dats m hH 0 c).after 1 t = iblk m c 1 t := by dsimp only [dats]; try rfl
theorem after_2 (hH : Hyps m) (c : Dev nD) (t : Fin (cfgM m).N) : (dats m hH 0 c).after 2 t = iblk m c 2 t := by dsimp only [dats]; try rfl
theorem after_3 (hH : Hyps m) (c : Dev nD) (t : Fin (cfgM m).N) : (dats m hH 0 c).after 3 t = outAt m hH c t := by dsimp only [dats]; try rfl

theorem before_0 (hH : Hyps m) (c : Dev nD) (t : Fin (cfgM m).N) (d) : (dats m hH 0 c).before 0 t d = iblk m c 0 t :=
  ((dats m hH 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hH : Hyps m) (c : Dev nD) (t : Fin (cfgM m).N) (d) : (dats m hH 0 c).before 1 t d = iblk m c 1 t :=
  ((dats m hH 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (hH : Hyps m) (c : Dev nD) (t : Fin (cfgM m).N) (d) : (dats m hH 0 c).before 2 t d = iblk m c 2 t :=
  ((dats m hH 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- The kernel body at point `t`, on what the pipeline calls it with. -/
abbrev bodyAt (t : Fin (cfgM m).N) : Prog (TpuEff nD τ sig (Elt F) Λ₀ .tc) PUnit :=
  cc0__kernel (grid0.coords t) tbM htbM (ms0 m t) (hs0 m t) (ms1 m t) (hs1 m t) (ms2 m t) (hs2 m t) kM (Memref.isWhole_whole _)
    (ms3 m t) (hs3 m t) scM (Memref.isWhole_whole _) cc0_scratch1

/-- What the body is called with at point `t`, the windows one by one, -/
def bodyPre (hH : Hyps m) (c : Dev nD) (t : Fin (cfgM m).N) : sProp 𝕄 :=
  iprop((dats m hH 0 c).Φ t.castSucc ∗ (dats m hH 0 c).owesAt () t.castSucc
    ∗ (∃ d, owns (c : Thread nD τ) (ms0 m t) fullShare ((dats m hH 0 c).before 0 t d))
    ∗ (∃ d, owns (c : Thread nD τ) (ms1 m t) fullShare ((dats m hH 0 c).before 1 t d))
    ∗ (∃ d, owns (c : Thread nD τ) (ms2 m t) fullShare ((dats m hH 0 c).before 2 t d))
    ∗ (∃ d, owns (c : Thread nD τ) (ms3 m t) fullShare ((dats m hH 0 c).before 3 t d)))

/-- and what it returns. -/
def bodyPost (hH : Hyps m) (c : Dev nD) (t : Fin (cfgM m).N) : sProp 𝕄 :=
  iprop((dats m hH 0 c).Φ t.succ ∗ (dats m hH 0 c).owesAt () t.succ
    ∗ owns (c : Thread nD τ) (ms0 m t) fullShare ((dats m hH 0 c).after 0 t)
    ∗ owns (c : Thread nD τ) (ms1 m t) fullShare ((dats m hH 0 c).after 1 t)
    ∗ owns (c : Thread nD τ) (ms2 m t) fullShare ((dats m hH 0 c).after 2 t)
    ∗ owns (c : Thread nD τ) (ms3 m t) fullShare ((dats m hH 0 c).after 3 t))

set_option maxHeartbeats 4000000 in
/-- The body at any point: the inputs' buffers hold their blocks, so the run applies; the invariant hands the body its
    scratch tile, the register, its semaphore at zero, `K` and the table's half, and takes them back. -/
theorem sound_body [∀ e, Nonempty (Elt F e)] (hH : Hyps m) (c : Dev nD) (t : Fin (cfgM m).N) :
    bodyPre m hH c t ⊢ wp frame (wpE (defs₀ (F := F)) Variants.none c none) Set.univ (bodyAt m t) (fun _ => bodyPost m hH c t) := by
  unfold bodyPre bodyPost bodyAt
  simp only [before_0, before_1, before_2]
  rw [show (dats m hH 0 c).Φ t.succ = (dats m hH 0 c).Φ t.castSucc from rfl, after_0, after_1, after_2, after_3]
  rw [show (dats m hH 0 c).Φ t.castSucc = iprop(Pipeline.ΦD osem spec0 H0 (V m) c ∗ Pipeline.ΦT pre0 (tbl m) c) from rfl, PhiD_eq, PhiT_eq]
  unfold Dat.owesAt Pipeline.owesWithin
  rw [show (dats m hH 0 c).owed t.castSucc = 0 from rfl, show (dats m hH 0 c).owed t.succ = 0 from rfl]
  iintro ⟨⟨⟨⟨%fs, Hs⟩, Hp, Hc, HK⟩, HT⟩, ⟨%W, %hW, HO⟩, ⟨%d0, H0⟩, ⟨%d1, H1⟩, ⟨%d2, H2⟩, ⟨%d3, H3⟩⟩
  iapply (kernelRun' c (grid0.coords t) tbM (tbl m 0) (hH c (grid0.coords t)) (V m c main_arg4) htbM (ms0 m t) (hs0 m t) (ms1 m t) (hs1 m t)
    (ms2 m t) (hs2 m t) (ms3 m t) (hs3 m t) (iblk m c 0 t) (iblk m c 1 t) (iblk m c 2 t) fs W _)
  isplitl [HT]; · iexact HT
  isplitl [H0]; · iexact H0
  isplitl [H1]; · iexact H1
  isplitl [H2]; · iexact H2
  isplitl [H3]; · iexists _; iexact H3
  isplitl [Hs]; · iexact Hs
  isplitl [HK]; · iexact HK
  isplitl [Hc]; · iexact Hc
  isplitl [HO]; · iexact HO
  iintro ⟨HT, H0, H1, H2, H3, Hs, HK, Hc, ⟨%W', HO⟩⟩
  isplitl [Hs Hp Hc HK HT]
  · isplitl [Hs Hp Hc HK]
    · isplitl [Hs]; · iexists _; iexact Hs
      isplitl [Hp]; · iexact Hp
      isplitl [Hc]; · iexact Hc
      iexact HK
    iexact HT
  isplitl [HO]
  · iexists W'; isplitr; · ipureintro; exact fun _ _ => Or.inl trivial
    iexact HO
  isplitl [H0]; · iexact H0
  isplitl [H1]; · iexact H1
  isplitl [H2]; · iexact H2
  unfold outAt; iexact H3

/-- The library's body obligation, at every point. -/
theorem body_obligation [∀ e, Nonempty (Elt F e)] (hH : Hyps m) (c : Dev nD) :
    BodyObligation (dats (F := F) m hH 0 c) (defs₀ (F := F)) Variants.none () Set.univ := fun t => by
  rw [bigSep_W0, bigSep_W0]
  exact sound_body m hH c t

end Launch

end Cert.KernelIdeal.Hand

end
-- ==== Proof.KISuffix.lean ====
/-
  THE LINES AFTER THE REGION, AS THE FRAME RUN NEEDS THEM. After its one pipelined region @main runs two stretches of host
  lines: 22 operations (the masked gather along the feature lists) and 3 (the zero, the sum over the features, the bias).

  What is shown of them, each fact read off the operations' literal buffer sets and decided reference by reference:
  they touch only unscoped TensorCore buffers, none of them the prefetched table `main_arg0` and none the operand the
  kernel moves itself (`main_arg4`), so they run within the pipeline's arrays and the bypassing buffers less that operand;
  they allocate nothing; and each writes only its own result buffer, which is none of the four windows' arrays.

  Consequently every argument ends as launched. An argument that is no window's array and that no line before or after
  the region writes holds, after the tail, what the launch memory held (seven of the eight). The eighth, `main_arg5`, IS
  window 2's array: after the tail it is that window's array as the region leaves it, whatever the proof data say that is.
-/
import proofs.«401447_j35158602285715_3_alg».proof.Proof.KIKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf UD)

variable {F : FTy → Type} [FloatOps F]

local notation "𝕄" => MT nD τ sig Unit (Elt F) ℕ (UD sig nD τ) ℕ

variable (m : (ℓ : Loc nD τ sig) → Buf (Elt F) ℓ)

/-! ## The lines after the region: what they touch -/

/-- No buffer of the masked gather's lines is the prefetched table. -/
theorem hostOps1_noTable : ∀ op ∈ (hostOps1 : List (HloOp τ sig (Elt F))), ∀ k, Proc.devRef .tc (pre0.ref k) ∉ op.bufs := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl
  all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)

/-- Nor is any buffer of the closing lines (the zero, the sum over the features, the bias). -/
theorem hostOps1_1_noTable : ∀ op ∈ (hostOps1_1 : List (HloOp τ sig (Elt F))), ∀ k, Proc.devRef .tc (pre0.ref k) ∉ op.bufs := by
  intro op hop
  simp only [hostOps1_1, List.mem_cons, List.mem_nil_iff, or_false] at hop
  rcases hop with rfl | rfl | rfl
  all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)

/-- No buffer of the masked gather's lines is the operand the kernel moves itself. -/
theorem hostOps1_noH0 : ∀ op ∈ (hostOps1 : List (HloOp τ sig (Elt F))), ∀ b ∈ H0, Proc.devRef .tc b ∉ op.bufs := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl
  all_goals intro b hb; simp only [H0, Finset.mem_insert, Finset.mem_singleton] at hb
  all_goals rcases hb with rfl <;>
    simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)

/-- Nor is any buffer of the closing lines. -/
theorem hostOps1_1_noH0 : ∀ op ∈ (hostOps1_1 : List (HloOp τ sig (Elt F))), ∀ b ∈ H0, Proc.devRef .tc b ∉ op.bufs := by
  intro op hop
  simp only [hostOps1_1, List.mem_cons, List.mem_nil_iff, or_false] at hop
  rcases hop with rfl | rfl | rfl
  all_goals intro b hb; simp only [H0, Finset.mem_insert, Finset.mem_singleton] at hb
  all_goals rcases hb with rfl <;>
    simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)

/-- The lines after the region touch the pipeline's arrays and the bypassing buffers only, and of those neither the
    prefetched table nor the operand the kernel moves itself: each operation's buffers are unscoped TensorCore
    references, and, read off its literal buffer set, none of them is `main_arg0` and none is `main_arg4`. -/
theorem sfx_sub : ∀ ops ∈ ([hostOps1, hostOps1_1] : List (List (HloOp τ sig (Elt F)))), ∀ op ∈ ops,
    op.bufs ⊆ Pipeline.tailRefsBut sig pre0 spec0 H0 := by
  intro ops hops op hop
  simp only [List.mem_cons, List.mem_nil_iff, or_false] at hops
  rcases hops with rfl | rfl
  · exact Pipeline.sub_tailRefsBut pre0 spec0 H0 op ((List.forall_iff_forall_mem.mp hostOps1_sub) op hop)
      (hostOps1_noTable op hop) (hostOps1_noH0 op hop)
  · exact Pipeline.sub_tailRefsBut pre0 spec0 H0 op ((List.forall_iff_forall_mem.mp hostOps1_1_sub) op hop)
      (hostOps1_1_noTable op hop) (hostOps1_1_noH0 op hop)

/-- They allocate nothing. -/
theorem sfx_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop

/-- And write no array of the pipeline: each writes only its own result buffer, which is none of the four windows'
    arrays. -/
theorem sfx_keeps : ∀ ops ∈ ([hostOps1, hostOps1_1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-! ## The arguments at the region's entry and after the tail -/

/-- No host line before the region writes `main_arg0`: the region is entered with it as launched. -/
theorem Ventry_main_arg0 (c : Dev nD) : V m c main_arg0 = m ((c : Thread nD τ).loc main_arg0) := by
  show StableHlo.after hostOps0 (fun b => m (c, b)) (Proc.devRef .tc main_arg0) = _
  after_results <;> rfl

/-- No host line before the region writes `main_arg1`: the region is entered with it as launched. -/
theorem Ventry_main_arg1 (c : Dev nD) : V m c main_arg1 = m ((c : Thread nD τ).loc main_arg1) := by
  show StableHlo.after hostOps0 (fun b => m (c, b)) (Proc.devRef .tc main_arg1) = _
  after_results <;> rfl

/-- No host line before the region writes `main_arg2`: the region is entered with it as launched. -/
theorem Ventry_main_arg2 (c : Dev nD) : V m c main_arg2 = m ((c : Thread nD τ).loc main_arg2) := by
  show StableHlo.after hostOps0 (fun b => m (c, b)) (Proc.devRef .tc main_arg2) = _
  after_results <;> rfl

/-- No host line before the region writes `main_arg3`: the region is entered with it as launched. -/
theorem Ventry_main_arg3 (c : Dev nD) : V m c main_arg3 = m ((c : Thread nD τ).loc main_arg3) := by
  show StableHlo.after hostOps0 (fun b => m (c, b)) (Proc.devRef .tc main_arg3) = _
  after_results <;> rfl

/-- No host line before the region writes `main_arg4`: the region is entered with it as launched. -/
theorem Ventry_main_arg4 (c : Dev nD) : V m c main_arg4 = m ((c : Thread nD τ).loc main_arg4) := by
  show StableHlo.after hostOps0 (fun b => m (c, b)) (Proc.devRef .tc main_arg4) = _
  after_results <;> rfl

/-- No host line before the region writes `main_arg5`: the region is entered with it as launched. -/
theorem Ventry_main_arg5 (c : Dev nD) : V m c main_arg5 = m ((c : Thread nD τ).loc main_arg5) := by
  show StableHlo.after hostOps0 (fun b => m (c, b)) (Proc.devRef .tc main_arg5) = _
  after_results <;> rfl

/-- No host line before the region writes `main_arg6`: the region is entered with it as launched. -/
theorem Ventry_main_arg6 (c : Dev nD) : V m c main_arg6 = m ((c : Thread nD τ).loc main_arg6) := by
  show StableHlo.after hostOps0 (fun b => m (c, b)) (Proc.devRef .tc main_arg6) = _
  after_results <;> rfl

/-- No host line before the region writes `main_arg7`: the region is entered with it as launched. -/
theorem Ventry_main_arg7 (c : Dev nD) : V m c main_arg7 = m ((c : Thread nD τ).loc main_arg7) := by
  show StableHlo.after hostOps0 (fun b => m (c, b)) (Proc.devRef .tc main_arg7) = _
  after_results <;> rfl

/-- No host line after the region writes `main_arg0`, and it is no window's array: it ends as launched. -/
theorem W_main_arg0 {U' : Type} [URA U'] (dats : (p : Fin 1) → (c : Dev nD) → Dat τ (Elt F) Unit ℕ U' ℕ (Pipeline.pin pcfgs (fun _ => adm m) p) c) (c : Dev nD) :
    Pipeline.afterTail pcfgs (fun _ => adm m) dats 0 (V0 m) [hostOps1, hostOps1_1] c main_arg0 = m ((c : Thread nD τ).loc main_arg0) := by
  unfold Pipeline.afterTail
  rw [StableHlo.after_of_forall_not_mem (b := Proc.devRef .tc main_arg0) _ _ (List.forall_iff_forall_mem.mp (by
      simp only [hostOps1, hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact Ventry_main_arg0 m c

/-- No host line after the region writes `main_arg1`, and it is no window's array: it ends as launched. -/
theorem W_main_arg1 {U' : Type} [URA U'] (dats : (p : Fin 1) → (c : Dev nD) → Dat τ (Elt F) Unit ℕ U' ℕ (Pipeline.pin pcfgs (fun _ => adm m) p) c) (c : Dev nD) :
    Pipeline.afterTail pcfgs (fun _ => adm m) dats 0 (V0 m) [hostOps1, hostOps1_1] c main_arg1 = m ((c : Thread nD τ).loc main_arg1) := by
  unfold Pipeline.afterTail
  rw [StableHlo.after_of_forall_not_mem (b := Proc.devRef .tc main_arg1) _ _ (List.forall_iff_forall_mem.mp (by
      simp only [hostOps1, hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact Ventry_main_arg1 m c

/-- No host line after the region writes `main_arg2`, and it is no window's array: it ends as launched. -/
theorem W_main_arg2 {U' : Type} [URA U'] (dats : (p : Fin 1) → (c : Dev nD) → Dat τ (Elt F) Unit ℕ U' ℕ (Pipeline.pin pcfgs (fun _ => adm m) p) c) (c : Dev nD) :
    Pipeline.afterTail pcfgs (fun _ => adm m) dats 0 (V0 m) [hostOps1, hostOps1_1] c main_arg2 = m ((c : Thread nD τ).loc main_arg2) := by
  unfold Pipeline.afterTail
  rw [StableHlo.after_of_forall_not_mem (b := Proc.devRef .tc main_arg2) _ _ (List.forall_iff_forall_mem.mp (by
      simp only [hostOps1, hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact Ventry_main_arg2 m c

/-- No host line after the region writes `main_arg3`, and it is no window's array: it ends as launched. -/
theorem W_main_arg3 {U' : Type} [URA U'] (dats : (p : Fin 1) → (c : Dev nD) → Dat τ (Elt F) Unit ℕ U' ℕ (Pipeline.pin pcfgs (fun _ => adm m) p) c) (c : Dev nD) :
    Pipeline.afterTail pcfgs (fun _ => adm m) dats 0 (V0 m) [hostOps1, hostOps1_1] c main_arg3 = m ((c : Thread nD τ).loc main_arg3) := by
  unfold Pipeline.afterTail
  rw [StableHlo.after_of_forall_not_mem (b := Proc.devRef .tc main_arg3) _ _ (List.forall_iff_forall_mem.mp (by
      simp only [hostOps1, hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact Ventry_main_arg3 m c

/-- No host line after the region writes `main_arg4`, and it is no window's array: it ends as launched. -/
theorem W_main_arg4 {U' : Type} [URA U'] (dats : (p : Fin 1) → (c : Dev nD) → Dat τ (Elt F) Unit ℕ U' ℕ (Pipeline.pin pcfgs (fun _ => adm m) p) c) (c : Dev nD) :
    Pipeline.afterTail pcfgs (fun _ => adm m) dats 0 (V0 m) [hostOps1, hostOps1_1] c main_arg4 = m ((c : Thread nD τ).loc main_arg4) := by
  unfold Pipeline.afterTail
  rw [StableHlo.after_of_forall_not_mem (b := Proc.devRef .tc main_arg4) _ _ (List.forall_iff_forall_mem.mp (by
      simp only [hostOps1, hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact Ventry_main_arg4 m c

/-- `main_arg5` is window 2's array and no host line after the region writes it: after the tail it is that window's
    array as the region leaves it. -/
theorem W_main_arg5 {U' : Type} [URA U'] (dats : (p : Fin 1) → (c : Dev nD) → Dat τ (Elt F) Unit ℕ U' ℕ (Pipeline.pin pcfgs (fun _ => adm m) p) c) (c : Dev nD) :
    Pipeline.afterTail pcfgs (fun _ => adm m) dats 0 (V0 m) [hostOps1, hostOps1_1] c main_arg5
      = (dats 0 c).arrAt 2 (Pipeline.pin pcfgs (fun _ => adm m) 0).N := by
  unfold Pipeline.afterTail
  rw [StableHlo.after_of_forall_not_mem (b := Proc.devRef .tc main_arg5) _ _ (List.forall_iff_forall_mem.mp (by
      simp only [hostOps1, hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  exact Pipeline.withArrays_arr spec0 (launch0 (F := F)).win.arr_inj c (V0 m c) _ 2

/-- No host line after the region writes `main_arg6`, and it is no window's array: it ends as launched. -/
theorem W_main_arg6 {U' : Type} [URA U'] (dats : (p : Fin 1) → (c : Dev nD) → Dat τ (Elt F) Unit ℕ U' ℕ (Pipeline.pin pcfgs (fun _ => adm m) p) c) (c : Dev nD) :
    Pipeline.afterTail pcfgs (fun _ => adm m) dats 0 (V0 m) [hostOps1, hostOps1_1] c main_arg6 = m ((c : Thread nD τ).loc main_arg6) := by
  unfold Pipeline.afterTail
  rw [StableHlo.after_of_forall_not_mem (b := Proc.devRef .tc main_arg6) _ _ (List.forall_iff_forall_mem.mp (by
      simp only [hostOps1, hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact Ventry_main_arg6 m c

/-- No host line after the region writes `main_arg7`, and it is no window's array: it ends as launched. -/
theorem W_main_arg7 {U' : Type} [URA U'] (dats : (p : Fin 1) → (c : Dev nD) → Dat τ (Elt F) Unit ℕ U' ℕ (Pipeline.pin pcfgs (fun _ => adm m) p) c) (c : Dev nD) :
    Pipeline.afterTail pcfgs (fun _ => adm m) dats 0 (V0 m) [hostOps1, hostOps1_1] c main_arg7 = m ((c : Thread nD τ).loc main_arg7) := by
  unfold Pipeline.afterTail
  rw [StableHlo.after_of_forall_not_mem (b := Proc.devRef .tc main_arg7) _ _ (List.forall_iff_forall_mem.mp (by
      simp only [hostOps1, hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact Ventry_main_arg7 m c

end Cert.KernelIdeal.Hand

end
-- ==== Proof.KIFrame.lean ====
/-
  The launch: every weakly fair execution of @main ends, and what it ends with.

  @main is the host lines before the region, the pipelined region — whose body obligation is the run of the body at one
  point — and the host lines after it; the kernel moves `K` itself, reading it only, and its one semaphore is at zero
  between points. So the run ends with the region's output array at what the 64 points wrote back, every other buffer at
  the later lines' value of the region's exit contents, and every argument as launched.
-/
import proofs.«401447_j35158602285715_3_alg».proof.Proof.KIRun
import proofs.«401447_j35158602285715_3_alg».proof.Proof.KISuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf UD)

variable {F : FTy → Type} [FloatOps F]

local notation "𝕄" => MT nD τ sig Unit (Elt F) ℕ (UD sig nD τ) ℕ

section Frame

variable (m : (ℓ : Loc nD τ sig) → Buf (Elt F) ℓ) (ρ : Dev nD → PrngReg)

set_option backward.isDefEq.respectTransparency.types false in
/-- From any memory with zero counters whose `user` words name rows of `K`: every weakly fair execution of @main on the
    TensorCores terminates without fault, and the final state has the region's arrays at what the points wrote back and
    every other unscoped buffer at the later host lines' value. -/
theorem run_main [∀ e, Nonempty (Elt F e)] (hH : Hyps m) :
    θ_run defs (onTc (τ := τ) (main (F := F))) (s₀ m ρ)
      (Pipeline.FramePost (Pipeline.pin pcfgs fun _ => adm m) (dats m hH) 0
        (Pipeline.afterTail pcfgs (fun _ => adm m) (dats m hH) 0 (V0 m) [hostOps1, hostOps1_1])) :=
  Pipeline.θ_run_frameP_dma_around pcfgs (fun _ => adm m) (dats m hH) (0 : Fin 1) launch0 osem defs₀ Variants.none ownSemFacts H0 H0_sub m ρ main
    (hbody := fun c => (body_obligation m hH c).loose) (hshare := fun c => (dats m hH 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m hH) (hpf := V_pre m)
    (hin := fun _ => .rfl) (hout := fun c => by change iprop(_ ∗ _) ⊢ _; iintro ⟨HD, -⟩; iexact HD)

/-- What the run's post says of the eight argument arrays: each ends as launched. (`F_B` is a window's array, read
    through the pipeline; the others bypass the region or are the table.) -/
theorem args_kept (hH : Hyps m) {r : PUnit × MemSt nD τ sig (Elt F)}
    (h : Pipeline.FramePost (Pipeline.pin pcfgs fun _ => adm m) (dats m hH) 0
        (Pipeline.afterTail pcfgs (fun _ => adm m) (dats m hH) 0 (V0 m) [hostOps1, hostOps1_1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (by decide : main_arg0 ∈ Pipeline.restRefs sig spec0)).trans (W_main_arg0 m (dats m hH) c),
   ((h c).2 main_arg1 (by decide : main_arg1 ∈ Pipeline.restRefs sig spec0)).trans (W_main_arg1 m (dats m hH) c),
   ((h c).2 main_arg2 (by decide : main_arg2 ∈ Pipeline.restRefs sig spec0)).trans (W_main_arg2 m (dats m hH) c),
   ((h c).2 main_arg3 (by decide : main_arg3 ∈ Pipeline.restRefs sig spec0)).trans (W_main_arg3 m (dats m hH) c),
   ((h c).2 main_arg4 (by decide : main_arg4 ∈ Pipeline.restRefs sig spec0)).trans (W_main_arg4 m (dats m hH) c),
   ((h c).1 2).trans (((dats m hH 0 c).arrAt_in 2 rfl _).trans ((A_eq m hH c 2).trans (Ventry_main_arg5 m c))),
   ((h c).2 main_arg6 (by decide : main_arg6 ∈ Pipeline.restRefs sig spec0)).trans (W_main_arg6 m (dats m hH) c),
   ((h c).2 main_arg7 (by decide : main_arg7 ∈ Pipeline.restRefs sig spec0)).trans (W_main_arg7 m (dats m hH) c)⟩

/-- THE FRAME, for either reading of the floats, given the range fact of the `user` words: every weakly fair execution
    terminates, nothing faults, and the eight argument arrays end as launched. -/
theorem frame [∀ e, Nonempty (Elt F e)] (hH : Hyps m) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => args_kept m hH h c) (run_main m ρ hH)

end Frame

end Cert.KernelIdeal.Hand

end
-- ==== Proof.KIHyps.lean ====
/-
  THE FRAMES' HYPOTHESIS FROM THE PRECONDITION. The region's body reads, on trip r of the grid point at coordinates i, one
  word of the prefetched `user` table and takes it for a row of `K`; the frames are stated under the hypothesis that
  every such word is below 2000 unsigned. Here that hypothesis is derived from the certificate's precondition.

  Three steps. (1) None of the host lines that run before the region writes the `user` buffer (each writes a buffer
  of its own), so the table the region is entered with is the first argument's launch contents. (2) The table is handed
  to the body whole, and a whole memref's view reads its buffer as it is: the word read at the one-word rectangle at the
  trip's offset is the contents' entry at that rectangle's index. (3) The precondition's last conjunct says every entry x
  of the first argument has 0 ≤ x < 2000 signed, hence unsigned value below 2000; it is decoded at that entry. Nothing
  depends on the float family.
-/
import proofs.«401447_j35158602285715_3_alg».proof.Proof.KIKit
import proofs.«401447_j35158602285715_3_alg».proof.Proof.PreDecode
import proofs.«401447_j35158602285715_3_alg».proof.Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf UD)

variable {F : FTy → Type} [FloatOps F]

local notation "𝕄" => MT nD τ sig Unit (Elt F) ℕ (UD sig nD τ) ℕ

variable (m : (ℓ : Loc nD τ sig) → Buf (Elt F) ℓ)

/-- No host line before the region writes the `user` buffer: the table the region is entered with is the launch
    contents of the first argument. -/
theorem tbl_eq_launch : tbl m 0 = m (((0 : Dev nD) : Thread nD τ).loc main_arg0) := by
  unfold tbl
  show StableHlo.after hostOps0 (fun b => m ((0 : Dev nD), b)) (Proc.devRef .tc main_arg0) = _
  after_results <;> rfl

/-- The word read through the whole table's view at a one-word rectangle is the contents' entry at the rectangle's
    index: a whole memref's view reads its buffer as it is. -/
theorem uwd_eq_entry (c : Dev nD) (f : Bf (F := F) c tbM) (i : grid0.Coords) (r : Fin k0_t1_loop.trips) :
    uwd tbM (c := c) f i r = f ((Rect.unit (s := S2048) (k0_off1 i r) S1.size (k0_off1_inb i r)).toLoadRect.idx i0) := rfl

/-- THE PRECONDITION GIVES THE FRAMES' HYPOTHESIS: every `user` word the body reads is an entry of the first argument
    as launched, and the precondition's range conjunct, decoded at that entry, bounds it below 2000. -/
theorem hyps_of_fn [Cert.Pre_finite_inputs.Facts]
    (hp : ∀ c : Dev nD, Cert.Pre_finite_inputs.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = (fun _ => 1#1)) :
    Hyps m := by
  intro c i r
  obtain rfl : c = 0 := Subsingleton.elim _ _
  have e : uwd tbM (c := (0 : Dev nD)) (tbl m 0) i r
      = m (((0 : Dev nD) : Thread nD τ).loc main_arg0) ((Rect.unit (s := S2048) (k0_off1 i r) S1.size (k0_off1_inb i r)).toLoadRect.idx i0) :=
    (uwd_eq_entry (F := F) 0 (tbl m 0) i r).trans (congrFun (tbl_eq_launch m) _)
  exact (congrArg BitVec.toNat e).trans_lt (Cert.Proof.PreDecode.user_lt_of_pre (F := F) _ _ _ _ _ _ _ _ (hp 0) _)

/-- The same from the certificate's precondition as the claims state it. -/
theorem hyps_of_pre [Cert.Pre_finite_inputs.Facts] (m : (ℓ : Loc nD τ sig) → Buf (Elt Ideal) ℓ) (hp : Cert.Pre_KernelIdeal m) :
    Hyps (F := Ideal) m := hyps_of_fn m hp

end Cert.KernelIdeal.Hand

end
-- ==== Proof.KIHost.lean ====
/-
  @main outside its region: what the lines before the region leave in the buffers the region and the later lines read,
  and the later lines as one function of the region's output.

  Before the region @main leaves its eight arguments as launched and computes four buffers: `H[user]` (rows of `H` at
  the `user` words, a negative word counted from the end), the feature lists `C[user, item]`, the bias row `I_B[item]`,
  and `Gᵀ` rounded to bf16. After the region it sums, per query, the region's output gathered along that query's 20
  features (a feature out of range contributing a NaN) and adds the bias. Each buffer's contents is the composition of
  the lines that compute it, read off the fold of the lines over the launch contents; the later lines are composed once,
  as `tailK`, over ANY contents of the buffers they start from, so that two programs sharing them are compared by
  comparing what goes in.
-/
import proofs.«401447_j35158602285715_3_alg».proof.Proof.KIKit
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf UD)

variable {F : FTy → Type} [FloatOps F]

local notation "𝕄" => MT nD τ sig Unit (Elt F) ℕ (UD sig nD τ) ℕ

variable (m : (ℓ : Loc nD τ sig) → Buf (Elt F) ℓ)

/-! ## The arguments: no line before the region writes one -/

/-- The references the 38 lines before the region write: their results. -/
theorem V_arg_of {r : Ref sig .tc} (c : Dev nD)
    (h : r ∉ [main_c, main_v0, main_v1, main_c_0, main_v2, main_v3, main_v4, main_v5, main_v6, main_c_1, main_v7, main_v8, main_c_2,
      main_v9, main_v10, main_v11, main_c_3, main_v12, main_v13, main_c_4, main_v14, main_v15, main_v16, main_v17, main_v18, main_v19,
      main_v20, main_c_5, main_v21, main_v22, main_c_6, main_v23, main_v24, main_v25, main_v26, main_v27, main_v28, main_v29]) :
    V m c r = m ((c : Thread nD τ).loc r) := by
  refine StableHlo.after_of_writes_sub _ _ ?_ h
  simp only [hostOps0, List.flatten_cons, List.flatten_nil, List.append_nil, List.cons_append, List.nil_append, List.Forall,
    StableHlo.nullary_writes, StableHlo.unary_writes, StableHlo.binary_writes, StableHlo.ternary_writes]
  repeat' apply And.intro
  all_goals exact Finset.singleton_subset_iff.mpr (List.mem_toFinset.mpr (List.mem_map_of_mem (by decide)))
theorem V_main_arg0 (c : Dev nD) : V m c main_arg0 = m ((c : Thread nD τ).loc main_arg0) := V_arg_of m c (by decide)
theorem V_main_arg1 (c : Dev nD) : V m c main_arg1 = m ((c : Thread nD τ).loc main_arg1) := V_arg_of m c (by decide)
theorem V_main_arg2 (c : Dev nD) : V m c main_arg2 = m ((c : Thread nD τ).loc main_arg2) := V_arg_of m c (by decide)
theorem V_main_arg3 (c : Dev nD) : V m c main_arg3 = m ((c : Thread nD τ).loc main_arg3) := V_arg_of m c (by decide)
theorem V_main_arg4 (c : Dev nD) : V m c main_arg4 = m ((c : Thread nD τ).loc main_arg4) := V_arg_of m c (by decide)
theorem V_main_arg5 (c : Dev nD) : V m c main_arg5 = m ((c : Thread nD τ).loc main_arg5) := V_arg_of m c (by decide)
theorem V_main_arg6 (c : Dev nD) : V m c main_arg6 = m ((c : Thread nD τ).loc main_arg6) := V_arg_of m c (by decide)
theorem V_main_arg7 (c : Dev nD) : V m c main_arg7 = m ((c : Thread nD τ).loc main_arg7) := V_arg_of m c (by decide)

/-! ## The buffers the lines before the region compute -/

/-- `H[user]`: the rows of `H` at the wrapped `user` words. -/
theorem V_main_v6 (c : Dev nD) : V m c main_v6 =
    Host.gather gather_S2000x10_S2048x1_S2048x10_1_0_n_n_0_1_110 (m ((c : Thread nD τ).loc main_arg2) : (⟨S2000x10, .f32⟩ : BufTy).Contents (Elt F))
      (broadcastInDim S2048x1 ![0] bcast_S2048_S2048x1_0 (select (cmpi .slt (m ((c : Thread nD τ).loc main_arg0) : (⟨S2048, .i32⟩ : BufTy).Contents (Elt F)) (broadcastInDim S2048 ![] bcast_S_S2048 (constantI S_ 32 0#32))) (addi (m ((c : Thread nD τ).loc main_arg0) : (⟨S2048, .i32⟩ : BufTy).Contents (Elt F)) (broadcastInDim S2048 ![] bcast_S_S2048 (constantI S_ 32 2000#32))) (m ((c : Thread nD τ).loc main_arg0) : (⟨S2048, .i32⟩ : BufTy).Contents (Elt F)))) := by
  dsimp only [V, V0]
  simp only [hostOps0, List.flatten_cons, List.flatten_nil, List.append_nil]
  after_results
  all_goals rfl

/-- `Gᵀ` narrowed: the transposed `G`, each element rounded to bf16. -/
theorem V_main_v29 (c : Dev nD) : V m c main_v29 =
    truncf .bf16 (transpose S10x40000 [1, 0] (m ((c : Thread nD τ).loc main_arg3) : (⟨S40000x10, .f32⟩ : BufTy).Contents (Elt F)) transposes_S40000x10_S10x40000_1_0) bitsLt_bf16_f32 := by
  dsimp only [V, V0]
  simp only [hostOps0, List.flatten_cons, List.flatten_nil, List.append_nil]
  after_results
  all_goals rfl

/-- `C[user, item]`: the feature lists at the wrapped `(user, item)` pairs. -/
theorem V_main_v20 (c : Dev nD) : V m c main_v20 =
    Host.gather gather_S2000x5000x20_S2048x2_S2048x20_1_01_n_n_01_1_1120 (m ((c : Thread nD τ).loc main_arg7) : (⟨S2000x5000x20, .i32⟩ : BufTy).Contents (Elt F))
      (concatenate S2048x2 1 [⟨S2048x1, (broadcastInDim S2048x1 ![0] bcast_S2048_S2048x1_0 (select (cmpi .slt (m ((c : Thread nD τ).loc main_arg0) : (⟨S2048, .i32⟩ : BufTy).Contents (Elt F)) (broadcastInDim S2048 ![] bcast_S_S2048 (constantI S_ 32 0#32))) (addi (m ((c : Thread nD τ).loc main_arg0) : (⟨S2048, .i32⟩ : BufTy).Contents (Elt F)) (broadcastInDim S2048 ![] bcast_S_S2048 (constantI S_ 32 2000#32))) (m ((c : Thread nD τ).loc main_arg0) : (⟨S2048, .i32⟩ : BufTy).Contents (Elt F))))⟩, ⟨S2048x1, (broadcastInDim S2048x1 ![0] bcast_S2048_S2048x1_0 (select (cmpi .slt (m ((c : Thread nD τ).loc main_arg1) : (⟨S2048, .i32⟩ : BufTy).Contents (Elt F)) (broadcastInDim S2048 ![] bcast_S_S2048 (constantI S_ 32 0#32))) (addi (m ((c : Thread nD τ).loc main_arg1) : (⟨S2048, .i32⟩ : BufTy).Contents (Elt F)) (broadcastInDim S2048 ![] bcast_S_S2048 (constantI S_ 32 5000#32))) (m ((c : Thread nD τ).loc main_arg1) : (⟨S2048, .i32⟩ : BufTy).Contents (Elt F))))⟩] concatenates_S2048x1_S2048x1_S2048x2_d1) := by
  dsimp only [V, V0]
  simp only [hostOps0, List.flatten_cons, List.flatten_nil, List.append_nil]
  after_results_simp
  all_goals rfl

/-- `I_B[item]`: the bias at the wrapped `item` words. -/
theorem V_main_v27 (c : Dev nD) : V m c main_v27 =
    Host.gather gather_S5000_S2048x1_S2048_n_0_n_n_0_1_1 (m ((c : Thread nD τ).loc main_arg6) : (⟨S5000, .f32⟩ : BufTy).Contents (Elt F))
      (broadcastInDim S2048x1 ![0] bcast_S2048_S2048x1_0 (select (cmpi .slt (m ((c : Thread nD τ).loc main_arg1) : (⟨S2048, .i32⟩ : BufTy).Contents (Elt F)) (broadcastInDim S2048 ![] bcast_S_S2048 (constantI S_ 32 0#32))) (addi (m ((c : Thread nD τ).loc main_arg1) : (⟨S2048, .i32⟩ : BufTy).Contents (Elt F)) (broadcastInDim S2048 ![] bcast_S_S2048 (constantI S_ 32 5000#32))) (m ((c : Thread nD τ).loc main_arg1) : (⟨S2048, .i32⟩ : BufTy).Contents (Elt F)))) := by
  dsimp only [V, V0]
  simp only [hostOps0, List.flatten_cons, List.flatten_nil, List.append_nil]
  after_results_simp
  all_goals rfl

/-! ## The lines after the region, as one function of the region's output -/

/-- The feature lists wrapped into `[0, 40000)` (a negative entry counted from the end), each entry its own row. -/
def tailIdx (feats : (⟨S2048x20, .i32⟩ : BufTy).Contents (Elt F)) : (⟨S2048x20x1, .i32⟩ : BufTy).Contents (Elt F) :=
  shapeCast S2048x20x1
    (select (cmpi .slt feats (broadcastInDim S2048x20 ![] bcast_S_S2048x20 (constantI S_ 32 0#32)))
      (addi feats (broadcastInDim S2048x20 ![] bcast_S_S2048x20 (constantI S_ 32 40000#32))) feats)
    shapeCasts_S2048x20_S2048x20x1

/-- What @main computes after the region, as a function of the region's output `X`, the feature lists and the bias
    row: per query the sum over its 20 features of `X` gathered along the wrapped feature list — an entry whose
    wrapped index falls outside `[0, 39999]` contributing a NaN —, plus the bias. -/
def tailK (X : (⟨S2048x40000, .f32⟩ : BufTy).Contents (Elt F)) (feats : (⟨S2048x20, .i32⟩ : BufTy).Contents (Elt F))
    (ib : (⟨S2048, .f32⟩ : BufTy).Contents (Elt F)) : (⟨S2048, .f32⟩ : BufTy).Contents (Elt F) :=
  addf
    (Host.reduceAdd (F := F)
      (select
        (Host.reduce IntOp.andi
          (andi (cmpi .sge (tailIdx (F := F) feats) (broadcastInDim S2048x20x1 ![] bcast_S_S2048x20x1 (constantI S_ 32 0#32)))
            (cmpi .sle (tailIdx (F := F) feats)
              (broadcastInDim S2048x20x1 ![0, 1, 2] bcast_S1x1x1_S2048x20x1_0_1_2
                (broadcastInDim S1x1x1 ![2] bcast_S1_S1x1x1_2 (constantI S1 32 39999#32)))))
          (constantI S_ 1 1#1) reducesTo_S2048x20x1_S2048x20_d2 h_S_)
        (Host.gather gather_S2048x40000_S2048x20x1_S2048x20_n_1_0_0_1_2_11 X (tailIdx (F := F) feats))
        (broadcastInDim S2048x20 ![] bcast_S_S2048x20 (constant (F := F) S_ .f32 0x7FC00000#32)))
      (constant (F := F) S_ .f32 0x00000000#32) reducesTo_S2048x20_S2048_d1 h_S_)
    ib

set_option maxHeartbeats 4000000 in
/-- The 25 lines after the region leave `tailK` of the region's output in the result buffer, whatever the buffers hold
    when they start. -/
theorem tail_eq (W : Valuation τ sig (Elt F)) :
    StableHlo.after (List.flatten [hostOps1, hostOps1_1]) W (Proc.devRef .tc main_v33)
      = tailK (F := F) (W (Proc.devRef .tc main_v30)) (W (Proc.devRef .tc main_v20)) (W (Proc.devRef .tc main_v27)) := by
  simp only [hostOps1, hostOps1_1, List.flatten_cons, List.flatten_nil, List.append_nil, List.cons_append, List.nil_append]
  after_results_simp
  simp only [StableHlo.TRef.ofBuf, StableHlo.TRef.toBuf, cast_eq]
  rfl

end Cert.KernelIdeal.Hand

end
-- ==== Proof.KIResult.lean ====
/-
  The kernel's result, read off the run's post.

  After the region the lines that follow see the region's output array at what the 64 points wrote back and every other
  buffer at its contents when the region was entered; so the result is the later lines' one function `tailK` of that
  array, of the feature lists `C[user, item]` and of the biases `I_B[item]`, both computed before the region.
-/
import proofs.«401447_j35158602285715_3_alg».proof.Proof.KIFrame
import proofs.«401447_j35158602285715_3_alg».proof.Proof.KIHost

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf UD)

variable {F : FTy → Type} [FloatOps F]

local notation "𝕄" => MT nD τ sig Unit (Elt F) ℕ (UD sig nD τ) ℕ

section Result

variable (m : (ℓ : Loc nD τ sig) → Buf (Elt F) ℓ) (ρ : Dev nD → PrngReg)

/-- The result buffer after the run. -/
theorem final_result (hH : Hyps m) {r : PUnit × MemSt nD τ sig (Elt F)}
    (h : Pipeline.FramePost (Pipeline.pin pcfgs fun _ => adm m) (dats m hH) 0
        (Pipeline.afterTail pcfgs (fun _ => adm m) (dats m hH) 0 (V0 m) [hostOps1, hostOps1_1]) r) (c : Dev nD) :
    r.2.mem ((c : Thread nD τ).loc main_v33)
      = tailK (F := F) ((dats m hH 0 c).arrAt 3 (cfgM m).N) (V m c main_v20) (V m c main_v27) := by
  refine ((h c).2 main_v33 (by decide : main_v33 ∈ Pipeline.restRefs sig spec0)).trans ?_
  unfold Pipeline.afterTail
  rw [tail_eq]
  have e30 := Pipeline.withArrays_arr spec0 (launch0 (F := F)).win.arr_inj c (V0 m c) (fun w => (dats m hH 0 c).arrAt w (cfgM m).N) 3
  have e20 := Pipeline.withArrays_of_ne spec0 c (V0 m c) (fun w => (dats m hH 0 c).arrAt w (cfgM m).N) main_v20
    (by exact (by decide : ∀ w, Pipeline.arrRef spec0 w ≠ main_v20))
  have e27 := Pipeline.withArrays_of_ne spec0 c (V0 m c) (fun w => (dats m hH 0 c).arrAt w (cfgM m).N) main_v27
    (by exact (by decide : ∀ w, Pipeline.arrRef spec0 w ≠ main_v27))
  exact congr (congr (congrArg (tailK (F := F)) e30) e20) e27

end Result

end Cert.KernelIdeal.Hand

end
-- ==== Proof.KIPayload.lean ====
/-
  The value the kernel stores at one grid point, read at an index.

  At a grid point the kernel holds a 32 × 10 block `A` (rows of the first factor), the 10 × 40000 matrix `B`
  (the second factor, transposed), a bias vector `b` of length 40000 and a 32 × 40000 block `W` of weights, and it
  stores  W ⊙ (A · B + 1 bᵀ):  at row `p` and column `q`,

      W p q * ((∑ k : Fin 10, A p k * B k q) + b q).

  At the ideal values a change of float format is the identity, a matrix product into a zero accumulator is the plain
  sum over the one contracted axis, a shape cast to the same shape is the identity, the cast of a vector to a one-row
  matrix followed by the broadcast of that row over 32 rows reads the vector at the column, and the two arithmetic
  operations are pointwise. The only work is the contraction: the sum over the contraction's index set is re-indexed
  by its one coordinate, and the two operand indices of the product are identified axis by axis.
-/
import proofs.«401447_j35158602285715_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx
open scoped BigOperators

/-! ## The product's operand indices, axis by axis

The left operand is read at (row of the result, contraction position), the right one at (contraction position, column
of the result). Each of the four coordinates is stated at its literal axis. -/

/-- The left operand's row is the result's row. -/
theorem lhs_pay1_0 (i : S32x40000.Idx) (q : dot_S32x10_S10x40000_S32x40000_1_0_0_1_n_n.contr.Idx) :
    (dot_S32x10_S10x40000_S32x40000_1_0_0_1_n_n.lhsIdx i q 0).val = (i 0).val := by
  unfold DotDims.lhsIdx
  rw [dif_neg (show ¬(0 : Fin S32x10.rank) ∈ dot_S32x10_S10x40000_S32x40000_1_0_0_1_n_n.lhsBatch by decide), dif_pos (show (0 : Fin S32x10.rank) ∈ dot_S32x10_S10x40000_S32x40000_1_0_0_1_n_n.lhsNonContracting by decide)]
  rfl

/-- The left operand's column is the contraction position. -/
theorem lhs_pay1_1 (i : S32x40000.Idx) (q : dot_S32x10_S10x40000_S32x40000_1_0_0_1_n_n.contr.Idx) :
    (dot_S32x10_S10x40000_S32x40000_1_0_0_1_n_n.lhsIdx i q 1).val = (q ⟨0, by decide⟩).val :=
  dot_S32x10_S10x40000_S32x40000_1_0_0_1_n_n.lhsIdx_val_of_single rfl i q

/-- The right operand's row is the contraction position. -/
theorem rhs_pay1_0 (i : S32x40000.Idx) (q : dot_S32x10_S10x40000_S32x40000_1_0_0_1_n_n.contr.Idx) :
    (dot_S32x10_S10x40000_S32x40000_1_0_0_1_n_n.rhsIdx i q 0).val = (q ⟨0, by decide⟩).val :=
  dot_S32x10_S10x40000_S32x40000_1_0_0_1_n_n.rhsIdx_val_of_single rfl i q

/-- The right operand's column is the result's column. -/
theorem rhs_pay1_1 (i : S32x40000.Idx) (q : dot_S32x10_S10x40000_S32x40000_1_0_0_1_n_n.contr.Idx) :
    (dot_S32x10_S10x40000_S32x40000_1_0_0_1_n_n.rhsIdx i q 1).val = (i 1).val := by
  unfold DotDims.rhsIdx
  rw [dif_neg (show ¬(1 : Fin S10x40000.rank) ∈ dot_S32x10_S10x40000_S32x40000_1_0_0_1_n_n.rhsBatch by decide), dif_pos (show (1 : Fin S10x40000.rank) ∈ dot_S32x10_S10x40000_S32x40000_1_0_0_1_n_n.rhsNonContracting by decide)]
  rfl

/-! ## The matrix product at an index -/

/-- A 32 × 10 by 10 × 40000 product into a zero accumulator, at the ideal values, read at row `p` and column `q`:
    the sum over the ten contraction positions of the left operand's row `p` times the right operand's column `q`. -/
theorem matmul_zero_apply (a : FVec Ideal S32x10 .bf16) (b : FVec Ideal S10x40000 .bf16) (p : Fin 32) (q : Fin 40000) :
    matmul dot_S32x10_S10x40000_S32x40000_1_0_0_1_n_n none a b (constant (F := Ideal) S32x40000 .f32 0x00000000#32) (ix2 p q)
      = ∑ k : Fin 10, a (ix2 p k) * b (ix2 k q) := by
  show FloatOps.matmul dot_S32x10_S10x40000_S32x40000_1_0_0_1_n_n none a b (constant (F := Ideal) S32x40000 .f32 0x00000000#32) (ix2 p q) = _
  rw [Ideal.matmul_constant_zero_apply, ← Equiv.sum_comp (contrEquiv1 dot_S32x10_S10x40000_S32x40000_1_0_0_1_n_n 10 rfl rfl).symm]
  refine Finset.sum_congr rfl fun k _ => ?_
  have hk := contrEquiv1_symm_val dot_S32x10_S10x40000_S32x40000_1_0_0_1_n_n 10 rfl rfl k
  have el : dot_S32x10_S10x40000_S32x40000_1_0_0_1_n_n.lhsIdx (ix2 p q) ((contrEquiv1 dot_S32x10_S10x40000_S32x40000_1_0_0_1_n_n 10 rfl rfl).symm k) = ix2 p k := funext fun ax => Fin.ext (by
    match ax with
    | ⟨0, _⟩ => exact lhs_pay1_0 _ _
    | ⟨1, _⟩ => exact (lhs_pay1_1 _ _).trans hk)
  have er : dot_S32x10_S10x40000_S32x40000_1_0_0_1_n_n.rhsIdx (ix2 p q) ((contrEquiv1 dot_S32x10_S10x40000_S32x40000_1_0_0_1_n_n 10 rfl rfl).symm k) = ix2 k q := funext fun ax => Fin.ext (by
    match ax with
    | ⟨0, _⟩ => exact (rhs_pay1_0 _ _).trans hk
    | ⟨1, _⟩ => exact rhs_pay1_1 _ _)
  rw [el, er]

/-! ## The stored value at an index -/

/-- The value stored at a grid point, at row `p` and column `q`: the weight there times the sum of the product's
    element and the bias at the column. -/
theorem pay1_apply (v2 : Vec Ideal S32x10 .f32) (v5 : Vec Ideal S10x40000 .bf16) (v8 : Vec Ideal S40000 .f32) (v11 : Vec Ideal S32x40000 .f32) (p : Fin 32) (q : Fin 40000) :
    Gen.k0_pay1 (F := Ideal) v2 v5 v8 v11 (ix2 p q)
      = v11 (ix2 p q) * ((∑ k : Fin 10, v2 (ix2 p k) * v5 (ix2 k q)) + v8 (ix1 q)) := by
  unfold Gen.k0_pay1
  rw [mulf_apply, addf_apply, broadcastTo_1b_ab_apply, shapeCast_a_1a_apply, shapeCast_self, shapeCast_self, matmul_zero_apply]
  rfl

end Cert.KernelIdeal.Hand

end
-- ==== Proof.KIValue.lean ====
/-
  The output array after the region, entry by entry.

  Point `t` of the 64 writes back rows `32·t … 32·t + 31` of the output array, all 40000 columns, holding what the body
  stored: at row `p`, column `q`, the gathered row's entry `K[user[32·t + p], q]` times (row `32·t + p` of `H[user]`
  against column `q` of `Gᵀ`, plus `F_B[q]`). The three input blocks are read where their rectangles say (the first
  moves with the point, the other two are their arrays whole), the tile holds row `user[32·t + r]` of `K` in its row `r`,
  and the word trip `r` reads is entry `32·t + r` of the table. So every point writes its block of ONE function of the
  arrays the region finds; the 64 blocks cover the array (row `b` lies in the block of point `b / 32`); hence the array
  ends holding that function:  K[user] ⊙ (H[user] · Gᵀ + 1 F_Bᵀ).
-/
import proofs.«401447_j35158602285715_3_alg».proof.Proof.KIRun
import proofs.«401447_j35158602285715_3_alg».proof.Proof.KIPayload
import proofs.«401447_j35158602285715_3_alg».proof.Proof.KIHyps
import proofs.«401447_j35158602285715_3_alg».proof.Proof.KIHost
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf UD)
open scoped BigOperators

variable (m : (ℓ : Loc nD τ sig) → Buf (Elt Ideal) ℓ)

/-! ## The arrays by their tensor types -/

/-- The `user` words as launched. -/
abbrev usr (c : Dev nD) : IVec S2048 32 := m ((c : Thread nD τ).loc main_arg0)
/-- `K` as the region finds it. -/
abbrev karr (c : Dev nD) : Vec Ideal S2000x40000 .f32 := V m c main_arg4
/-- `H[user]` as the region finds it. -/
abbrev hUser (c : Dev nD) : Vec Ideal S2048x10 .f32 := V m c main_v6
/-- `Gᵀ`, narrowed, as the region finds it. -/
abbrev gT (c : Dev nD) : Vec Ideal S10x40000 .bf16 := V m c main_v29
/-- `F_B` as the region finds it. -/
abbrev fB (c : Dev nD) : Vec Ideal S40000 .f32 := V m c main_arg5

/-! ## The grid's points and the windows' block indices -/

theorem zeros2 : (![0, 0] : Fin 2 → Nat) = fun _ => 0 := funext fun a => by fin_cases a <;> rfl
theorem zeros1 : (![0] : Fin 1 → Nat) = fun _ => 0 := funext fun a => by fin_cases a; rfl

/-- Point `t` has coordinate `t`; there the `H[user]` window and the output window are at block `(t, 0)`, the `Gᵀ` and
    `F_B` windows at their one block. Decided over the grid, at any contents of the table (no index map reads it). -/
theorem point_facts (a : (pcfg0 (F := Ideal)).Adm) : ∀ t : Fin (cfg0 a).N, ((grid0.coords t) 0).val = t.val
    ∧ ((cfg0 a).win 0).index t (0 : Fin 2) = t.val ∧ ((cfg0 a).win 0).index t (1 : Fin 2) = 0
    ∧ ((cfg0 a).win 1).index t (0 : Fin 2) = 0 ∧ ((cfg0 a).win 1).index t (1 : Fin 2) = 0
    ∧ ((cfg0 a).win 2).index t (0 : Fin 1) = 0
    ∧ ((cfg0 a).win 3).index t (0 : Fin 2) = t.val ∧ ((cfg0 a).win 3).index t (1 : Fin 2) = 0 :=
  (by decide +kernel : ∀ t : Fin grid0.N, ((grid0.coords t) 0).val = t.val
    ∧ cc0_transform_0 (grid0.coords t) (0 : Fin 2) = t.val ∧ cc0_transform_0 (grid0.coords t) (1 : Fin 2) = 0
    ∧ cc0_transform_1 (grid0.coords t) (0 : Fin 2) = 0 ∧ cc0_transform_1 (grid0.coords t) (1 : Fin 2) = 0
    ∧ cc0_transform_2 (grid0.coords t) (0 : Fin 1) = 0
    ∧ cc0_transform_4 (grid0.coords t) (0 : Fin 2) = t.val ∧ cc0_transform_4 (grid0.coords t) (1 : Fin 2) = 0)

/-! ## The `user` word a trip reads -/

/-- Trip `r` of the point at coordinates `i` reads entry `32·i + r` of the table. -/
theorem uwd_entry (c : Dev nD) (f : Bf (F := Ideal) c tbM) (i : grid0.Coords) (r : Fin k0_t1_loop.trips) (b : Fin 2048)
    (hb : b.val = 32 * (i 0).val + r.val) : uwd tbM (c := c) f i r = (f : IVec S2048 32) (ix1 b) := by
  rw [uwd_eq_entry]
  refine congrArg (f : IVec S2048 32) ?_
  funext a; apply Fin.ext
  match a with
  | ⟨0, _⟩ =>
    show k0_off1 i r 0 + 1 * (i0 0).val = b.val
    rw [k0_off1_eq]
    show (32 * (i 0).val + r.val) + 1 * 0 = b.val
    omega

/-- Every `user` word names a row of `K`: word `b` is the one trip `b % 32` of point `b / 32` reads. -/
theorem user_lt (hH : Hyps (F := Ideal) m) (c : Dev nD) (b : Fin 2048) : (usr m c (ix1 b)).toNat < 2000 := by
  obtain rfl : c = 0 := Subsingleton.elim _ _
  have hN : (cfgM m).N = 64 := N_0
  have hb := b.isLt
  let t : Fin (cfgM m).N := ⟨b.val / 32, by rw [hN]; omega⟩
  let r : Fin k0_t1_loop.trips := ⟨b.val % 32, by rw [trips_eq]; omega⟩
  have ht : ((grid0.coords t) 0).val = b.val / 32 := (point_facts (adm m) t).1
  have e := uwd_entry (0 : Dev nD) (tbl m 0) (grid0.coords t) r b (by rw [ht]; show b.val = 32 * (b.val / 32) + b.val % 32; omega)
  have h := hH 0 (grid0.coords t) r
  rw [e, tbl_eq_launch] at h
  exact h

/-! ## The input blocks, read where their rectangles say -/

/-- Window 0's block at point `t` is rows `32·t … 32·t + 31` of `H[user]`. -/
theorem iblk0_apply (c : Dev nD) (t : Fin (cfgM m).N) (x : S32x10.Idx) (i : S2048x10.Idx)
    (h0 : (i 0).val = 32 * t.val + (x 0).val) (h1 : (i 1).val = (x 1).val) :
    (iblk m c 0 t : Vec Ideal S32x10 .f32) x = hUser m c i := by
  obtain ⟨-, e0, e1, -⟩ := point_facts (adm m) t
  show V m c main_v6 ((((cfgM m).win 0).blk t).view.emb x) = V m c main_v6 i
  refine congrArg (V m c main_v6) ?_
  funext a; apply Fin.ext
  match a with
  | ⟨0, _⟩ => show ((cfgM m).win 0).index t (0 : Fin 2) * 32 + 1 * (x 0).val = (i 0).val; rw [e0, h0]; omega
  | ⟨1, _⟩ => show ((cfgM m).win 0).index t (1 : Fin 2) * 10 + 1 * (x 1).val = (i 1).val; rw [e1, h1]; omega

/-- Window 1's block at every point is `Gᵀ` whole. -/
theorem iblk1_apply (c : Dev nD) (t : Fin (cfgM m).N) (x : S10x40000.Idx) :
    (iblk m c 1 t : Vec Ideal S10x40000 .bf16) x = gT m c x := by
  obtain ⟨-, -, -, e0, e1, -⟩ := point_facts (adm m) t
  show V m c main_v29 ((((cfgM m).win 1).blk t).view.emb x) = V m c main_v29 x
  refine congrArg (V m c main_v29) ?_
  funext a; apply Fin.ext
  match a with
  | ⟨0, _⟩ => show ((cfgM m).win 1).index t (0 : Fin 2) * 10 + 1 * (x 0).val = (x 0).val; rw [e0]; omega
  | ⟨1, _⟩ => show ((cfgM m).win 1).index t (1 : Fin 2) * 40000 + 1 * (x 1).val = (x 1).val; rw [e1]; omega

/-- Window 2's block at every point is `F_B` whole. -/
theorem iblk2_apply (c : Dev nD) (t : Fin (cfgM m).N) (x : S40000.Idx) :
    (iblk m c 2 t : Vec Ideal S40000 .f32) x = fB m c x := by
  obtain ⟨-, -, -, -, -, e0, -⟩ := point_facts (adm m) t
  show V m c main_arg5 ((((cfgM m).win 2).blk t).view.emb x) = V m c main_arg5 x
  refine congrArg (V m c main_arg5) ?_
  funext a; apply Fin.ext
  match a with
  | ⟨0, _⟩ => show ((cfgM m).win 2).index t (0 : Fin 1) * 40000 + 1 * (x 0).val = (x 0).val; rw [e0]; omega

/-! ## What a point leaves in the output block, at an index -/

/-- The stored block at row `p`, column `q`, over ANY three input blocks held whole in their buffers: the row of `K`
    the point's `p`-th word names, at `q`, times (the first block's row `p` against the second's column `q`, plus
    the third at `q`). -/
theorem outVal_apply (c : Dev nD) (i : grid0.Coords) (M0 : Memref sig .tc .smem S2048 .i32) (ft : Bf (F := Ideal) c M0)
    (hw : ∀ r, (uwd M0 ft i r).toNat < 2000) (fK : Vec Ideal S2000x40000 .f32)
    (arg2 : Memref sig .tc .vmem S32x10 .f32) (arg3 : Memref sig .tc .vmem S10x40000 .bf16) (arg4 : Memref sig .tc .vmem S40000 .f32)
    (h2 : arg2.IsWhole) (h3 : arg3.IsWhole) (h4 : arg4.IsWhole)
    (X2 : Vec Ideal S32x10 .f32) (X3 : Vec Ideal S10x40000 .bf16) (X4 : Vec Ideal S40000 .f32) (p : Fin 32) (q : Fin 40000) :
    outVal c i M0 ft hw fK arg2 arg3 arg4 (h2.unread X2) (h3.unread X3) (h4.unread X4) (ix2 p q)
      = fK (ix2 ⟨(uwd M0 ft i (p.cast trips_eq.symm)).toNat, hw _⟩ q)
          * ((∑ k : Fin 10, X2 (ix2 p k) * X3 (ix2 k q)) + X4 (ix1 q)) := by
  unfold outVal
  simp only [View.readAt_eq_ld, Memref.IsWhole.read_unread, View.read_whole, View.ld_unit_zero (S := S32x10) zeros2,
    View.ld_unit_zero (S := S10x40000) zeros2, View.ld_unit_zero (S := S40000) zeros1, View.ld_unit_zero (S := S32x40000) zeros2]
  rw [pay1_apply, tileVal_apply]

/-- Row `p`, column `q` of the block point `t` stores, `b = 32·t + p` the row of the output array it is:
    `K[user b, q] · (∑ₖ H[user] b k · Gᵀ k q + F_B q)`. -/
theorem outAt_apply (hH : Hyps (F := Ideal) m) (c : Dev nD) (t : Fin (cfgM m).N) (p : Fin 32) (q : Fin 40000) (b : Fin 2048)
    (hb : b.val = 32 * t.val + p.val) :
    outAt m hH c t (ix2 p q)
      = karr m c (ix2 ⟨(usr m c (ix1 b)).toNat, user_lt m hH c b⟩ q)
          * ((∑ k : Fin 10, hUser m c (ix2 b k) * gT m c (ix2 k q)) + fB m c (ix1 q)) := by
  have ht : ((grid0.coords t) 0).val = t.val := (point_facts (adm m) t).1
  have ew : uwd tbM (c := c) (tbl m 0) (grid0.coords t) (p.cast trips_eq.symm) = usr m c (ix1 b) := by
    obtain rfl : c = 0 := Subsingleton.elim _ _
    rw [uwd_entry (0 : Dev nD) (tbl m 0) (grid0.coords t) (p.cast trips_eq.symm) b (by rw [ht]; exact hb), tbl_eq_launch]
  unfold outAt
  refine (outVal_apply c (grid0.coords t) tbM (tbl m 0) (hH c (grid0.coords t)) (V m c main_arg4) (ms0 m t) (ms1 m t) (ms2 m t)
    (hs0 m t) (hs1 m t) (hs2 m t) (iblk m c 0 t) (iblk m c 1 t) (iblk m c 2 t) p q).trans ?_
  refine congrArg₂ (· * ·) ?_ (congrArg₂ (· + ·) (Finset.sum_congr rfl fun k _ => ?_) ?_)
  · show V m c main_arg4 _ = V m c main_arg4 _
    refine congrArg (V m c main_arg4) ?_
    funext a; apply Fin.ext
    match a with
    | ⟨0, _⟩ => exact congrArg BitVec.toNat ew
    | ⟨1, _⟩ => rfl
  · exact congrArg₂ (· * ·) (iblk0_apply m c t (ix2 p k) (ix2 b k) hb rfl) (iblk1_apply m c t (ix2 k q))
  · exact iblk2_apply m c t (ix1 q)

/-! ## The output array as one function of the arrays the region finds -/

/-- `K[user] ⊙ (H[user] · Gᵀ + 1 F_Bᵀ)`, entry by entry. -/
def outArr (hH : Hyps (F := Ideal) m) (c : Dev nD) : Vec Ideal S2048x40000 .f32 := fun i =>
  karr m c (ix2 ⟨(usr m c (ix1 (i 0))).toNat, user_lt m hH c (i 0)⟩ (i 1))
    * ((∑ k : Fin 10, hUser m c (ix2 (i 0) k) * gT m c (ix2 k (i 1))) + fB m c (ix1 (i 1)))

/-- The same function at a row and a column. -/
theorem outArr_apply (hH : Hyps (F := Ideal) m) (c : Dev nD) (b : Fin 2048) (n : Fin 40000) :
    outArr m hH c (ix2 b n)
      = karr m c (ix2 ⟨(usr m c (ix1 b)).toNat, user_lt m hH c b⟩ n)
          * ((∑ k : Fin 10, hUser m c (ix2 b k) * gT m c (ix2 k n)) + fB m c (ix1 n)) := rfl

/-- WHAT POINT `t` WRITES BACK is block `t` of that array. -/
theorem flushed3_eq (hH : Hyps (F := Ideal) m) (c : Dev nD) (t : Fin (cfgM m).N) :
    (dats m hH 0 c).flushed 3 t = (((cfgM m).win 3).blk t).view.read (Elt Ideal) (outArr m hH c) := by
  show ((cfgM m).win 3).cut (grid0.coords t) ((dats m hH 0 c).after 3 t) = _
  rw [after_3]
  obtain ⟨-, -, -, -, -, -, e0, e1⟩ := point_facts (adm m) t
  have hN : (cfgM m).N = 64 := N_0
  have htl := t.isLt
  refine funext fun (j : S32x40000.Idx) => ?_
  have hj0 : (j 0).val < 32 := (j 0).isLt
  have hj1 : (j 1).val < 40000 := (j 1).isLt
  have hb : 32 * t.val + (j 0).val < 2048 := by omega
  show outAt m hH c t (ix2 (⟨(j 0).val, hj0⟩ : Fin 32) (⟨(j 1).val, hj1⟩ : Fin 40000)) = outArr m hH c ((((cfgM m).win 3).blk t).view.emb j)
  have ei : ((((cfgM m).win 3).blk t).view.emb j : S2048x40000.Idx) = ix2 (⟨32 * t.val + (j 0).val, hb⟩ : Fin 2048) (⟨(j 1).val, hj1⟩ : Fin 40000) := by
    funext a; apply Fin.ext
    match a with
    | ⟨0, _⟩ => show ((cfgM m).win 3).index t (0 : Fin 2) * 32 + 1 * (j 0).val = 32 * t.val + (j 0).val; rw [e0]; omega
    | ⟨1, _⟩ => show ((cfgM m).win 3).index t (1 : Fin 2) * 40000 + 1 * (j 1).val = (j 1).val; rw [e1]; omega
  rw [ei]
  exact outAt_apply m hH c t ⟨(j 0).val, hj0⟩ ⟨(j 1).val, hj1⟩ ⟨32 * t.val + (j 0).val, hb⟩ rfl

/-! ## The cover, and the array after the region -/

/-- An index is under a rectangle of a whole buffer iff each coordinate is in the rectangle's range on its axis. -/
theorem mem_slice_whole_unit (b : Ref sig .tc) (off size : Fin b.ty.shape.rank → Nat) (inb) (i : b.ty.shape.Idx) :
    i ∈ ((View.whole b).slice (Rect.unit off size inb)).set ↔ ∀ a, off a ≤ (i a).val ∧ (i a).val < off a + size a := by
  rw [View.set_slice_whole, Rect.mem_set_unit]

/-- An index of the output array is in point `t`'s block iff each coordinate is in the block's range on its axis. -/
theorem mem_blk3 (t : Fin (cfgM m).N) (i : S2048x40000.Idx) :
    i ∈ (((cfgM m).win 3).blk t).view.set
      ↔ ∀ a : Fin 2, ((cfgM m).win 3).index t a * S32x40000.size a ≤ (i a).val ∧ (i a).val < ((cfgM m).win 3).index t a * S32x40000.size a + S32x40000.size a := by
  exact mem_slice_whole_unit main_v30 _ _ _ i

/-- Every point writes its output block back: the block index moves with the point. -/
theorem flush3 (t : Fin (cfgM m).N) : ((cfgM m).win 3).flush t = true := by
  have hN : (cfgM m).N = 64 := N_0
  unfold Pipeline.Window.flush
  rw [Bool.and_eq_true, Bool.or_eq_true, decide_eq_true_eq, decide_eq_true_eq]
  refine ⟨rfl, ?_⟩
  by_cases h : t.val + 1 = grid0.N
  · exact Or.inl h
  · have hlt : t.val + 1 < grid0.N := by have := t.isLt; have : grid0.N = 64 := N_0; omega
    refine Or.inr ⟨hlt, fun e => ?_⟩
    have e' := congrFun e (0 : Fin 2)
    rw [(point_facts (adm m) ⟨t.val + 1, hlt⟩).2.2.2.2.2.2.1, (point_facts (adm m) t).2.2.2.2.2.2.1] at e'
    exact absurd e' (by show t.val + 1 ≠ t.val; omega)

/-- Row `b` of the output array is in the block of point `b / 32`. -/
theorem covered3 (i : S2048x40000.Idx) : ∃ t : Fin (cfgM m).N, ((cfgM m).win 3).flush t = true ∧ i ∈ (((cfgM m).win 3).blk t).view.set := by
  have hN : (cfgM m).N = 64 := N_0
  have hi0 : (i 0).val < 2048 := (i 0).isLt
  have hi1 : (i 1).val < 40000 := (i 1).isLt
  refine ⟨⟨(i 0).val / 32, by rw [hN]; omega⟩, flush3 m _, ?_⟩
  rw [mem_blk3]
  obtain ⟨-, -, -, -, -, -, e0, e1⟩ := point_facts (adm m) ⟨(i 0).val / 32, by rw [hN]; omega⟩
  intro a
  match a with
  | ⟨0, _⟩ =>
    show ((cfgM m).win 3).index _ (0 : Fin 2) * 32 ≤ (i 0).val ∧ (i 0).val < ((cfgM m).win 3).index _ (0 : Fin 2) * 32 + 32
    rw [e0]; show (i 0).val / 32 * 32 ≤ (i 0).val ∧ (i 0).val < (i 0).val / 32 * 32 + 32; omega
  | ⟨1, _⟩ =>
    show ((cfgM m).win 3).index _ (1 : Fin 2) * 40000 ≤ (i 1).val ∧ (i 1).val < ((cfgM m).win 3).index _ (1 : Fin 2) * 40000 + 40000
    rw [e1]; omega

/-- THE OUTPUT ARRAY AFTER THE REGION is `K[user] ⊙ (H[user] · Gᵀ + 1 F_Bᵀ)`. -/
theorem arrAt3_eq (hH : Hyps (F := Ideal) m) (c : Dev nD) : (dats m hH 0 c).arrAt 3 (cfgM m).N = outArr m hH c :=
  (dats m hH 0 c).arrAt_eq_of_cover 3 (outArr m hH c) (fun t _ => flushed3_eq m hH c t) (covered3 m)

/-- The same at an entry: row `b`, column `n`. -/
theorem arrAt3_apply (hH : Hyps (F := Ideal) m) (c : Dev nD) (b : Fin 2048) (n : Fin 40000)
    (hb : (usr m c (ix1 b)).toNat < 2000) :
    ((dats m hH 0 c).arrAt 3 (cfgM m).N : Vec Ideal S2048x40000 .f32) (ix2 b n)
      = karr m c (ix2 ⟨(usr m c (ix1 b)).toNat, hb⟩ n)
          * ((∑ k : Fin 10, hUser m c (ix2 b k) * gT m c (ix2 k n)) + fB m c (ix1 n)) := by
  rw [arrAt3_eq]; rfl

end Cert.KernelIdeal.Hand

end
-- ==== Proof.RefSide.lean ====
import proofs.«401447_j35158602285715_3_alg».proof.Proof.RefReadP
import Idealize.ShloMosaic.Lib.StableHlo.Predicate

/-!
  The reference, read for the comparison with the kernel.

  The reference computes, for a batch row b with user word u_b and item word i_b,
      a_u[b, n] = K[u_b, n] * ((∑ k, H[u_b, k] * G[n, k]) + F_B[n])            (n over the 40000 features)
      out[b]    = (∑ over the 20 listed features f of a_u[b, f]) + I_B[i_b].
  Two facts are proved here.
  (A) `a_u_apply`: the stage a_u read at (b, n), for a user word in range (below 2000, the number of rows of K):
      the row lookup K[u_b] — whose start index is first wrapped (2000 added to a negative word) and then clamped into
      the table — reads row u_b itself, because a word below 2000 is not negative and is at most 1999; the small matrix
      product is the sum over the 10 factors; the bias is read at n. The looked-up row H[u_b] stays the named stage
      `val_main_v6`: it is not read at an index.
  (B) `res_eq_tailR`: the whole result is ONE function `tailR` of the stage a_u (the masked take along the feature axis,
      the sum over the 20 features, and the item bias), so that two programs that agree on a_u agree on the result;
      the function is never opened.
-/

noncomputable section

namespace Cert.ReferenceIdeal.RefSide

open Cert.ReferenceIdeal Cert.ReferenceIdeal.Gen Idealize.ShloMosaic Idealize.ShloMosaic.TcCoe Idealize.SL.Sem Idealize.ShloMosaic.StableHlo
open Idealize.ShloMosaic.ValueIdx
open Cert.ReferenceIdeal.ReadP

/-- A one-element list of axes read at a position is its element. -/
theorem getElem_singleton_axis {k : Nat} (l : List (Fin k)) (a : Fin k) (hl : l = [a]) (i : Nat) (hi : i < l.length) :
    l[i] = a := by
  subst hl
  have h0 : i = 0 := by simpa using hi
  subst h0
  rfl

/-- ROWS OF A TABLE TAKEN AT A COLUMN OF START INDICES, read at (b, n): the table at (the start index of row b,
    read signed and clamped into the table's rows, n). -/
theorem gather_rows_apply {α : Type} {N M R w : Nat} (d : GatherDims ⟨2, ![N, M]⟩ ⟨2, ![R, 1]⟩ ⟨2, ![R, M]⟩)
    (hoff : d.offsetDims = [1]) (hcoll : d.collapsedSliceDims = [0]) (hob : d.operandBatchingDims = [])
    (hsim : d.startIndexMap = [0]) (hivd : d.indexVectorDim = 1)
    (x : (⟨2, ![N, M]⟩ : Shape).Idx → α) (idx : IVec ⟨2, ![R, 1]⟩ w) (b : Fin R) (n : Fin M) (hN : 0 < N) :
    Host.gather d x idx (ix2 b n)
      = x (ix2 ⟨min (idx (ix2 b (0 : Fin 1))).toInt.toNat (N - 1), by omega⟩ n) := by
  unfold Host.gather
  congr 1
  funext a
  apply Fin.ext
  have hnb : ∀ a : Fin 2, a ∉ d.operandBatchingDims := fun a => by rw [hob]; exact List.not_mem_nil
  have h2 : ∀ a : Fin 2, a = 0 ∨ a = 1 := by decide
  rcases h2 a with rfl | rfl
  · have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    simp only [GatherDims.operandIdx, GatherDims.batchCoord_eq_zero _ _ _ (hnb _), GatherDims.offCoord_eq_zero _ _ _ hk,
      Nat.add_zero, GatherDims.start, dif_pos hm]
    show min (idx _).toInt.toNat (N - d.sliceSizes 0) = min (idx (ix2 b (0 : Fin 1))).toInt.toNat (N - 1)
    rw [hsl]
    congr 3
    congr 1
    funext c
    match c with
    | ⟨0, _⟩ =>
      -- the start indices' row axis is the result's one batch axis
      unfold GatherDims.siIdx
      rw [dif_neg (by rw [hivd]; simp)]
      unfold GatherDims.siCoord
      apply Fin.ext
      simp only [Fin.val_cast]
      have e : ∀ (l : List (Fin 2)) (i : Nat) (hi : i < l.length), l = [0] → ((ix2 b n : (⟨2, ![R, M]⟩ : Shape).Idx) (l[i]'hi)).val = b.val := by
        intro l i hi hl
        rw [getElem_singleton_axis l 0 hl i hi]
      refine e _ _ _ ?_
      show (⟨2, ![R, M]⟩ : Shape).kept d.offsetDims = [0]
      rw [hoff]; rfl
    | ⟨1, _⟩ =>
      unfold GatherDims.siIdx
      rw [dif_pos (by rw [hivd])]
      apply Fin.ext
      show List.idxOf (0 : Fin 2) d.startIndexMap = 0
      rw [hsim]; simp
  · have hm : (1 : Fin 2) ∉ d.startIndexMap := by rw [hsim]; simp
    have hk : (1 : Fin 2) ∈ d.sKept := by rw [GatherDims.mem_sKept, hcoll, hob]; simp
    simp only [GatherDims.operandIdx, GatherDims.batchCoord_eq_zero _ _ _ (hnb _), GatherDims.start, dif_neg hm,
      Nat.add_zero, Nat.zero_add]
    unfold GatherDims.offCoord
    rw [dif_pos hk]
    have e : ∀ (l : List (Fin 2)) (i : Nat) (hi : i < l.length), l = [1] → ((ix2 b n : (⟨2, ![R, M]⟩ : Shape).Idx) (l[i]'hi)).val = n.val := by
      intro l i hi hl
      rw [getElem_singleton_axis l 1 hl i hi]
    exact e _ _ _ hoff

/-! ## Words: a user word in range is neither wrapped nor clamped -/

/-- A word below 2000 is not negative: the signed comparison with zero is false. -/
theorem slt_zero_of_small (w : BitVec 32) (hw : w.toNat < 2000) : IntOp.cmpi .slt w 0#32 = 0#1 := by
  apply eq_zero_of_ne_one
  intro h
  have h' := (Predicate.slt_iff_toNat (a := w) (b := 0#32) (by omega) (by decide)).mp h
  exact absurd h' (by simp)

/-- A word below 2000, read signed and clamped into [0, 1999], is its own value. -/
theorem clamp_small (w : BitVec 32) (hw : w.toNat < 2000) : min w.toInt.toNat (2000 - 1) = w.toNat := by
  rw [Predicate.toInt_eq_toNat_of_lt (by omega), Int.toNat_natCast]
  omega

/-! ## (A) a_u at an index -/

/-- The wrapped user word of row b (2000 added when negative), for a word in range, is the word itself. -/
theorem wrap_apply (x0 : (⟨S2048, .i32⟩ : BufTy).Contents (Elt Ideal)) (b : Fin 2048)
    (hb : (x0 (ix1 b)).toNat < 2000) :
    val_main_v14 (F := Ideal) x0 (ix2 b (0 : Fin 1)) = x0 (ix1 b) := by
  have e : idx_main_v14 (ix2 b (0 : Fin 1)) = ix1 b := by
    funext a; match a with | ⟨0, _⟩ => rfl
  rw [val_main_v14_apply, val_main_v13_apply, val_main_v10_apply, val_main_v9_apply, val_main_c_1_apply, e,
    slt_zero_of_small _ hb, select_zero]

/-- The looked-up row of K at (b, n), for a user word in range: K at (u_b, n). -/
theorem k_u_apply (x0 : (⟨S2048, .i32⟩ : BufTy).Contents (Elt Ideal))
    (x4 : (⟨S2000x40000, .f32⟩ : BufTy).Contents (Elt Ideal)) (b : Fin 2048) (n : Fin 40000)
    (hb : (x0 (ix1 b)).toNat < 2000) :
    val_main_v15 (F := Ideal) x0 x4 (ix2 b n) = x4 (ix2 ⟨(x0 (ix1 b)).toNat, hb⟩ n) := by
  unfold val_main_v15
  rw [gather_rows_apply _ rfl rfl rfl rfl rfl x4 _ b n (by decide)]
  refine congrArg (fun r => x4 (ix2 r n)) (Fin.ext ?_)
  show min (val_main_v14 (F := Ideal) x0 (ix2 b (0 : Fin 1))).toInt.toNat (2000 - 1) = (x0 (ix1 b)).toNat
  rw [wrap_apply x0 b hb]
  exact clamp_small _ hb

/-- (A) THE STAGE a_u AT (b, n), for a user word in range: K[u_b, n] * ((∑ k, h_u[b, k] * G[n, k]) + F_B[n]), with h_u the
    looked-up rows of H kept as the named stage. -/
theorem a_u_apply (x0 : (⟨S2048, .i32⟩ : BufTy).Contents (Elt Ideal))
    (x2 : (⟨S2000x10, .f32⟩ : BufTy).Contents (Elt Ideal)) (x3 : (⟨S40000x10, .f32⟩ : BufTy).Contents (Elt Ideal))
    (x4 : (⟨S2000x40000, .f32⟩ : BufTy).Contents (Elt Ideal)) (x5 : (⟨S40000, .f32⟩ : BufTy).Contents (Elt Ideal))
    (b : Fin 2048) (n : Fin 40000) (hb : (x0 (ix1 b)).toNat < 2000) :
    val_main_v19 (F := Ideal) x0 x2 x3 x4 x5 (ix2 b n)
      = x4 (ix2 ⟨(x0 (ix1 b)).toNat, hb⟩ n)
        * ((∑ k : Fin 10, val_main_v6 (F := Ideal) x0 x2 (ix2 b k) * x3 (ix2 n k)) + x5 (ix1 n)) := by
  have e5 : idx_main_v16 (idx_main_v17 (ix2 b n)) = ix1 n := by
    funext a; match a with | ⟨0, _⟩ => rfl
  have eS : ∀ k : Fin 10,
      val_main_v6 (F := Ideal) x0 x2 (lidx_main_v8 (ix2 b n) k) * val_main_v7 (F := Ideal) x3 (ridx_main_v8 (ix2 b n) k)
        = val_main_v6 (F := Ideal) x0 x2 (ix2 b k) * x3 (ix2 n k) := by
    intro k
    have el : lidx_main_v8 (ix2 b n) k = ix2 b k := by
      funext a; match a with | ⟨0, _⟩ => rfl | ⟨1, _⟩ => rfl
    have er : idx_main_v7 (ridx_main_v8 (ix2 b n) k) = ix2 n k := by
      funext a; match a with | ⟨0, _⟩ => rfl | ⟨1, _⟩ => rfl
    rw [val_main_v7_apply, el, er]
  rw [val_main_v19_apply, val_main_v18_apply, val_main_v8_apply, val_main_v17_apply, val_main_v16_apply, e5,
    k_u_apply x0 x4 b n hb, Finset.sum_congr rfl (fun k _ => eS k)]
  rfl

/-! ## (B) the result as one function of a_u -/

variable {F : FTy → Type} [FloatOps F]

/-- The rest of the reference after a_u, as a function of a_u (`X`) and of the arguments it still reads (the user and item
    words, the item bias, the feature lists): the masked take of X along the feature axis at the listed features, the sum
    over the 20 features, plus the item bias at the item word. -/
def tailV (X : (⟨S2048x40000, .f32⟩ : BufTy).Contents (Elt F)) (x0 x1 : (⟨S2048, .i32⟩ : BufTy).Contents (Elt F))
    (x6 : (⟨S5000, .f32⟩ : BufTy).Contents (Elt F)) (x7 : (⟨S2000x5000x20, .i32⟩ : BufTy).Contents (Elt F)) :
    (⟨S2048, .f32⟩ : BufTy).Contents (Elt F) :=
  addf (Host.reduceAdd (select (val_main_call0_v12 (F := F) x0 x1 x7)
      (Host.gather gather_S2048x40000_S2048x20x1_S2048x20_n_1_0_0_1_2_11 X (val_main_call0_v5 (F := F) x0 x1 x7))
      (val_main_call0_v14 (F := F))) (val_main_cst (F := F)) reducesTo_S2048x20_S2048_d1 h_S_)
    (val_main_v42 (F := F) x1 x6)

/-- The last stage is that function of the stage a_u. -/
theorem val_main_v43_eq_tailV (x0 x1 : (⟨S2048, .i32⟩ : BufTy).Contents (Elt F))
    (x2 : (⟨S2000x10, .f32⟩ : BufTy).Contents (Elt F)) (x3 : (⟨S40000x10, .f32⟩ : BufTy).Contents (Elt F))
    (x4 : (⟨S2000x40000, .f32⟩ : BufTy).Contents (Elt F)) (x5 : (⟨S40000, .f32⟩ : BufTy).Contents (Elt F))
    (x6 : (⟨S5000, .f32⟩ : BufTy).Contents (Elt F)) (x7 : (⟨S2000x5000x20, .i32⟩ : BufTy).Contents (Elt F)) :
    val_main_v43 (F := F) x0 x1 x2 x3 x4 x5 x6 x7 = tailV (val_main_v19 (F := F) x0 x2 x3 x4 x5) x0 x1 x6 x7 := by
  unfold val_main_v43 val_main_v35 val_main_v34 val_main_call0_v13 tailV
  rfl

/-- The same function over a memory: the arguments read at their buffers. -/
def tailR (X : (⟨S2048x40000, .f32⟩ : BufTy).Contents (Elt F)) (m : (ℓ : Loc nD τ sig) → Buf (Elt F) ℓ) (c : Dev nD) :
    Buf (Elt F) ((c.tc : Thread nD τ).loc main_v43) :=
  tailV X (m ((c.tc : Thread nD τ).loc main_arg0)) (m ((c.tc : Thread nD τ).loc main_arg1))
    (m ((c.tc : Thread nD τ).loc main_arg6)) (m ((c.tc : Thread nD τ).loc main_arg7))

/-- (B) THE REFERENCE'S RESULT IS `tailR` OF ITS STAGE a_u. -/
theorem res_eq_tailR (m : (ℓ : Loc nD τ sig) → Buf (Elt F) ℓ) (c : Dev nD) :
    Cert.ReferenceIdeal.ValueP.res_main_v43 m c
      = tailR (val_main_v19 (F := F) (m ((c.tc : Thread nD τ).loc main_arg0)) (m ((c.tc : Thread nD τ).loc main_arg2))
          (m ((c.tc : Thread nD τ).loc main_arg3)) (m ((c.tc : Thread nD τ).loc main_arg4))
          (m ((c.tc : Thread nD τ).loc main_arg5))) m c :=
  (val_main_v43_eq m c).trans (val_main_v43_eq_tailV _ _ _ _ _ _ _ _)

end Cert.ReferenceIdeal.RefSide

end
-- ==== Proof.Bridge.lean ====
import proofs.«401447_j35158602285715_3_alg».proof.Proof.RefSide
import proofs.«401447_j35158602285715_3_alg».proof.Proof.KIHost

/-!
  The kernel's result and the reference's result are the same function of the same arguments.

  Both programs compute, per batch row b, a_u[b, ·] = K[u_b, ·] * (h_u[b, ·] Gᵀ + F_B), then sum a_u[b, f] over the row's 20
  listed features f and add the item bias. They differ in how a_u comes about (the kernel's pipelined region against the
  reference's whole-array operations) and in nothing after it. So the comparison has three parts:
    * what goes into a_u is the same on both sides — the looked-up rows h_u are one term (`huK_eq`), and the kernel's
      narrowed transpose of G reads, over the extended reals where a narrowing is the identity, G at the swapped index
      (`gtK_apply`); with the region's output known element by element this makes the region's output the reference's stage
      a_u (`a_eq`);
    * what comes after a_u is ONE function of a_u on both sides (`tails_agree`): the two programs' later lines are the same
      operations over the same feature lists and bias row, compared once at an abstract float family and never opened again;
    * the two memories hold the same eight arguments (`result_eq`, the assembly).
-/

noncomputable section

namespace Cert.Proof.Bridge

open Idealize.ShloMosaic Idealize.ShloMosaic.TcCoe Idealize.SL.Sem Idealize.ShloMosaic.StableHlo
open Idealize.ShloMosaic.ValueIdx

/-! ## The kernel's buffers before the region, as functions of the arguments' contents -/

section KernelSide

open Cert.KernelIdeal Cert.KernelIdeal.Gen Cert.KernelIdeal.Hand

variable {F : FTy → Type} [FloatOps F]

/-- A user or item word wrapped: the table's row count added to a negative word. -/
def wrapK (n : BitVec 32) (x : (⟨S2048, .i32⟩ : BufTy).Contents (Elt F)) : (⟨S2048x1, .i32⟩ : BufTy).Contents (Elt F) :=
  broadcastInDim S2048x1 ![0] bcast_S2048_S2048x1_0 (select (cmpi .slt x (broadcastInDim S2048 ![] bcast_S_S2048 (constantI S_ 32 0#32))) (addi x (broadcastInDim S2048 ![] bcast_S_S2048 (constantI S_ 32 n))) x)

/-- The rows of H at the wrapped user words. -/
def huK (x0 : (⟨S2048, .i32⟩ : BufTy).Contents (Elt F)) (x2 : (⟨S2000x10, .f32⟩ : BufTy).Contents (Elt F)) :
    (⟨S2048x10, .f32⟩ : BufTy).Contents (Elt F) :=
  Host.gather gather_S2000x10_S2048x1_S2048x10_1_0_n_n_0_1_110 x2 (wrapK 2000#32 x0)

/-- The transposed G, each element narrowed. -/
def gtK (x3 : (⟨S40000x10, .f32⟩ : BufTy).Contents (Elt F)) : (⟨S10x40000, .bf16⟩ : BufTy).Contents (Elt F) :=
  truncf .bf16 (transpose S10x40000 [1, 0] x3 transposes_S40000x10_S10x40000_1_0) bitsLt_bf16_f32

/-- The feature lists at the wrapped (user, item) pairs. -/
def featsK (x0 x1 : (⟨S2048, .i32⟩ : BufTy).Contents (Elt F)) (x7 : (⟨S2000x5000x20, .i32⟩ : BufTy).Contents (Elt F)) :
    (⟨S2048x20, .i32⟩ : BufTy).Contents (Elt F) :=
  Host.gather gather_S2000x5000x20_S2048x2_S2048x20_1_01_n_n_01_1_1120 x7
    (concatenate S2048x2 1 [⟨S2048x1, wrapK 2000#32 x0⟩, ⟨S2048x1, wrapK 5000#32 x1⟩] concatenates_S2048x1_S2048x1_S2048x2_d1)

/-- The item bias at the wrapped item words. -/
def ibK (x1 : (⟨S2048, .i32⟩ : BufTy).Contents (Elt F)) (x6 : (⟨S5000, .f32⟩ : BufTy).Contents (Elt F)) :
    (⟨S2048, .f32⟩ : BufTy).Contents (Elt F) :=
  Host.gather gather_S5000_S2048x1_S2048_n_0_n_n_0_1_1 x6 (wrapK 5000#32 x1)

variable (m : (ℓ : Loc nD τ sig) → Buf (Elt F) ℓ) (c : Dev nD)

theorem V_hu : V m c main_v6 = huK (m ((c : Thread nD τ).loc main_arg0)) (m ((c : Thread nD τ).loc main_arg2)) :=
  V_main_v6 m c
theorem V_gt : V m c main_v29 = gtK (m ((c : Thread nD τ).loc main_arg3)) := V_main_v29 m c
theorem V_feats : V m c main_v20
    = featsK (m ((c : Thread nD τ).loc main_arg0)) (m ((c : Thread nD τ).loc main_arg1)) (m ((c : Thread nD τ).loc main_arg7)) :=
  V_main_v20 m c
theorem V_ib : V m c main_v27 = ibK (m ((c : Thread nD τ).loc main_arg1)) (m ((c : Thread nD τ).loc main_arg6)) :=
  V_main_v27 m c

end KernelSide

/-! ## What goes into a_u is the same on both sides -/

section Inputs

variable {F : FTy → Type} [FloatOps F]

/-- (1) THE LOOKED-UP ROWS OF H ARE ONE TERM: the kernel's lines and the reference's are the same operations. -/
theorem huK_eq (x0 : (⟨Cert.ReferenceIdeal.S2048, .i32⟩ : BufTy).Contents (Elt F))
    (x2 : (⟨Cert.ReferenceIdeal.S2000x10, .f32⟩ : BufTy).Contents (Elt F)) :
    huK x0 x2 = Cert.ReferenceIdeal.ReadP.val_main_v6 (F := F) x0 x2 := by
  unfold huK wrapK Cert.ReferenceIdeal.ReadP.val_main_v6 Cert.ReferenceIdeal.ReadP.val_main_v5
    Cert.ReferenceIdeal.ReadP.val_main_v4 Cert.ReferenceIdeal.ReadP.val_main_v1 Cert.ReferenceIdeal.ReadP.val_main_v3
    Cert.ReferenceIdeal.ReadP.val_main_v0 Cert.ReferenceIdeal.ReadP.val_main_v2 Cert.ReferenceIdeal.ReadP.val_main_c
    Cert.ReferenceIdeal.ReadP.val_main_c_0
  rfl

/-- (2) THE NARROWED TRANSPOSE OF G AT (k, n), over the extended reals: G at (n, k). -/
theorem gtK_apply (x3 : (⟨Cert.ReferenceIdeal.S40000x10, .f32⟩ : BufTy).Contents (Elt Ideal)) (k : Fin 10) (n : Fin 40000) :
    gtK (F := Ideal) x3 (ix2 k n) = x3 (ix2 n k) := by
  unfold gtK
  rw [truncf_apply]
  exact Idealize.ShloMosaic.transpose_apply [1, 0] x3 _ (ix2 k n) (ix2 n k) (fun b => match b with
    | ⟨0, _⟩ => rfl
    | ⟨1, _⟩ => rfl)

end Inputs

/-! ## What comes after a_u is one function of a_u -/

section Tail

variable {F : FTy → Type} [FloatOps F]

/-- (3) THE TWO TAILS ARE ONE FUNCTION: the kernel's lines after the region, fed the kernel's feature lists and bias row,
    and the reference's lines after its stage a_u are the same operations on the same arguments. -/
theorem tails_agree (X : (⟨Cert.ReferenceIdeal.S2048x40000, .f32⟩ : BufTy).Contents (Elt F))
    (x0 x1 : (⟨Cert.ReferenceIdeal.S2048, .i32⟩ : BufTy).Contents (Elt F))
    (x6 : (⟨Cert.ReferenceIdeal.S5000, .f32⟩ : BufTy).Contents (Elt F))
    (x7 : (⟨Cert.ReferenceIdeal.S2000x5000x20, .i32⟩ : BufTy).Contents (Elt F)) :
    Cert.KernelIdeal.Hand.tailK X (featsK x0 x1 x7) (ibK x1 x6) = Cert.ReferenceIdeal.RefSide.tailV X x0 x1 x6 x7 := by
  unfold Cert.KernelIdeal.Hand.tailK Cert.KernelIdeal.Hand.tailIdx featsK ibK wrapK Cert.ReferenceIdeal.RefSide.tailV
  rfl

end Tail

/-! ## The region's output is the reference's stage a_u -/

/-- (4) Over the extended reals, an array that is, element by element, K[u_b, n] * ((∑ k, h_u[b, k] * Gᵀ[k, n]) + F_B[n]) — with
    h_u and Gᵀ the kernel's buffers — is the reference's stage a_u, every user word being in range. -/
theorem a_eq (x0 : (⟨Cert.ReferenceIdeal.S2048, .i32⟩ : BufTy).Contents (Elt Ideal))
    (x2 : (⟨Cert.ReferenceIdeal.S2000x10, .f32⟩ : BufTy).Contents (Elt Ideal))
    (x3 : (⟨Cert.ReferenceIdeal.S40000x10, .f32⟩ : BufTy).Contents (Elt Ideal))
    (x4 : (⟨Cert.ReferenceIdeal.S2000x40000, .f32⟩ : BufTy).Contents (Elt Ideal))
    (x5 : (⟨Cert.ReferenceIdeal.S40000, .f32⟩ : BufTy).Contents (Elt Ideal))
    (A : (⟨Cert.ReferenceIdeal.S2048x40000, .f32⟩ : BufTy).Contents (Elt Ideal))
    (Hu : (⟨Cert.ReferenceIdeal.S2048x10, .f32⟩ : BufTy).Contents (Elt Ideal))
    (Gt : (⟨Cert.ReferenceIdeal.S10x40000, .bf16⟩ : BufTy).Contents (Elt Ideal))
    (hHu : Hu = huK x0 x2) (hGt : Gt = gtK x3)
    (huser : ∀ j, (x0 j).toNat < 2000)
    (hA : ∀ (b : Fin 2048) (n : Fin 40000) (hb : (x0 (ix1 b)).toNat < 2000),
      A (ix2 b n) = x4 (ix2 ⟨(x0 (ix1 b)).toNat, hb⟩ n) * ((∑ k : Fin 10, Hu (ix2 b k) * Gt (ix2 k n)) + x5 (ix1 n))) :
    A = Cert.ReferenceIdeal.ReadP.val_main_v19 (F := Ideal) x0 x2 x3 x4 x5 := by
  subst hHu hGt
  funext i
  obtain ⟨b, n, rfl⟩ : ∃ b n, i = ix2 b n := ⟨i 0, i 1, eq_ix2 i⟩
  rw [hA b n (huser _), Cert.ReferenceIdeal.RefSide.a_u_apply x0 x2 x3 x4 x5 b n (huser _), huK_eq]
  refine congrArg (fun s => x4 (ix2 ⟨(x0 (ix1 b)).toNat, huser _⟩ n) * (s + x5 (ix1 n))) ?_
  exact Finset.sum_congr rfl (fun k _ => congrArg (fun g => Cert.ReferenceIdeal.ReadP.val_main_v6 (F := Ideal) x0 x2 (ix2 b k) * g) (gtK_apply x3 k n))

/-! ## The assembly -/

/-- (5) THE KERNEL'S RESULT IS THE REFERENCE'S. The kernel leaves its later lines' function of the region's output A, of its
    feature lists and of its bias row; the reference leaves its composed term. With A known element by element, every user
    word in range and the two memories agreeing on the eight arguments, they are equal. -/
theorem result_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (A : (⟨Cert.ReferenceIdeal.S2048x40000, .f32⟩ : BufTy).Contents (Elt Ideal))
    (u : (⟨Cert.ReferenceIdeal.S2048, .i32⟩ : BufTy).Contents (Elt Ideal))
    (Kc : (⟨Cert.ReferenceIdeal.S2000x40000, .f32⟩ : BufTy).Contents (Elt Ideal))
    (FBc : (⟨Cert.ReferenceIdeal.S40000, .f32⟩ : BufTy).Contents (Elt Ideal))
    (Hu : (⟨Cert.ReferenceIdeal.S2048x10, .f32⟩ : BufTy).Contents (Elt Ideal))
    (Gt : (⟨Cert.ReferenceIdeal.S10x40000, .bf16⟩ : BufTy).Contents (Elt Ideal))
    (hu : u = m ((c.tc : Thread Cert.KernelIdeal.nD Cert.KernelIdeal.τ).loc Cert.KernelIdeal.main_arg0))
    (hKc : Kc = m ((c.tc : Thread Cert.KernelIdeal.nD Cert.KernelIdeal.τ).loc Cert.KernelIdeal.main_arg4))
    (hFBc : FBc = m ((c.tc : Thread Cert.KernelIdeal.nD Cert.KernelIdeal.τ).loc Cert.KernelIdeal.main_arg5))
    (hHu : Hu = Cert.KernelIdeal.Hand.V m c Cert.KernelIdeal.main_v6)
    (hGt : Gt = Cert.KernelIdeal.Hand.V m c Cert.KernelIdeal.main_v29)
    (huser : ∀ j, (u j).toNat < 2000)
    (hA : ∀ (b : Fin 2048) (n : Fin 40000) (hb : (u (ix1 b)).toNat < 2000),
      A (ix2 b n) = Kc (ix2 ⟨(u (ix1 b)).toNat, hb⟩ n) * ((∑ k : Fin 10, Hu (ix2 b k) * Gt (ix2 k n)) + FBc (ix1 n))) :
    Cert.KernelIdeal.Hand.tailK A (Cert.KernelIdeal.Hand.V m c Cert.KernelIdeal.main_v20) (Cert.KernelIdeal.Hand.V m c Cert.KernelIdeal.main_v27)
      = Cert.ReferenceIdeal.ValueP.res_main_v43 m' c := by
  obtain ⟨h0, h1, h2, h3, h4, h5, h6, h7⟩ := hagree
  subst hu hKc hFBc hHu hGt
  have hAeq := a_eq _ (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) _ _ A _ _ (V_hu m c) (V_gt m c) huser hA
  rw [Cert.ReferenceIdeal.RefSide.res_eq_tailR m' c]
  unfold Cert.ReferenceIdeal.RefSide.tailR
  rw [h0, h1, h2, h3, h4, h5, h6, h7, V_feats, V_ib, tails_agree, hAeq]

end Cert.Proof.Bridge

end
-- ==== Proof.lean ====
/-
  The certificate of the gather-and-combine kernel against its reference, over the extended reals.

  Both programs compute, for each of 2048 queries b with `user[b]` in range,
      Σ_f  A[b, C[user b, item b, f]]  +  I_B[item b],      A[b, n] = K[user b, n] · (Σ_k H[user b, k] · G[n, k] + F_B[n]),
  the sum over the 20 listed features, an out-of-range feature index contributing the fill value of the masked gather.
  The reference forms `A` by one gather of `K`, one matrix product and two pointwise operations; the kernel forms it 32 rows
  at a time: it copies the 32 rows of `K` the `user` words name into a scratch tile by 32 transfers on one semaphore,
  multiplies the block of `H[user]` by `Gᵀ` meanwhile, waits for all 32 copies, and stores tile · (product + `F_B`).
  The host lines before the launch (the lookups `H[user]`, `C[user, item]`, `I_B[item]`, the transposed `G`) and after it
  (the masked gather along the features, the sum, the bias) are the reference's own.

  The kernel addresses `K` by the raw word, so each frame needs every `user` word to name a row of `K`: the precondition's
  conjunct `0 ≤ user < 2000`. Under it: the three frames (the kernel's at both readings of the floats from one text, by
  the launch theorem for a pipeline with a table whose body moves one operand itself; the reference's from its run);
  nothing was rewritten by the idealization, so `preserves` holds trivially; and the two results are one function of the
  arguments: the narrowing of `H[user]` and `Gᵀ` is the identity on the extended reals, the matrix unit's product into a
  zero accumulator is the plain sum, and an in-range word is its own wrapped and clamped index. No law used needs
  finiteness: both sides are the same sums and products in the same arrangement.
-/
import proofs.«401447_j35158602285715_3_alg».proof.Defs
import proofs.«401447_j35158602285715_3_alg».proof.Proof.Gen.Kernel
import proofs.«401447_j35158602285715_3_alg».proof.Proof.Gen.KernelIdeal
import proofs.«401447_j35158602285715_3_alg».proof.Proof.Gen.ReferenceIdeal
import proofs.«401447_j35158602285715_3_alg».proof.Proof.Gen.Pre_finite_inputs
import proofs.«401447_j35158602285715_3_alg».proof.Proof.KBFrame
import proofs.«401447_j35158602285715_3_alg».proof.Proof.KBHyps
import proofs.«401447_j35158602285715_3_alg».proof.Proof.KIFrame
import proofs.«401447_j35158602285715_3_alg».proof.Proof.KIHyps
import proofs.«401447_j35158602285715_3_alg».proof.Proof.KIResult
import proofs.«401447_j35158602285715_3_alg».proof.Proof.KIValue
import proofs.«401447_j35158602285715_3_alg».proof.Proof.RefSide
import proofs.«401447_j35158602285715_3_alg».proof.Proof.Bridge
import proofs.«401447_j35158602285715_3_alg».proof.Proof.PreDecode
import proofs.«401447_j35158602285715_3_alg».proof.Proof.KIHost

noncomputable section

namespace Cert.Proof

open Idealize.ShloMosaic Idealize.ShloMosaic.TcCoe Idealize.SL.Sem

/-- The word-level kernel runs to the end and keeps its arguments: the frame of its launch, under the range fact the
    precondition gives. -/
theorem frame_k : Cert.frame_Kernel := fun m ρ hp =>
  Cert.Kernel.Hand.frame m ρ (Cert.Kernel.Hand.hyps_of_pre m hp)

/-- The same for the kernel read over the extended reals. -/
theorem frame_ki : Cert.frame_KernelIdeal := fun m ρ hp =>
  Cert.KernelIdeal.Hand.frame m ρ (Cert.KernelIdeal.Hand.hyps_of_pre m hp)

/-- The reference is host operations only: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Run from memories that agree on the arguments, the two programs end with equal results. -/
theorem algebraic : Cert.algebraic_KernelIdeal_ReferenceIdeal := by
  intro m ρ m' ρ' hp hagree
  have hH : Cert.KernelIdeal.Hand.Hyps (F := Ideal) m := Cert.KernelIdeal.Hand.hyps_of_pre m hp
  refine ⟨fun c => Cert.KernelIdeal.Hand.tailK (F := Ideal)
      ((Cert.KernelIdeal.Hand.dats m hH 0 c).arrAt 3 (Cert.KernelIdeal.Hand.cfgM m).N)
      (Cert.KernelIdeal.Hand.V m c Cert.KernelIdeal.main_v20) (Cert.KernelIdeal.Hand.V m c Cert.KernelIdeal.main_v27), ?_, ?_⟩
  · exact (θ_run Cert.KernelIdeal.defs _ _).mono
      (fun _ h c => ⟨Cert.KernelIdeal.Hand.final_result m hH h c, Cert.KernelIdeal.Hand.args_kept m hH h c⟩)
      (Cert.KernelIdeal.Hand.run_main m ρ hH)
  · refine (θ_run Cert.ReferenceIdeal.defs _ _).mono (fun _ h c => ⟨(h c).1.trans ?_, (h c).2⟩)
      (Cert.ReferenceIdeal.ValueP.run (F := Ideal) m' ρ')
    -- the precondition's range fact of the `user` words
    have huser : ∀ j, ((m ((c.tc : Thread Cert.KernelIdeal.nD Cert.KernelIdeal.τ).loc Cert.KernelIdeal.main_arg0)
        : (⟨Cert.ReferenceIdeal.S2048, .i32⟩ : BufTy).Contents (Elt Ideal)) j).toNat < 2000 :=
      fun j => Cert.Proof.PreDecode.user_lt_of_pre (F := Ideal) _ _ _ _ _ _ _ _ (hp c) j
    -- the kernel's output array index by index, the reference's `a_u` index by index, one tail: the bridge
    exact (Cert.Proof.Bridge.result_eq m m' c (hagree c) _ _ _ _ _ _ rfl (Cert.KernelIdeal.Hand.V_main_arg4 m c)
      (Cert.KernelIdeal.Hand.V_main_arg5 m c) rfl rfl huser
      (fun b n hb => Cert.KernelIdeal.Hand.arrAt3_apply m hH c b n hb)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
